-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x3x28x28 : Shape := ⟨4, ![512, 3, 28, 28]⟩
abbrev S5x9x32x32 : Shape := ⟨4, ![5, 9, 32, 32]⟩
abbrev S5x32x1 : Shape := ⟨3, ![5, 32, 1]⟩
abbrev S32x128x1024 : Shape := ⟨3, ![32, 128, 1024]⟩
abbrev S1x128 : Shape := ⟨2, ![1, 128]⟩
abbrev S1x1024 : Shape := ⟨2, ![1, 1024]⟩
abbrev S_ : Shape := ⟨0, ![]⟩
abbrev S1x30 : Shape := ⟨2, ![1, 30]⟩
abbrev S1x124 : Shape := ⟨2, ![1, 124]⟩

class Facts : Prop where
  bcast_S_S512x3x28x28 : S_.BroadcastsInDim S512x3x28x28 (![] : Fin 0 → Fin S512x3x28x28.rank)
  reducesTo_S512x3x28x28_S_d0_1_2_3 : S512x3x28x28.ReducesTo [0, 1, 2, 3] S_
  h_S_ : 0 < S_.numel
  bcast_S_S5x9x32x32 : S_.BroadcastsInDim S5x9x32x32 (![] : Fin 0 → Fin S5x9x32x32.rank)
  reducesTo_S5x9x32x32_S_d0_1_2_3 : S5x9x32x32.ReducesTo [0, 1, 2, 3] S_
  bcast_S_S5x32x1 : S_.BroadcastsInDim S5x32x1 (![] : Fin 0 → Fin S5x32x1.rank)
  reducesTo_S5x32x1_S_d0_1_2 : S5x32x1.ReducesTo [0, 1, 2] S_
  bcast_S_S32x128x1024 : S_.BroadcastsInDim S32x128x1024 (![] : Fin 0 → Fin S32x128x1024.rank)
  reducesTo_S32x128x1024_S_d0_1_2 : S32x128x1024.ReducesTo [0, 1, 2] S_
  bcast_S_S1x128 : S_.BroadcastsInDim S1x128 (![] : Fin 0 → Fin S1x128.rank)
  reducesTo_S1x128_S_d0_1 : S1x128.ReducesTo [0, 1] S_
  bcast_S_S1x1024 : S_.BroadcastsInDim S1x1024 (![] : Fin 0 → Fin S1x1024.rank)
  reducesTo_S1x1024_S_d0_1 : S1x1024.ReducesTo [0, 1] S_
  slices_S1x1024_S1x30_0_0 : S1x1024.Slices ![0, 0] S1x30
  bcast_S_S1x30 : S_.BroadcastsInDim S1x30 (![] : Fin 0 → Fin S1x30.rank)
  reducesTo_S1x30_S_d0_1 : S1x30.ReducesTo [0, 1] S_
  slices_S1x1024_S1x30_0_870 : S1x1024.Slices ![0, 870] S1x30
  slicesBy_S1x1024_S1x30_0s1_0s30 : S1x1024.SlicesBy (![0, 0] : Fin 2 → Nat) ![1, 30] S1x30
  slicesBy_S1x1024_S1x30_0s1_29s30 : S1x1024.SlicesBy (![0, 29] : Fin 2 → Nat) ![1, 30] S1x30
  slices_S1x1024_S1x124_0_900 : S1x1024.Slices ![0, 900] S1x124
  bcast_S_S1x124 : S_.BroadcastsInDim S1x124 (![] : Fin 0 → Fin S1x124.rank)
  reducesTo_S1x124_S_d0_1 : S1x124.ReducesTo [0, 1] S_

variable [Facts]

def fn_part3 {F : FTy → Type} [FloatOps F] (main_v48 : IVec S_ 1) (main_v49 : FVec F S1x124 .f32) (main_v50 : FVec F S1x124 .f32) : IVec S_ 1 :=
  let main_v51 : IVec S1x124 1 := cmpf .oeq main_v49 main_v50
  let main_c_19 : IVec S_ 1 := constantI S_ 1 1#1
  let main_v52 : IVec S_ 1 := (fun x v => Host.reduce IntOp.andi x v reducesTo_S1x124_S_d0_1 h_S_) main_v51 main_c_19
  let main_v53 : IVec S_ 1 := andi main_v48 main_v52
  main_v53

def fn_part2 {F : FTy → Type} [FloatOps F] (main_arg5 : FVec F S1x1024 .f32) (main_v33 : IVec S_ 1) : IVec S_ 1 :=
  let main_v34 : FVec F S1x30 .f32 := (extractStridedSlice S1x30 ![0, 870] · slices_S1x1024_S1x30_0_870) main_arg5
  let main_cst_12 : FVec F S_ .f32 := constant S_ .f32 0x00000000#32
  let main_v35 : FVec F S1x30 .f32 := broadcastInDim S1x30 ![] bcast_S_S1x30 main_cst_12
  let main_v36 : IVec S1x30 1 := cmpf .oeq main_v34 main_v35
  let main_c_13 : IVec S_ 1 := constantI S_ 1 1#1
  let main_v37 : IVec S_ 1 := (fun x v => Host.reduce IntOp.andi x v reducesTo_S1x30_S_d0_1 h_S_) main_v36 main_c_13
  let main_v38 : IVec S_ 1 := andi main_v33 main_v37
  let main_v39 : FVec F S1x30 .f32 := (Host.slice S1x30 ![0, 0] ![1, 30] · slicesBy_S1x1024_S1x30_0s1_0s30) main_arg5
  let main_cst_14 : FVec F S_ .f32 := constant S_ .f32 0x00000000#32
  let main_v40 : FVec F S1x30 .f32 := broadcastInDim S1x30 ![] bcast_S_S1x30 main_cst_14
  let main_v41 : IVec S1x30 1 := cmpf .oeq main_v39 main_v40
  let main_c_15 : IVec S_ 1 := constantI S_ 1 1#1
  let main_v42 : IVec S_ 1 := (fun x v => Host.reduce IntOp.andi x v reducesTo_S1x30_S_d0_1 h_S_) main_v41 main_c_15
  let main_v43 : IVec S_ 1 := andi main_v38 main_v42
  let main_v44 : FVec F S1x30 .f32 := (Host.slice S1x30 ![0, 29] ![1, 30] · slicesBy_S1x1024_S1x30_0s1_29s30) main_arg5
  let main_cst_16 : FVec F S_ .f32 := constant S_ .f32 0x00000000#32
  let main_v45 : FVec F S1x30 .f32 := broadcastInDim S1x30 ![] bcast_S_S1x30 main_cst_16
  let main_v46 : IVec S1x30 1 := cmpf .oeq main_v44 main_v45
  let main_c_17 : IVec S_ 1 := constantI S_ 1 1#1
  let main_v47 : IVec S_ 1 := (fun x v => Host.reduce IntOp.andi x v reducesTo_S1x30_S_d0_1 h_S_) main_v46 main_c_17
  let main_v48 : IVec S_ 1 := andi main_v43 main_v47
  let main_v49 : FVec F S1x124 .f32 := (extractStridedSlice S1x124 ![0, 900] · slices_S1x1024_S1x124_0_900) main_arg5
  let main_cst_18 : FVec F S_ .f32 := constant S_ .f32 0x00000000#32
  let main_v50 : FVec F S1x124 .f32 := broadcastInDim S1x124 ![] bcast_S_S1x124 main_cst_18
  fn_part3 (F := F) main_v48 main_v49 main_v50

def fn_part1 {F : FTy → Type} [FloatOps F] (main_arg4 : FVec F S1x128 .f32) (main_arg5 : FVec F S1x1024 .f32) (main_v13 : IVec S_ 1) (main_v16 : IVec S32x128x1024 1) : IVec S_ 1 :=
  let main_c_5 : IVec S_ 1 := constantI S_ 1 1#1
  let main_v17 : IVec S_ 1 := (fun x v => Host.reduce IntOp.andi x v reducesTo_S32x128x1024_S_d0_1_2 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x30 .f32 := (extractStridedSlice S1x30 ![0, 0] · slices_S1x1024_S1x30_0_0) main_arg5
  let main_cst_10 : FVec F S_ .f32 := constant S_ .f32 0x00000000#32
  let main_v30 : FVec F S1x30 .f32 := broadcastInDim S1x30 ![] bcast_S_S1x30 main_cst_10
  let main_v31 : IVec S1x30 1 := cmpf .oeq main_v29 main_v30
  let main_c_11 : IVec S_ 1 := constantI S_ 1 1#1
  let main_v32 : IVec S_ 1 := (fun x v => Host.reduce IntOp.andi x v reducesTo_S1x30_S_d0_1 h_S_) main_v31 main_c_11
  let main_v33 : IVec S_ 1 := andi main_v28 main_v32
  fn_part2 (F := F) main_arg5 main_v33

def fn {F : FTy → Type} [FloatOps F] (main_arg0 : FVec F S512x3x28x28 .f32) (main_arg1 : FVec F S5x9x32x32 .f32) (main_arg2 : FVec F S5x32x1 .f32) (main_arg3 : FVec F S32x128x1024 .f32) (main_arg4 : FVec F S1x128 .f32) (main_arg5 : FVec F S1x1024 .f32) : IVec S_ 1 :=
  let main_v0 : FVec F S512x3x28x28 .f32 := Host.absf main_arg0
  let main_cst : FVec F S_ .f32 := constant S_ .f32 0x7F800000#32
  let main_v1 : FVec F S512x3x28x28 .f32 := broadcastInDim S512x3x28x28 ![] bcast_S_S512x3x28x28 main_cst
  let main_v2 : IVec S512x3x28x28 1 := cmpf .olt main_v0 main_v1
  let main_c : IVec S_ 1 := constantI S_ 1 1#1
  let main_v3 : IVec S_ 1 := (fun x v => Host.reduce IntOp.andi x v reducesTo_S512x3x28x28_S_d0_1_2_3 h_S_) main_v2 main_c
  let main_v4 : FVec F S5x9x32x32 .f32 := Host.absf main_arg1
  let main_cst_0 : FVec F S_ .f32 := constant S_ .f32 0x7F800000#32
  let main_v5 : FVec F S5x9x32x32 .f32 := broadcastInDim S5x9x32x32 ![] bcast_S_S5x9x32x32 main_cst_0
  let main_v6 : IVec S5x9x32x32 1 := cmpf .olt main_v4 main_v5
  let main_c_1 : IVec S_ 1 := constantI S_ 1 1#1
  let main_v7 : IVec S_ 1 := (fun x v => Host.reduce IntOp.andi x v reducesTo_S5x9x32x32_S_d0_1_2_3 h_S_) main_v6 main_c_1
  let main_v8 : IVec S_ 1 := andi main_v3 main_v7
  let main_v9 : FVec F S5x32x1 .f32 := Host.absf main_arg2
  let main_cst_2 : FVec F S_ .f32 := constant S_ .f32 0x7F800000#32
  let main_v10 : FVec F S5x32x1 .f32 := broadcastInDim S5x32x1 ![] bcast_S_S5x32x1 main_cst_2
  let main_v11 : IVec S5x32x1 1 := cmpf .olt main_v9 main_v10
  let main_c_3 : IVec S_ 1 := constantI S_ 1 1#1
  let main_v12 : IVec S_ 1 := (fun x v => Host.reduce IntOp.andi x v reducesTo_S5x32x1_S_d0_1_2 h_S_) main_v11 main_c_3
  let main_v13 : IVec S_ 1 := andi main_v8 main_v12
  let main_v14 : FVec F S32x128x1024 .f32 := Host.absf main_arg3
  let main_cst_4 : FVec F S_ .f32 := constant S_ .f32 0x7F800000#32
  let main_v15 : FVec F S32x128x1024 .f32 := broadcastInDim S32x128x1024 ![] bcast_S_S32x128x1024 main_cst_4
  let main_v16 : IVec S32x128x1024 1 := cmpf .olt main_v14 main_v15
  fn_part1 (F := F) main_arg4 main_arg5 main_v13 main_v16
-- ==== Kernel.lean ====
abbrev S512x3x28x28 : Shape := ⟨4, ![512, 3, 28, 28]⟩
abbrev S5x9x32x32 : Shape := ⟨4, ![5, 9, 32, 32]⟩
abbrev S5x32x1 : Shape := ⟨3, ![5, 32, 1]⟩
abbrev S32x128x1024 : Shape := ⟨3, ![32, 128, 1024]⟩
abbrev S1x128 : Shape := ⟨2, ![1, 128]⟩
abbrev S1x1024 : Shape := ⟨2, ![1, 1024]⟩
abbrev S8 : Shape := ⟨1, ![8]⟩
abbrev S_ : Shape := ⟨0, ![]⟩
abbrev S512x32x30x30 : Shape := ⟨4, ![512, 32, 30, 30]⟩
abbrev S512x32x900 : Shape := ⟨3, ![512, 32, 900]⟩
abbrev S512x32x1024 : Shape := ⟨3, ![512, 32, 1024]⟩
abbrev S16x32x32x1024 : Shape := ⟨4, ![16, 32, 32, 1024]⟩
abbrev S16x32x32768 : Shape := ⟨3, ![16, 32, 32768]⟩
abbrev S1x1x1x1024 : Shape := ⟨4, ![1, 1, 1, 1024]⟩
abbrev S1x1x32x1024 : Shape := ⟨4, ![1, 1, 32, 1024]⟩
abbrev S1x32768 : Shape := ⟨2, ![1, 32768]⟩
abbrev S5x32x9x32 : Shape := ⟨4, ![5, 32, 9, 32]⟩
abbrev S8x1 : Shape := ⟨2, ![8, 1]⟩
abbrev S5x32x8x32 : Shape := ⟨4, ![5, 32, 8, 32]⟩
abbrev S5x32x256 : Shape := ⟨3, ![5, 32, 256]⟩
abbrev S5x32x1x32 : Shape := ⟨4, ![5, 32, 1, 32]⟩
abbrev S5x32x32 : Shape := ⟨3, ![5, 32, 32]⟩
abbrev S1x32x32768 : Shape := ⟨3, ![1, 32, 32768]⟩
abbrev S1x32x32x1024 : Shape := ⟨4, ![1, 32, 32, 1024]⟩
abbrev S32x32832 : Shape := ⟨2, ![32, 32832]⟩
abbrev S256x32768 : Shape := ⟨2, ![256, 32768]⟩
abbrev S32x32 : Shape := ⟨2, ![32, 32]⟩
abbrev S32x32768 : Shape := ⟨2, ![32, 32768]⟩
abbrev S1x32x256 : Shape := ⟨3, ![1, 32, 256]⟩
abbrev S32x256 : Shape := ⟨2, ![32, 256]⟩
abbrev S1x32x32 : Shape := ⟨3, ![1, 32, 32]⟩
abbrev S1x32x1 : Shape := ⟨3, ![1, 32, 1]⟩
abbrev S32x1 : Shape := ⟨2, ![32, 1]⟩
abbrev S32x1024 : Shape := ⟨2, ![32, 1024]⟩
abbrev S512x32768 : Shape := ⟨2, ![512, 32768]⟩
abbrev S32x1024x128 : Shape := ⟨3, ![32, 1024, 128]⟩
abbrev S32768x128 : Shape := ⟨2, ![32768, 128]⟩
abbrev S512x128 : Shape := ⟨2, ![512, 128]⟩
abbrev S256x128 : Shape := ⟨2, ![256, 128]⟩

abbrev nBuf : Space → Nat
  | .hbm => 42
  | .vmem => 16
  | .smem => 0
  | _ => 0

abbrev bufTy : (tb : Table) → Fin (tcTables nBuf tb) → BufTy
  | .hbm, ⟨0, _⟩ => ⟨S512x3x28x28, .f32⟩
  | .hbm, ⟨1, _⟩ => ⟨S5x9x32x32, .f32⟩
  | .hbm, ⟨2, _⟩ => ⟨S5x32x1, .f32⟩
  | .hbm, ⟨3, _⟩ => ⟨S32x128x1024, .f32⟩
  | .hbm, ⟨4, _⟩ => ⟨S1x128, .f32⟩
  | .hbm, ⟨5, _⟩ => ⟨S1x1024, .f32⟩
  | .hbm, ⟨6, _⟩ => ⟨S8, .i32⟩
  | .hbm, ⟨7, _⟩ => ⟨S_, .i32⟩
  | .hbm, ⟨8, _⟩ => ⟨S_, .f32⟩
  | .hbm, ⟨9, _⟩ => ⟨S512x32x30x30, .f32⟩
  | .hbm, ⟨10, _⟩ => ⟨S512x32x900, .f32⟩
  | .hbm, ⟨11, _⟩ => ⟨S_, .i32⟩
  | .hbm, ⟨12, _⟩ => ⟨S_, .f32⟩
  | .hbm, ⟨13, _⟩ => ⟨S512x32x1024, .f32⟩
  | .hbm, ⟨14, _⟩ => ⟨S16x32x32x1024, .f32⟩
  | .hbm, ⟨15, _⟩ => ⟨S16x32x32x1024, .f32⟩
  | .hbm, ⟨16, _⟩ => ⟨S16x32x32768, .f32⟩
  | .hbm, ⟨17, _⟩ => ⟨S16x32x32768, .bf16⟩
  | .hbm, ⟨18, _⟩ => ⟨S1x1x1x1024, .f32⟩
  | .hbm, ⟨19, _⟩ => ⟨S1x1x32x1024, .f32⟩
  | .hbm, ⟨20, _⟩ => ⟨S1x32768, .f32⟩
  | .hbm, ⟨21, _⟩ => ⟨S5x32x9x32, .f32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S8x1, .i32⟩
  | .hbm, ⟨30, _⟩ => ⟨S5x32x8x32, .f32⟩
  | .hbm, ⟨31, _⟩ => ⟨S5x32x256, .f32⟩
  | .hbm, ⟨32, _⟩ => ⟨S5x32x256, .bf16⟩
  | .hbm, ⟨33, _⟩ => ⟨S5x32x1x32, .f32⟩
  | .hbm, ⟨34, _⟩ => ⟨S5x32x32, .f32⟩
  | .hbm, ⟨35, _⟩ => ⟨S5x32x32, .bf16⟩
  | .hbm, ⟨36, _⟩ => ⟨S16x32x32x1024, .bf16⟩
  | .hbm, ⟨37, _⟩ => ⟨S512x32768, .bf16⟩
  | .hbm, ⟨38, _⟩ => ⟨S32x1024x128, .f32⟩
  | .hbm, ⟨39, _⟩ => ⟨S32768x128, .f32⟩
  | .hbm, ⟨40, _⟩ => ⟨S32768x128, .bf16⟩
  | .hbm, ⟨41, _⟩ => ⟨S512x128, .f32⟩
  | .local _ .vmem, ⟨0, _⟩ => ⟨S1x32x32768, .bf16⟩
  | .local _ .vmem, ⟨1, _⟩ => ⟨S1x32x32768, .bf16⟩
  | .local _ .vmem, ⟨2, _⟩ => ⟨S1x32768, .f32⟩
  | .local _ .vmem, ⟨3, _⟩ => ⟨S5x32x256, .bf16⟩
  | .local _ .vmem, ⟨4, _⟩ => ⟨S5x32x32, .bf16⟩
  | .local _ .vmem, ⟨5, _⟩ => ⟨S5x32x1, .f32⟩
  | .local _ .vmem, ⟨6, _⟩ => ⟨S1x32x32x1024, .bf16⟩
  | .local _ .vmem, ⟨7, _⟩ => ⟨S1x32x32x1024, .bf16⟩
  | .local _ .vmem, ⟨8, _⟩ => ⟨S32x32832, .bf16⟩
  | .local _ .vmem, ⟨9, _⟩ => ⟨S256x32768, .bf16⟩
  | .local _ .vmem, ⟨10, _⟩ => ⟨S256x32768, .bf16⟩
  | .local _ .vmem, ⟨11, _⟩ => ⟨S256x32768, .bf16⟩
  | .local _ .vmem, ⟨12, _⟩ => ⟨S32768x128, .bf16⟩
  | .local _ .vmem, ⟨13, _⟩ => ⟨S1x128, .f32⟩
  | .local _ .vmem, ⟨14, _⟩ => ⟨S256x128, .f32⟩
  | .local _ .vmem, ⟨15, _⟩ => ⟨S256x128, .f32⟩
  | _, _ => ⟨S512x3x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_1 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x32768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32768x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  pads_S512x3x28x28_S512x32x30x30_000_0290_110_110 : S512x3x28x28.Pads (![0, 0, 1, 1] : Fin 4 → Nat) ![0, 29, 1, 1] ![0, 0, 0, 0] S512x32x30x30
  h_S_ : 0 < S_.numel
  shapeCasts_S512x32x30x30_S512x32x900 : S512x32x30x30.ShapeCasts S512x32x900
  pads_S512x32x900_S512x32x1024_000_000_01240 : S512x32x900.Pads (![0, 0, 0] : Fin 3 → Nat) ![0, 0, 124] ![0, 0, 0] S512x32x1024
  shapeCasts_S512x32x1024_S16x32x32x1024 : S512x32x1024.ShapeCasts S16x32x32x1024
  transposes_S16x32x32x1024_S16x32x32x1024_0_2_1_3 : S16x32x32x1024.Transposes [0, 2, 1, 3] S16x32x32x1024
  shapeCasts_S16x32x32x1024_S16x32x32768 : S16x32x32x1024.ShapeCasts S16x32x32768
  bitsLt_bf16_f32 : FTy.bits .bf16 < FTy.bits .f32
  shapeCasts_S1x1024_S1x1x1x1024 : S1x1024.ShapeCasts S1x1x1x1024
  bcast_S1x1x1x1024_S1x1x32x1024_0_1_2_3 : S1x1x1x1024.BroadcastsInDim S1x1x32x1024 (![0, 1, 2, 3] : Fin 4 → Fin S1x1x32x1024.rank)
  shapeCasts_S1x1x32x1024_S1x32768 : S1x1x32x1024.ShapeCasts S1x32768
  transposes_S5x9x32x32_S5x32x9x32_0_2_1_3 : S5x9x32x32.Transposes [0, 2, 1, 3] S5x32x9x32
  bcast_S_S8 : S_.BroadcastsInDim S8 (![] : Fin 0 → Fin S8.rank)
  bcast_S8_S8x1_0 : S8.BroadcastsInDim S8x1 (![0] : Fin 1 → Fin S8x1.rank)
  shapeCasts_S5x32x8x32_S5x32x256 : S5x32x8x32.ShapeCasts S5x32x256
  slices_S5x32x9x32_S5x32x1x32_0_0_4_0 : S5x32x9x32.Slices ![0, 0, 4, 0] S5x32x1x32
  shapeCasts_S5x32x1x32_S5x32x32 : S5x32x1x32.ShapeCasts S5x32x32
  inb_S32x32832_S32x32_0_0 : ∀ a, (![0, 0] : Fin 2 → Nat) a + S32x32.size a ≤ S32x32832.size a
  h_S32x32 : 0 < S32x32.numel
  shapeCasts_S32x32_S32x32 : S32x32.ShapeCasts S32x32
  packedbf16_S32x32832_S32x32_0_0 : (Rect.unit (s := S32x32832) ![0, 0] S32x32.size inb_S32x32832_S32x32_0_0).PackedRows (EltTy.packing .bf16)
  inb_S32x32832_S32x32_0_32800 : ∀ a, (![0, 32800] : Fin 2 → Nat) a + S32x32.size a ≤ S32x32832.size a
  packedbf16_S32x32832_S32x32_0_32800 : (Rect.unit (s := S32x32832) ![0, 32800] S32x32.size inb_S32x32832_S32x32_0_32800).PackedRows (EltTy.packing .bf16)
  inb_S1x32x32768_S1x32x32768_0_0_0 : ∀ a, (![0, 0, 0] : Fin 3 → Nat) a + S1x32x32768.size a ≤ S1x32x32768.size a
  h_S1x32x32768 : 0 < S1x32x32768.numel
  shapeCasts_S1x32x32768_S32x32768 : S1x32x32768.ShapeCasts S32x32768
  inb_S32x32832_S32x32768_0_32 : ∀ a, (![0, 32] : Fin 2 → Nat) a + S32x32768.size a ≤ S32x32832.size a
  h_S32x32768 : 0 < S32x32768.numel
  shapeCasts_S32x32768_S32x32768 : S32x32768.ShapeCasts S32x32768
  packedbf16_S32x32832_S32x32768_0_32 : (Rect.unit (s := S32x32832) ![0, 32] S32x32768.size inb_S32x32832_S32x32768_0_32).PackedRows (EltTy.packing .bf16)
  inb_S1x32768_S1x32768_0_0 : ∀ a, (![0, 0] : Fin 2 → Nat) a + S1x32768.size a ≤ S1x32768.size a
  h_S1x32768 : 0 < S1x32768.numel
  inb_S32x32832_S32x32768_0_1 : ∀ a, (![0, 1] : Fin 2 → Nat) a + S32x32768.size a ≤ S32x32832.size a
  inb_S256x32768_S32x32768_0_0 : ∀ a, (![0, 0] : Fin 2 → Nat) a + S32x32768.size a ≤ S256x32768.size a
  packedbf16_S256x32768_S32x32768_0_0 : (Rect.unit (s := S256x32768) ![0, 0] S32x32768.size inb_S256x32768_S32x32768_0_0).PackedRows (EltTy.packing .bf16)
  inb_S32x32832_S32x32768_0_2 : ∀ a, (![0, 2] : Fin 2 → Nat) a + S32x32768.size a ≤ S32x32832.size a
  inb_S256x32768_S32x32768_32_0 : ∀ a, (![32, 0] : Fin 2 → Nat) a + S32x32768.size a ≤ S256x32768.size a
  packedbf16_S256x32768_S32x32768_32_0 : (Rect.unit (s := S256x32768) ![32, 0] S32x32768.size inb_S256x32768_S32x32768_32_0).PackedRows (EltTy.packing .bf16)
  inb_S32x32832_S32x32768_0_3 : ∀ a, (![0, 3] : Fin 2 → Nat) a + S32x32768.size a ≤ S32x32832.size a
  inb_S256x32768_S32x32768_64_0 : ∀ a, (![64, 0] : Fin 2 → Nat) a + S32x32768.size a ≤ S256x32768.size a
  packedbf16_S256x32768_S32x32768_64_0 : (Rect.unit (s := S256x32768) ![64, 0] S32x32768.size inb_S256x32768_S32x32768_64_0).PackedRows (EltTy.packing .bf16)
  inb_S32x32832_S32x32768_0_31 : ∀ a, (![0, 31] : Fin 2 → Nat) a + S32x32768.size a ≤ S32x32832.size a
  inb_S256x32768_S32x32768_96_0 : ∀ a, (![96, 0] : Fin 2 → Nat) a + S32x32768.size a ≤ S256x32768.size a
  packedbf16_S256x32768_S32x32768_96_0 : (Rect.unit (s := S256x32768) ![96, 0] S32x32768.size inb_S256x32768_S32x32768_96_0).PackedRows (EltTy.packing .bf16)
  inb_S32x32832_S32x32768_0_33 : ∀ a, (![0, 33] : Fin 2 → Nat) a + S32x32768.size a ≤ S32x32832.size a
  inb_S256x32768_S32x32768_128_0 : ∀ a, (![128, 0] : Fin 2 → Nat) a + S32x32768.size a ≤ S256x32768.size a
  packedbf16_S256x32768_S32x32768_128_0 : (Rect.unit (s := S256x32768) ![128, 0] S32x32768.size inb_S256x32768_S32x32768_128_0).PackedRows (EltTy.packing .bf16)
  inb_S32x32832_S32x32768_0_61 : ∀ a, (![0, 61] : Fin 2 → Nat) a + S32x32768.size a ≤ S32x32832.size a
  inb_S256x32768_S32x32768_160_0 : ∀ a, (![160, 0] : Fin 2 → Nat) a + S32x32768.size a ≤ S256x32768.size a
  packedbf16_S256x32768_S32x32768_160_0 : (Rect.unit (s := S256x32768) ![160, 0] S32x32768.size inb_S256x32768_S32x32768_160_0).PackedRows (EltTy.packing .bf16)
  inb_S32x32832_S32x32768_0_62 : ∀ a, (![0, 62] : Fin 2 → Nat) a + S32x32768.size a ≤ S32x32832.size a
  inb_S256x32768_S32x32768_192_0 : ∀ a, (![192, 0] : Fin 2 → Nat) a + S32x32768.size a ≤ S256x32768.size a
  packedbf16_S256x32768_S32x32768_192_0 : (Rect.unit (s := S256x32768) ![192, 0] S32x32768.size inb_S256x32768_S32x32768_192_0).PackedRows (EltTy.packing .bf16)
  inb_S32x32832_S32x32768_0_63 : ∀ a, (![0, 63] : Fin 2 → Nat) a + S32x32768.size a ≤ S32x32832.size a
  inb_S256x32768_S32x32768_224_0 : ∀ a, (![224, 0] : Fin 2 → Nat) a + S32x32768.size a ≤ S256x32768.size a
  packedbf16_S256x32768_S32x32768_224_0 : (Rect.unit (s := S256x32768) ![224, 0] S32x32768.size inb_S256x32768_S32x32768_224_0).PackedRows (EltTy.packing .bf16)
  inb_S5x32x256_S1x32x256_0_0_0 : ∀ a, (![0, 0, 0] : Fin 3 → Nat) a + S1x32x256.size a ≤ S5x32x256.size a
  h_S1x32x256 : 0 < S1x32x256.numel
  shapeCasts_S1x32x256_S32x256 : S1x32x256.ShapeCasts S32x256
  inb_S256x32768_S256x32768_0_0 : ∀ a, (![0, 0] : Fin 2 → Nat) a + S256x32768.size a ≤ S256x32768.size a
  h_S256x32768 : 0 < S256x32768.numel
  inb_S5x32x32_S1x32x32_0_0_0 : ∀ a, (![0, 0, 0] : Fin 3 → Nat) a + S1x32x32.size a ≤ S5x32x32.size a
  h_S1x32x32 : 0 < S1x32x32.numel
  shapeCasts_S1x32x32_S32x32 : S1x32x32.ShapeCasts S32x32
  inb_S5x32x1_S1x32x1_0_0_0 : ∀ a, (![0, 0, 0] : Fin 3 → Nat) a + S1x32x1.size a ≤ S5x32x1.size a
  h_S1x32x1 : 0 < S1x32x1.numel
  shapeCasts_S1x32x1_S32x1 : S1x32x1.ShapeCasts S32x1
  broadcasts_S32x1_S32x32768 : S32x1.Broadcasts S32x32768
  broadcasts_S1x32768_S32x32768 : S1x32768.Broadcasts S32x32768
  inb_S5x32x256_S1x32x256_1_0_0 : ∀ a, (![1, 0, 0] : Fin 3 → Nat) a + S1x32x256.size a ≤ S5x32x256.size a
  inb_S5x32x32_S1x32x32_1_0_0 : ∀ a, (![1, 0, 0] : Fin 3 → Nat) a + S1x32x32.size a ≤ S5x32x32.size a
  inb_S5x32x1_S1x32x1_1_0_0 : ∀ a, (![1, 0, 0] : Fin 3 → Nat) a + S1x32x1.size a ≤ S5x32x1.size a
  inb_S5x32x256_S1x32x256_2_0_0 : ∀ a, (![2, 0, 0] : Fin 3 → Nat) a + S1x32x256.size a ≤ S5x32x256.size a
  inb_S5x32x32_S1x32x32_2_0_0 : ∀ a, (![2, 0, 0] : Fin 3 → Nat) a + S1x32x32.size a ≤ S5x32x32.size a
  inb_S5x32x1_S1x32x1_2_0_0 : ∀ a, (![2, 0, 0] : Fin 3 → Nat) a + S1x32x1.size a ≤ S5x32x1.size a
  inb_S5x32x256_S1x32x256_3_0_0 : ∀ a, (![3, 0, 0] : Fin 3 → Nat) a + S1x32x256.size a ≤ S5x32x256.size a
  inb_S5x32x32_S1x32x32_3_0_0 : ∀ a, (![3, 0, 0] : Fin 3 → Nat) a + S1x32x32.size a ≤ S5x32x32.size a
  inb_S5x32x1_S1x32x1_3_0_0 : ∀ a, (![3, 0, 0] : Fin 3 → Nat) a + S1x32x1.size a ≤ S5x32x1.size a
  inb_S5x32x256_S1x32x256_4_0_0 : ∀ a, (![4, 0, 0] : Fin 3 → Nat) a + S1x32x256.size a ≤ S5x32x256.size a
  inb_S5x32x32_S1x32x32_4_0_0 : ∀ a, (![4, 0, 0] : Fin 3 → Nat) a + S1x32x32.size a ≤ S5x32x32.size a
  inb_S5x32x1_S1x32x1_4_0_0 : ∀ a, (![4, 0, 0] : Fin 3 → Nat) a + S1x32x1.size a ≤ S5x32x1.size a
  slices_S32x32768_o0_0_S32x1024 : S32x32768.Slices ![0, 0] S32x1024
  inb_S1x32x32x1024_S1x1x32x1024_0_0_0_0 : ∀ a, (![0, 0, 0, 0] : Fin 4 → Nat) a + S1x1x32x1024.size a ≤ S1x32x32x1024.size a
  h_S1x1x32x1024 : 0 < S1x1x32x1024.numel
  shapeCasts_S1x1x32x1024_S32x1024 : S1x1x32x1024.ShapeCasts S32x1024
  shapeCasts_S32x1024_S1x1x32x1024 : S32x1024.ShapeCasts S1x1x32x1024
  packedbf16_S1x32x32x1024_S1x1x32x1024_0_0_0_0 : (Rect.unit (s := S1x32x32x1024) ![0, 0, 0, 0] S1x1x32x1024.size inb_S1x32x32x1024_S1x1x32x1024_0_0_0_0).PackedRows (EltTy.packing .bf16)
  slices_S32x32768_o0_1024_S32x1024 : S32x32768.Slices ![0, 1024] S32x1024
  inb_S1x32x32x1024_S1x1x32x1024_0_1_0_0 : ∀ a, (![0, 1, 0, 0] : Fin 4 → Nat) a + S1x1x32x1024.size a ≤ S1x32x32x1024.size a
  packedbf16_S1x32x32x1024_S1x1x32x1024_0_1_0_0 : (Rect.unit (s := S1x32x32x1024) ![0, 1, 0, 0] S1x1x32x1024.size inb_S1x32x32x1024_S1x1x32x1024_0_1_0_0).PackedRows (EltTy.packing .bf16)
  slices_S32x32768_o0_2048_S32x1024 : S32x32768.Slices ![0, 2048] S32x1024
  inb_S1x32x32x1024_S1x1x32x1024_0_2_0_0 : ∀ a, (![0, 2, 0, 0] : Fin 4 → Nat) a + S1x1x32x1024.size a ≤ S1x32x32x1024.size a
  packedbf16_S1x32x32x1024_S1x1x32x1024_0_2_0_0 : (Rect.unit (s := S1x32x32x1024) ![0, 2, 0, 0] S1x1x32x1024.size inb_S1x32x32x1024_S1x1x32x1024_0_2_0_0).PackedRows (EltTy.packing .bf16)
  slices_S32x32768_o0_3072_S32x1024 : S32x32768.Slices ![0, 3072] S32x1024
  inb_S1x32x32x1024_S1x1x32x1024_0_3_0_0 : ∀ a, (![0, 3, 0, 0] : Fin 4 → Nat) a + S1x1x32x1024.size a ≤ S1x32x32x1024.size a
  packedbf16_S1x32x32x1024_S1x1x32x1024_0_3_0_0 : (Rect.unit (s := S1x32x32x1024) ![0, 3, 0, 0] S1x1x32x1024.size inb_S1x32x32x1024_S1x1x32x1024_0_3_0_0).PackedRows (EltTy.packing .bf16)
  slices_S32x32768_o0_4096_S32x1024 : S32x32768.Slices ![0, 4096] S32x1024
  inb_S1x32x32x1024_S1x1x32x1024_0_4_0_0 : ∀ a, (![0, 4, 0, 0] : Fin 4 → Nat) a + S1x1x32x1024.size a ≤ S1x32x32x1024.size a
  packedbf16_S1x32x32x1024_S1x1x32x1024_0_4_0_0 : (Rect.unit (s := S1x32x32x1024) ![0, 4, 0, 0] S1x1x32x1024.size inb_S1x32x32x1024_S1x1x32x1024_0_4_0_0).PackedRows (EltTy.packing .bf16)
  slices_S32x32768_o0_5120_S32x1024 : S32x32768.Slices ![0, 5120] S32x1024
  inb_S1x32x32x1024_S1x1x32x1024_0_5_0_0 : ∀ a, (![0, 5, 0, 0] : Fin 4 → Nat) a + S1x1x32x1024.size a ≤ S1x32x32x1024.size a
  packedbf16_S1x32x32x1024_S1x1x32x1024_0_5_0_0 : (Rect.unit (s := S1x32x32x1024) ![0, 5, 0, 0] S1x1x32x1024.size inb_S1x32x32x1024_S1x1x32x1024_0_5_0_0).PackedRows (EltTy.packing .bf16)
  slices_S32x32768_o0_6144_S32x1024 : S32x32768.Slices ![0, 6144] S32x1024
  inb_S1x32x32x1024_S1x1x32x1024_0_6_0_0 : ∀ a, (![0, 6, 0, 0] : Fin 4 → Nat) a + S1x1x32x1024.size a ≤ S1x32x32x1024.size a
  packedbf16_S1x32x32x1024_S1x1x32x1024_0_6_0_0 : (Rect.unit (s := S1x32x32x1024) ![0, 6, 0, 0] S1x1x32x1024.size inb_S1x32x32x1024_S1x1x32x1024_0_6_0_0).PackedRows (EltTy.packing .bf16)
  slices_S32x32768_o0_7168_S32x1024 : S32x32768.Slices ![0, 7168] S32x1024
  inb_S1x32x32x1024_S1x1x32x1024_0_7_0_0 : ∀ a, (![0, 7, 0, 0] : Fin 4 → Nat) a + S1x1x32x1024.size a ≤ S1x32x32x1024.size a
  packedbf16_S1x32x32x1024_S1x1x32x1024_0_7_0_0 : (Rect.unit (s := S1x32x32x1024) ![0, 7, 0, 0] S1x1x32x1024.size inb_S1x32x32x1024_S1x1x32x1024_0_7_0_0).PackedRows (EltTy.packing .bf16)
  slices_S32x32768_o0_8192_S32x1024 : S32x32768.Slices ![0, 8192] S32x1024
  inb_S1x32x32x1024_S1x1x32x1024_0_8_0_0 : ∀ a, (![0, 8, 0, 0] : Fin 4 → Nat) a + S1x1x32x1024.size a ≤ S1x32x32x1024.size a
  packedbf16_S1x32x32x1024_S1x1x32x1024_0_8_0_0 : (Rect.unit (s := S1x32x32x1024) ![0, 8, 0, 0] S1x1x32x1024.size inb_S1x32x32x1024_S1x1x32x1024_0_8_0_0).PackedRows (EltTy.packing .bf16)
  slices_S32x32768_o0_9216_S32x1024 : S32x32768.Slices ![0, 9216] S32x1024
  inb_S1x32x32x1024_S1x1x32x1024_0_9_0_0 : ∀ a, (![0, 9, 0, 0] : Fin 4 → Nat) a + S1x1x32x1024.size a ≤ S1x32x32x1024.size a
  packedbf16_S1x32x32x1024_S1x1x32x1024_0_9_0_0 : (Rect.unit (s := S1x32x32x1024) ![0, 9, 0, 0] S1x1x32x1024.size inb_S1x32x32x1024_S1x1x32x1024_0_9_0_0).PackedRows (EltTy.packing .bf16)
  slices_S32x32768_o0_10240_S32x1024 : S32x32768.Slices ![0, 10240] S32x1024
  inb_S1x32x32x1024_S1x1x32x1024_0_10_0_0 : ∀ a, (![0, 10, 0, 0] : Fin 4 → Nat) a + S1x1x32x1024.size a ≤ S1x32x32x1024.size a
  packedbf16_S1x32x32x1024_S1x1x32x1024_0_10_0_0 : (Rect.unit (s := S1x32x32x1024) ![0, 10, 0, 0] S1x1x32x1024.size inb_S1x32x32x1024_S1x1x32x1024_0_10_0_0).PackedRows (EltTy.packing .bf16)
  slices_S32x32768_o0_11264_S32x1024 : S32x32768.Slices ![0, 11264] S32x1024
  inb_S1x32x32x1024_S1x1x32x1024_0_11_0_0 : ∀ a, (![0, 11, 0, 0] : Fin 4 → Nat) a + S1x1x32x1024.size a ≤ S1x32x32x1024.size a
  packedbf16_S1x32x32x1024_S1x1x32x1024_0_11_0_0 : (Rect.unit (s := S1x32x32x1024) ![0, 11, 0, 0] S1x1x32x1024.size inb_S1x32x32x1024_S1x1x32x1024_0_11_0_0).PackedRows (EltTy.packing .bf16)
  slices_S32x32768_o0_12288_S32x1024 : S32x32768.Slices ![0, 12288] S32x1024
  inb_S1x32x32x1024_S1x1x32x1024_0_12_0_0 : ∀ a, (![0, 12, 0, 0] : Fin 4 → Nat) a + S1x1x32x1024.size a ≤ S1x32x32x1024.size a
  packedbf16_S1x32x32x1024_S1x1x32x1024_0_12_0_0 : (Rect.unit (s := S1x32x32x1024) ![0, 12, 0, 0] S1x1x32x1024.size inb_S1x32x32x1024_S1x1x32x1024_0_12_0_0).PackedRows (EltTy.packing .bf16)
  slices_S32x32768_o0_13312_S32x1024 : S32x32768.Slices ![0, 13312] S32x1024
  inb_S1x32x32x1024_S1x1x32x1024_0_13_0_0 : ∀ a, (![0, 13, 0, 0] : Fin 4 → Nat) a + S1x1x32x1024.size a ≤ S1x32x32x1024.size a
  packedbf16_S1x32x32x1024_S1x1x32x1024_0_13_0_0 : (Rect.unit (s := S1x32x32x1024) ![0, 13, 0, 0] S1x1x32x1024.size inb_S1x32x32x1024_S1x1x32x1024_0_13_0_0).PackedRows (EltTy.packing .bf16)
  slices_S32x32768_o0_14336_S32x1024 : S32x32768.Slices ![0, 14336] S32x1024
  inb_S1x32x32x1024_S1x1x32x1024_0_14_0_0 : ∀ a, (![0, 14, 0, 0] : Fin 4 → Nat) a + S1x1x32x1024.size a ≤ S1x32x32x1024.size a
  packedbf16_S1x32x32x1024_S1x1x32x1024_0_14_0_0 : (Rect.unit (s := S1x32x32x1024) ![0, 14, 0, 0] S1x1x32x1024.size inb_S1x32x32x1024_S1x1x32x1024_0_14_0_0).PackedRows (EltTy.packing .bf16)
  slices_S32x32768_o0_15360_S32x1024 : S32x32768.Slices ![0, 15360] S32x1024
  inb_S1x32x32x1024_S1x1x32x1024_0_15_0_0 : ∀ a, (![0, 15, 0, 0] : Fin 4 → Nat) a + S1x1x32x1024.size a ≤ S1x32x32x1024.size a
  packedbf16_S1x32x32x1024_S1x1x32x1024_0_15_0_0 : (Rect.unit (s := S1x32x32x1024) ![0, 15, 0, 0] S1x1x32x1024.size inb_S1x32x32x1024_S1x1x32x1024_0_15_0_0).PackedRows (EltTy.packing .bf16)
  slices_S32x32768_o0_16384_S32x1024 : S32x32768.Slices ![0, 16384] S32x1024
  inb_S1x32x32x1024_S1x1x32x1024_0_16_0_0 : ∀ a, (![0, 16, 0, 0] : Fin 4 → Nat) a + S1x1x32x1024.size a ≤ S1x32x32x1024.size a
  packedbf16_S1x32x32x1024_S1x1x32x1024_0_16_0_0 : (Rect.unit (s := S1x32x32x1024) ![0, 16, 0, 0] S1x1x32x1024.size inb_S1x32x32x1024_S1x1x32x1024_0_16_0_0).PackedRows (EltTy.packing .bf16)
  slices_S32x32768_o0_17408_S32x1024 : S32x32768.Slices ![0, 17408] S32x1024
  inb_S1x32x32x1024_S1x1x32x1024_0_17_0_0 : ∀ a, (![0, 17, 0, 0] : Fin 4 → Nat) a + S1x1x32x1024.size a ≤ S1x32x32x1024.size a
  packedbf16_S1x32x32x1024_S1x1x32x1024_0_17_0_0 : (Rect.unit (s := S1x32x32x1024) ![0, 17, 0, 0] S1x1x32x1024.size inb_S1x32x32x1024_S1x1x32x1024_0_17_0_0).PackedRows (EltTy.packing .bf16)
  slices_S32x32768_o0_18432_S32x1024 : S32x32768.Slices ![0, 18432] S32x1024
  inb_S1x32x32x1024_S1x1x32x1024_0_18_0_0 : ∀ a, (![0, 18, 0, 0] : Fin 4 → Nat) a + S1x1x32x1024.size a ≤ S1x32x32x1024.size a
  packedbf16_S1x32x32x1024_S1x1x32x1024_0_18_0_0 : (Rect.unit (s := S1x32x32x1024) ![0, 18, 0, 0] S1x1x32x1024.size inb_S1x32x32x1024_S1x1x32x1024_0_18_0_0).PackedRows (EltTy.packing .bf16)
  slices_S32x32768_o0_19456_S32x1024 : S32x32768.Slices ![0, 19456] S32x1024
  inb_S1x32x32x1024_S1x1x32x1024_0_19_0_0 : ∀ a, (![0, 19, 0, 0] : Fin 4 → Nat) a + S1x1x32x1024.size a ≤ S1x32x32x1024.size a
  packedbf16_S1x32x32x1024_S1x1x32x1024_0_19_0_0 : (Rect.unit (s := S1x32x32x1024) ![0, 19, 0, 0] S1x1x32x1024.size inb_S1x32x32x1024_S1x1x32x1024_0_19_0_0).PackedRows (EltTy.packing .bf16)
  slices_S32x32768_o0_20480_S32x1024 : S32x32768.Slices ![0, 20480] S32x1024
  inb_S1x32x32x1024_S1x1x32x1024_0_20_0_0 : ∀ a, (![0, 20, 0, 0] : Fin 4 → Nat) a + S1x1x32x1024.size a ≤ S1x32x32x1024.size a
  packedbf16_S1x32x32x1024_S1x1x32x1024_0_20_0_0 : (Rect.unit (s := S1x32x32x1024) ![0, 20, 0, 0] S1x1x32x1024.size inb_S1x32x32x1024_S1x1x32x1024_0_20_0_0).PackedRows (EltTy.packing .bf16)
  slices_S32x32768_o0_21504_S32x1024 : S32x32768.Slices ![0, 21504] S32x1024
  inb_S1x32x32x1024_S1x1x32x1024_0_21_0_0 : ∀ a, (![0, 21, 0, 0] : Fin 4 → Nat) a + S1x1x32x1024.size a ≤ S1x32x32x1024.size a
  packedbf16_S1x32x32x1024_S1x1x32x1024_0_21_0_0 : (Rect.unit (s := S1x32x32x1024) ![0, 21, 0, 0] S1x1x32x1024.size inb_S1x32x32x1024_S1x1x32x1024_0_21_0_0).PackedRows (EltTy.packing .bf16)
  slices_S32x32768_o0_22528_S32x1024 : S32x32768.Slices ![0, 22528] S32x1024
  inb_S1x32x32x1024_S1x1x32x1024_0_22_0_0 : ∀ a, (![0, 22, 0, 0] : Fin 4 → Nat) a + S1x1x32x1024.size a ≤ S1x32x32x1024.size a
  packedbf16_S1x32x32x1024_S1x1x32x1024_0_22_0_0 : (Rect.unit (s := S1x32x32x1024) ![0, 22, 0, 0] S1x1x32x1024.size inb_S1x32x32x1024_S1x1x32x1024_0_22_0_0).PackedRows (EltTy.packing .bf16)
  slices_S32x32768_o0_23552_S32x1024 : S32x32768.Slices ![0, 23552] S32x1024
  inb_S1x32x32x1024_S1x1x32x1024_0_23_0_0 : ∀ a, (![0, 23, 0, 0] : Fin 4 → Nat) a + S1x1x32x1024.size a ≤ S1x32x32x1024.size a
  packedbf16_S1x32x32x1024_S1x1x32x1024_0_23_0_0 : (Rect.unit (s := S1x32x32x1024) ![0, 23, 0, 0] S1x1x32x1024.size inb_S1x32x32x1024_S1x1x32x1024_0_23_0_0).PackedRows (EltTy.packing .bf16)
  slices_S32x32768_o0_24576_S32x1024 : S32x32768.Slices ![0, 24576] S32x1024
  inb_S1x32x32x1024_S1x1x32x1024_0_24_0_0 : ∀ a, (![0, 24, 0, 0] : Fin 4 → Nat) a + S1x1x32x1024.size a ≤ S1x32x32x1024.size a
  packedbf16_S1x32x32x1024_S1x1x32x1024_0_24_0_0 : (Rect.unit (s := S1x32x32x1024) ![0, 24, 0, 0] S1x1x32x1024.size inb_S1x32x32x1024_S1x1x32x1024_0_24_0_0).PackedRows (EltTy.packing .bf16)
  slices_S32x32768_o0_25600_S32x1024 : S32x32768.Slices ![0, 25600] S32x1024
  inb_S1x32x32x1024_S1x1x32x1024_0_25_0_0 : ∀ a, (![0, 25, 0, 0] : Fin 4 → Nat) a + S1x1x32x1024.size a ≤ S1x32x32x1024.size a
  packedbf16_S1x32x32x1024_S1x1x32x1024_0_25_0_0 : (Rect.unit (s := S1x32x32x1024) ![0, 25, 0, 0] S1x1x32x1024.size inb_S1x32x32x1024_S1x1x32x1024_0_25_0_0).PackedRows (EltTy.packing .bf16)
  slices_S32x32768_o0_26624_S32x1024 : S32x32768.Slices ![0, 26624] S32x1024
  inb_S1x32x32x1024_S1x1x32x1024_0_26_0_0 : ∀ a, (![0, 26, 0, 0] : Fin 4 → Nat) a + S1x1x32x1024.size a ≤ S1x32x32x1024.size a
  packedbf16_S1x32x32x1024_S1x1x32x1024_0_26_0_0 : (Rect.unit (s := S1x32x32x1024) ![0, 26, 0, 0] S1x1x32x1024.size inb_S1x32x32x1024_S1x1x32x1024_0_26_0_0).PackedRows (EltTy.packing .bf16)
  slices_S32x32768_o0_27648_S32x1024 : S32x32768.Slices ![0, 27648] S32x1024
  inb_S1x32x32x1024_S1x1x32x1024_0_27_0_0 : ∀ a, (![0, 27, 0, 0] : Fin 4 → Nat) a + S1x1x32x1024.size a ≤ S1x32x32x1024.size a
  packedbf16_S1x32x32x1024_S1x1x32x1024_0_27_0_0 : (Rect.unit (s := S1x32x32x1024) ![0, 27, 0, 0] S1x1x32x1024.size inb_S1x32x32x1024_S1x1x32x1024_0_27_0_0).PackedRows (EltTy.packing .bf16)
  slices_S32x32768_o0_28672_S32x1024 : S32x32768.Slices ![0, 28672] S32x1024
  inb_S1x32x32x1024_S1x1x32x1024_0_28_0_0 : ∀ a, (![0, 28, 0, 0] : Fin 4 → Nat) a + S1x1x32x1024.size a ≤ S1x32x32x1024.size a
  packedbf16_S1x32x32x1024_S1x1x32x1024_0_28_0_0 : (Rect.unit (s := S1x32x32x1024) ![0, 28, 0, 0] S1x1x32x1024.size inb_S1x32x32x1024_S1x1x32x1024_0_28_0_0).PackedRows (EltTy.packing .bf16)
  slices_S32x32768_o0_29696_S32x1024 : S32x32768.Slices ![0, 29696] S32x1024
  inb_S1x32x32x1024_S1x1x32x1024_0_29_0_0 : ∀ a, (![0, 29, 0, 0] : Fin 4 → Nat) a + S1x1x32x1024.size a ≤ S1x32x32x1024.size a
  packedbf16_S1x32x32x1024_S1x1x32x1024_0_29_0_0 : (Rect.unit (s := S1x32x32x1024) ![0, 29, 0, 0] S1x1x32x1024.size inb_S1x32x32x1024_S1x1x32x1024_0_29_0_0).PackedRows (EltTy.packing .bf16)
  slices_S32x32768_o0_30720_S32x1024 : S32x32768.Slices ![0, 30720] S32x1024
  inb_S1x32x32x1024_S1x1x32x1024_0_30_0_0 : ∀ a, (![0, 30, 0, 0] : Fin 4 → Nat) a + S1x1x32x1024.size a ≤ S1x32x32x1024.size a
  packedbf16_S1x32x32x1024_S1x1x32x1024_0_30_0_0 : (Rect.unit (s := S1x32x32x1024) ![0, 30, 0, 0] S1x1x32x1024.size inb_S1x32x32x1024_S1x1x32x1024_0_30_0_0).PackedRows (EltTy.packing .bf16)
  slices_S32x32768_o0_31744_S32x1024 : S32x32768.Slices ![0, 31744] S32x1024
  inb_S1x32x32x1024_S1x1x32x1024_0_31_0_0 : ∀ a, (![0, 31, 0, 0] : Fin 4 → Nat) a + S1x1x32x1024.size a ≤ S1x32x32x1024.size a
  packedbf16_S1x32x32x1024_S1x1x32x1024_0_31_0_0 : (Rect.unit (s := S1x32x32x1024) ![0, 31, 0, 0] S1x1x32x1024.size inb_S1x32x32x1024_S1x1x32x1024_0_31_0_0).PackedRows (EltTy.packing .bf16)
  shapeCasts_S16x32x32x1024_S512x32768 : S16x32x32x1024.ShapeCasts S512x32768
  transposes_S32x128x1024_S32x1024x128_0_2_1 : S32x128x1024.Transposes [0, 2, 1] S32x1024x128
  shapeCasts_S32x1024x128_S32768x128 : S32x1024x128.ShapeCasts S32768x128
  shapeCasts_S256x32768_S256x32768 : S256x32768.ShapeCasts S256x32768
  inb_S32768x128_S32768x128_0_0 : ∀ a, (![0, 0] : Fin 2 → Nat) a + S32768x128.size a ≤ S32768x128.size a
  h_S32768x128 : 0 < S32768x128.numel
  shapeCasts_S32768x128_S32768x128 : S32768x128.ShapeCasts S32768x128
  inb_S1x128_S1x128_0_0 : ∀ a, (![0, 0] : Fin 2 → Nat) a + S1x128.size a ≤ S1x128.size a
  h_S1x128 : 0 < S1x128.numel
  broadcasts_S1x128_S256x128 : S1x128.Broadcasts S256x128
  inb_S256x128_S256x128_0_0 : ∀ a, (![0, 0] : Fin 2 → Nat) a + S256x128.size a ≤ S256x128.size a
  h_S256x128 : 0 < S256x128.numel
  gather_S5x32x9x32_S8x1_S5x32x8x32_013_2_n_n_2_1_532132_wf : GatherDims.WF S5x32x9x32 S8x1 S5x32x8x32 [0, 1, 3] [2] [] [2] [] 1 ![5, 32, 1, 32]
  dot_S32x256_S256x32768_S32x32768_1_0_0_1_n_n_wf : DotDims.WF S32x256 S256x32768 S32x32768 [1] [0] [0] [1] [] []
  dot_S32x32_S32x32768_S32x32768_1_0_0_1_n_n_wf : DotDims.WF S32x32 S32x32768 S32x32768 [1] [0] [0] [1] [] []
  dot_S256x32768_S32768x128_S256x128_1_0_0_1_n_n_wf : DotDims.WF S256x32768 S32768x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32768.size a ≤ S16x32x32768.size a
  hwx0_0 : ∀ i : grid0.Coords, EltTy.bits .bf16 = 32 ∨ (Rect.block (s := S16x32x32768) S1x32x32768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x32768.size a
  hwx0_1 : ∀ i : grid0.Coords, EltTy.bits .f32 = 32 ∨ (Rect.block (s := S1x32768) S1x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x32x256.size a ≤ S5x32x256.size a
  hwx0_2 : ∀ i : grid0.Coords, EltTy.bits .bf16 = 32 ∨ (Rect.block (s := S5x32x256) S5x32x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x32x32.size a ≤ S5x32x32.size a
  hwx0_3 : ∀ i : grid0.Coords, EltTy.bits .bf16 = 32 ∨ (Rect.block (s := S5x32x32) S5x32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x32x1.size a ≤ S5x32x1.size a
  hwx0_4 : ∀ i : grid0.Coords, EltTy.bits .f32 = 32 ∨ (Rect.block (s := S5x32x1) S5x32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x32x1024.size a ≤ S16x32x32x1024.size a
  hwx0_5 : ∀ i : grid0.Coords, EltTy.bits .bf16 = 32 ∨ (Rect.block (s := S16x32x32x1024) S1x32x32x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x32768.size a ≤ S512x32768.size a
  hwx1_0 : ∀ i : grid1.Coords, EltTy.bits .bf16 = 32 ∨ (Rect.block (s := S512x32768) S256x32768.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32768x128.size a ≤ S32768x128.size a
  hwx1_1 : ∀ i : grid1.Coords, EltTy.bits .bf16 = 32 ∨ (Rect.block (s := S32768x128) S32768x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S512x128.size a
  hwx1_3 : ∀ i : grid1.Coords, EltTy.bits .f32 = 32 ∨ (Rect.block (s := S512x128) S256x128.size (cc1_transform_3 i) (hinb1_3 i)).WholeWords (EltTy.packing .f32)

variable [Facts₀]

def gather_S5x32x9x32_S8x1_S5x32x8x32_013_2_n_n_2_1_532132 : GatherDims S5x32x9x32 S8x1 S5x32x8x32 where
  offsetDims := [0, 1, 3]
  collapsedSliceDims := [2]
  operandBatchingDims := []
  startIndicesBatchingDims := []
  startIndexMap := [2]
  indexVectorDim := 1
  sliceSizes := ![5, 32, 1, 32]
  wf := gather_S5x32x9x32_S8x1_S5x32x8x32_013_2_n_n_2_1_532132_wf
def dot_S32x256_S256x32768_S32x32768_1_0_0_1_n_n : DotDims S32x256 S256x32768 S32x32768 where
  lhsContracting := [1]
  rhsContracting := [0]
  lhsNonContracting := [0]
  rhsNonContracting := [1]
  lhsBatch := []
  rhsBatch := []
  wf := dot_S32x256_S256x32768_S32x32768_1_0_0_1_n_n_wf
def dot_S32x32_S32x32768_S32x32768_1_0_0_1_n_n : DotDims S32x32 S32x32768 S32x32768 where
  lhsContracting := [1]
  rhsContracting := [0]
  lhsNonContracting := [0]
  rhsNonContracting := [1]
  lhsBatch := []
  rhsBatch := []
  wf := dot_S32x32_S32x32768_S32x32768_1_0_0_1_n_n_wf
def dot_S256x32768_S32768x128_S256x128_1_0_0_1_n_n : DotDims S256x32768 S32768x128 S256x128 where
  lhsContracting := [1]
  rhsContracting := [0]
  lhsNonContracting := [0]
  rhsNonContracting := [1]
  lhsBatch := []
  rhsBatch := []
  wf := dot_S256x32768_S32768x128_S256x128_1_0_0_1_n_n_wf

abbrev win0_0 : Pipeline.Window sig grid0 :=
  Pipeline.Window.ofSpec (Memref.whole main_v6) S1x32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x32768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5x32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5x32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S5x32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x32x32x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S256x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S32768x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x3x28x28 : Shape := ⟨4, ![512, 3, 28, 28]⟩
abbrev S5x9x32x32 : Shape := ⟨4, ![5, 9, 32, 32]⟩
abbrev S5x32x1 : Shape := ⟨3, ![5, 32, 1]⟩
abbrev S32x128x1024 : Shape := ⟨3, ![32, 128, 1024]⟩
abbrev S1x128 : Shape := ⟨2, ![1, 128]⟩
abbrev S1x1024 : Shape := ⟨2, ![1, 1024]⟩
abbrev S_ : Shape := ⟨0, ![]⟩
abbrev S512x32x30x30 : Shape := ⟨4, ![512, 32, 30, 30]⟩
abbrev S512x32x900 : Shape := ⟨3, ![512, 32, 900]⟩
abbrev S512x32x1024 : Shape := ⟨3, ![512, 32, 1024]⟩
abbrev S256x2x32x1024 : Shape := ⟨4, ![256, 2, 32, 1024]⟩
abbrev S256x32x2x1024 : Shape := ⟨4, ![256, 32, 2, 1024]⟩
abbrev S256x32x2048 : Shape := ⟨3, ![256, 32, 2048]⟩
abbrev S1x1x1x1024 : Shape := ⟨4, ![1, 1, 1, 1024]⟩
abbrev S1x1x2x1024 : Shape := ⟨4, ![1, 1, 2, 1024]⟩
abbrev S1x2048 : Shape := ⟨2, ![1, 2048]⟩
abbrev S256x2x128 : Shape := ⟨3, ![256, 2, 128]⟩
abbrev S1x32x2048 : Shape := ⟨3, ![1, 32, 2048]⟩
abbrev S1x2x128 : Shape := ⟨3, ![1, 2, 128]⟩
abbrev S32x2112 : Shape := ⟨2, ![32, 2112]⟩
abbrev S32x32 : Shape := ⟨2, ![32, 32]⟩
abbrev S32x2048 : Shape := ⟨2, ![32, 2048]⟩
abbrev S1x1x32x32 : Shape := ⟨4, ![1, 1, 32, 32]⟩
abbrev S1x32x1 : Shape := ⟨3, ![1, 32, 1]⟩
abbrev S32x1 : Shape := ⟨2, ![32, 1]⟩
abbrev S2x128 : Shape := ⟨2, ![2, 128]⟩
abbrev S2x1024 : Shape := ⟨2, ![2, 1024]⟩
abbrev S1x128x1024 : Shape := ⟨3, ![1, 128, 1024]⟩
abbrev S128x1024 : Shape := ⟨2, ![128, 1024]⟩
abbrev S512x128 : Shape := ⟨2, ![512, 128]⟩

abbrev nBuf : Space → Nat
  | .hbm => 21
  | .vmem => 10
  | .smem => 0
  | _ => 0

abbrev bufTy : (tb : Table) → Fin (tcTables nBuf tb) → BufTy
  | .hbm, ⟨0, _⟩ => ⟨S512x3x28x28, .f32⟩
  | .hbm, ⟨1, _⟩ => ⟨S5x9x32x32, .f32⟩
  | .hbm, ⟨2, _⟩ => ⟨S5x32x1, .f32⟩
  | .hbm, ⟨3, _⟩ => ⟨S32x128x1024, .f32⟩
  | .hbm, ⟨4, _⟩ => ⟨S1x128, .f32⟩
  | .hbm, ⟨5, _⟩ => ⟨S1x1024, .f32⟩
  | .hbm, ⟨6, _⟩ => ⟨S_, .i32⟩
  | .hbm, ⟨7, _⟩ => ⟨S_, .f32⟩
  | .hbm, ⟨8, _⟩ => ⟨S512x32x30x30, .f32⟩
  | .hbm, ⟨9, _⟩ => ⟨S512x32x900, .f32⟩
  | .hbm, ⟨10, _⟩ => ⟨S_, .i32⟩
  | .hbm, ⟨11, _⟩ => ⟨S_, .f32⟩
  | .hbm, ⟨12, _⟩ => ⟨S512x32x1024, .f32⟩
  | .hbm, ⟨13, _⟩ => ⟨S256x2x32x1024, .f32⟩
  | .hbm, ⟨14, _⟩ => ⟨S256x32x2x1024, .f32⟩
  | .hbm, ⟨15, _⟩ => ⟨S256x32x2048, .f32⟩
  | .hbm, ⟨16, _⟩ => ⟨S1x1x1x1024, .f32⟩
  | .hbm, ⟨17, _⟩ => ⟨S1x1x2x1024, .f32⟩
  | .hbm, ⟨18, _⟩ => ⟨S1x2048, .f32⟩
  | .hbm, ⟨19, _⟩ => ⟨S256x2x128, .f32⟩
  | .hbm, ⟨20, _⟩ => ⟨S512x128, .f32⟩
  | .local _ .vmem, ⟨0, _⟩ => ⟨S1x32x2048, .f32⟩
  | .local _ .vmem, ⟨1, _⟩ => ⟨S1x32x2048, .f32⟩
  | .local _ .vmem, ⟨2, _⟩ => ⟨S1x2048, .f32⟩
  | .local _ .vmem, ⟨3, _⟩ => ⟨S5x9x32x32, .f32⟩
  | .local _ .vmem, ⟨4, _⟩ => ⟨S5x32x1, .f32⟩
  | .local _ .vmem, ⟨5, _⟩ => ⟨S32x128x1024, .f32⟩
  | .local _ .vmem, ⟨6, _⟩ => ⟨S1x128, .f32⟩
  | .local _ .vmem, ⟨7, _⟩ => ⟨S1x2x128, .f32⟩
  | .local _ .vmem, ⟨8, _⟩ => ⟨S1x2x128, .f32⟩
  | .local _ .vmem, ⟨9, _⟩ => ⟨S32x2112, .f32⟩
  | _, _ => ⟨S512x3x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x9x32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S512x3x28x28_S512x32x30x30_000_0290_110_110 : S512x3x28x28.Pads (![0, 0, 1, 1] : Fin 4 → Nat) ![0, 29, 1, 1] ![0, 0, 0, 0] S512x32x30x30
  h_S_ : 0 < S_.numel
  shapeCasts_S512x32x30x30_S512x32x900 : S512x32x30x30.ShapeCasts S512x32x900
  pads_S512x32x900_S512x32x1024_000_000_01240 : S512x32x900.Pads (![0, 0, 0] : Fin 3 → Nat) ![0, 0, 124] ![0, 0, 0] S512x32x1024
  shapeCasts_S512x32x1024_S256x2x32x1024 : S512x32x1024.ShapeCasts S256x2x32x1024
  transposes_S256x2x32x1024_S256x32x2x1024_0_2_1_3 : S256x2x32x1024.Transposes [0, 2, 1, 3] S256x32x2x1024
  shapeCasts_S256x32x2x1024_S256x32x2048 : S256x32x2x1024.ShapeCasts S256x32x2048
  shapeCasts_S1x1024_S1x1x1x1024 : S1x1024.ShapeCasts S1x1x1x1024
  bcast_S1x1x1x1024_S1x1x2x1024_0_1_2_3 : S1x1x1x1024.BroadcastsInDim S1x1x2x1024 (![0, 1, 2, 3] : Fin 4 → Fin S1x1x2x1024.rank)
  shapeCasts_S1x1x2x1024_S1x2048 : S1x1x2x1024.ShapeCasts S1x2048
  inb_S32x2112_S32x32_0_0 : ∀ a, (![0, 0] : Fin 2 → Nat) a + S32x32.size a ≤ S32x2112.size a
  h_S32x32 : 0 < S32x32.numel
  shapeCasts_S32x32_S32x32 : S32x32.ShapeCasts S32x32
  inb_S32x2112_S32x32_0_2080 : ∀ a, (![0, 2080] : Fin 2 → Nat) a + S32x32.size a ≤ S32x2112.size a
  inb_S1x32x2048_S1x32x2048_0_0_0 : ∀ a, (![0, 0, 0] : Fin 3 → Nat) a + S1x32x2048.size a ≤ S1x32x2048.size a
  h_S1x32x2048 : 0 < S1x32x2048.numel
  shapeCasts_S1x32x2048_S32x2048 : S1x32x2048.ShapeCasts S32x2048
  inb_S32x2112_S32x2048_0_32 : ∀ a, (![0, 32] : Fin 2 → Nat) a + S32x2048.size a ≤ S32x2112.size a
  h_S32x2048 : 0 < S32x2048.numel
  shapeCasts_S32x2048_S32x2048 : S32x2048.ShapeCasts S32x2048
  inb_S1x2048_S1x2048_0_0 : ∀ a, (![0, 0] : Fin 2 → Nat) a + S1x2048.size a ≤ S1x2048.size a
  h_S1x2048 : 0 < S1x2048.numel
  inb_S32x2112_S32x2048_0_1 : ∀ a, (![0, 1] : Fin 2 → Nat) a + S32x2048.size a ≤ S32x2112.size a
  inb_S5x9x32x32_S1x1x32x32_0_0_0_0 : ∀ a, (![0, 0, 0, 0] : Fin 4 → Nat) a + S1x1x32x32.size a ≤ S5x9x32x32.size a
  h_S1x1x32x32 : 0 < S1x1x32x32.numel
  shapeCasts_S1x1x32x32_S32x32 : S1x1x32x32.ShapeCasts S32x32
  inb_S32x2112_S32x2048_0_2 : ∀ a, (![0, 2] : Fin 2 → Nat) a + S32x2048.size a ≤ S32x2112.size a
  inb_S5x9x32x32_S1x1x32x32_0_1_0_0 : ∀ a, (![0, 1, 0, 0] : Fin 4 → Nat) a + S1x1x32x32.size a ≤ S5x9x32x32.size a
  inb_S32x2112_S32x2048_0_3 : ∀ a, (![0, 3] : Fin 2 → Nat) a + S32x2048.size a ≤ S32x2112.size a
  inb_S5x9x32x32_S1x1x32x32_0_2_0_0 : ∀ a, (![0, 2, 0, 0] : Fin 4 → Nat) a + S1x1x32x32.size a ≤ S5x9x32x32.size a
  inb_S32x2112_S32x2048_0_31 : ∀ a, (![0, 31] : Fin 2 → Nat) a + S32x2048.size a ≤ S32x2112.size a
  inb_S5x9x32x32_S1x1x32x32_0_3_0_0 : ∀ a, (![0, 3, 0, 0] : Fin 4 → Nat) a + S1x1x32x32.size a ≤ S5x9x32x32.size a
  inb_S5x9x32x32_S1x1x32x32_0_4_0_0 : ∀ a, (![0, 4, 0, 0] : Fin 4 → Nat) a + S1x1x32x32.size a ≤ S5x9x32x32.size a
  inb_S32x2112_S32x2048_0_33 : ∀ a, (![0, 33] : Fin 2 → Nat) a + S32x2048.size a ≤ S32x2112.size a
  inb_S5x9x32x32_S1x1x32x32_0_5_0_0 : ∀ a, (![0, 5, 0, 0] : Fin 4 → Nat) a + S1x1x32x32.size a ≤ S5x9x32x32.size a
  inb_S32x2112_S32x2048_0_61 : ∀ a, (![0, 61] : Fin 2 → Nat) a + S32x2048.size a ≤ S32x2112.size a
  inb_S5x9x32x32_S1x1x32x32_0_6_0_0 : ∀ a, (![0, 6, 0, 0] : Fin 4 → Nat) a + S1x1x32x32.size a ≤ S5x9x32x32.size a
  inb_S32x2112_S32x2048_0_62 : ∀ a, (![0, 62] : Fin 2 → Nat) a + S32x2048.size a ≤ S32x2112.size a
  inb_S5x9x32x32_S1x1x32x32_0_7_0_0 : ∀ a, (![0, 7, 0, 0] : Fin 4 → Nat) a + S1x1x32x32.size a ≤ S5x9x32x32.size a
  inb_S32x2112_S32x2048_0_63 : ∀ a, (![0, 63] : Fin 2 → Nat) a + S32x2048.size a ≤ S32x2112.size a
  inb_S5x9x32x32_S1x1x32x32_0_8_0_0 : ∀ a, (![0, 8, 0, 0] : Fin 4 → Nat) a + S1x1x32x32.size a ≤ S5x9x32x32.size a
  inb_S5x32x1_S1x32x1_0_0_0 : ∀ a, (![0, 0, 0] : Fin 3 → Nat) a + S1x32x1.size a ≤ S5x32x1.size a
  h_S1x32x1 : 0 < S1x32x1.numel
  shapeCasts_S1x32x1_S32x1 : S1x32x1.ShapeCasts S32x1
  broadcasts_S32x1_S32x2048 : S32x1.Broadcasts S32x2048
  broadcasts_S1x2048_S32x2048 : S1x2048.Broadcasts S32x2048
  inb_S5x9x32x32_S1x1x32x32_1_0_0_0 : ∀ a, (![1, 0, 0, 0] : Fin 4 → Nat) a + S1x1x32x32.size a ≤ S5x9x32x32.size a
  inb_S5x9x32x32_S1x1x32x32_1_1_0_0 : ∀ a, (![1, 1, 0, 0] : Fin 4 → Nat) a + S1x1x32x32.size a ≤ S5x9x32x32.size a
  inb_S5x9x32x32_S1x1x32x32_1_2_0_0 : ∀ a, (![1, 2, 0, 0] : Fin 4 → Nat) a + S1x1x32x32.size a ≤ S5x9x32x32.size a
  inb_S5x9x32x32_S1x1x32x32_1_3_0_0 : ∀ a, (![1, 3, 0, 0] : Fin 4 → Nat) a + S1x1x32x32.size a ≤ S5x9x32x32.size a
  inb_S5x9x32x32_S1x1x32x32_1_4_0_0 : ∀ a, (![1, 4, 0, 0] : Fin 4 → Nat) a + S1x1x32x32.size a ≤ S5x9x32x32.size a
  inb_S5x9x32x32_S1x1x32x32_1_5_0_0 : ∀ a, (![1, 5, 0, 0] : Fin 4 → Nat) a + S1x1x32x32.size a ≤ S5x9x32x32.size a
  inb_S5x9x32x32_S1x1x32x32_1_6_0_0 : ∀ a, (![1, 6, 0, 0] : Fin 4 → Nat) a + S1x1x32x32.size a ≤ S5x9x32x32.size a
  inb_S5x9x32x32_S1x1x32x32_1_7_0_0 : ∀ a, (![1, 7, 0, 0] : Fin 4 → Nat) a + S1x1x32x32.size a ≤ S5x9x32x32.size a
  inb_S5x9x32x32_S1x1x32x32_1_8_0_0 : ∀ a, (![1, 8, 0, 0] : Fin 4 → Nat) a + S1x1x32x32.size a ≤ S5x9x32x32.size a
  inb_S5x32x1_S1x32x1_1_0_0 : ∀ a, (![1, 0, 0] : Fin 3 → Nat) a + S1x32x1.size a ≤ S5x32x1.size a
  inb_S5x9x32x32_S1x1x32x32_2_0_0_0 : ∀ a, (![2, 0, 0, 0] : Fin 4 → Nat) a + S1x1x32x32.size a ≤ S5x9x32x32.size a
  inb_S5x9x32x32_S1x1x32x32_2_1_0_0 : ∀ a, (![2, 1, 0, 0] : Fin 4 → Nat) a + S1x1x32x32.size a ≤ S5x9x32x32.size a
  inb_S5x9x32x32_S1x1x32x32_2_2_0_0 : ∀ a, (![2, 2, 0, 0] : Fin 4 → Nat) a + S1x1x32x32.size a ≤ S5x9x32x32.size a
  inb_S5x9x32x32_S1x1x32x32_2_3_0_0 : ∀ a, (![2, 3, 0, 0] : Fin 4 → Nat) a + S1x1x32x32.size a ≤ S5x9x32x32.size a
  inb_S5x9x32x32_S1x1x32x32_2_4_0_0 : ∀ a, (![2, 4, 0, 0] : Fin 4 → Nat) a + S1x1x32x32.size a ≤ S5x9x32x32.size a
  inb_S5x9x32x32_S1x1x32x32_2_5_0_0 : ∀ a, (![2, 5, 0, 0] : Fin 4 → Nat) a + S1x1x32x32.size a ≤ S5x9x32x32.size a
  inb_S5x9x32x32_S1x1x32x32_2_6_0_0 : ∀ a, (![2, 6, 0, 0] : Fin 4 → Nat) a + S1x1x32x32.size a ≤ S5x9x32x32.size a
  inb_S5x9x32x32_S1x1x32x32_2_7_0_0 : ∀ a, (![2, 7, 0, 0] : Fin 4 → Nat) a + S1x1x32x32.size a ≤ S5x9x32x32.size a
  inb_S5x9x32x32_S1x1x32x32_2_8_0_0 : ∀ a, (![2, 8, 0, 0] : Fin 4 → Nat) a + S1x1x32x32.size a ≤ S5x9x32x32.size a
  inb_S5x32x1_S1x32x1_2_0_0 : ∀ a, (![2, 0, 0] : Fin 3 → Nat) a + S1x32x1.size a ≤ S5x32x1.size a
  inb_S5x9x32x32_S1x1x32x32_3_0_0_0 : ∀ a, (![3, 0, 0, 0] : Fin 4 → Nat) a + S1x1x32x32.size a ≤ S5x9x32x32.size a
  inb_S5x9x32x32_S1x1x32x32_3_1_0_0 : ∀ a, (![3, 1, 0, 0] : Fin 4 → Nat) a + S1x1x32x32.size a ≤ S5x9x32x32.size a
  inb_S5x9x32x32_S1x1x32x32_3_2_0_0 : ∀ a, (![3, 2, 0, 0] : Fin 4 → Nat) a + S1x1x32x32.size a ≤ S5x9x32x32.size a
  inb_S5x9x32x32_S1x1x32x32_3_3_0_0 : ∀ a, (![3, 3, 0, 0] : Fin 4 → Nat) a + S1x1x32x32.size a ≤ S5x9x32x32.size a
  inb_S5x9x32x32_S1x1x32x32_3_4_0_0 : ∀ a, (![3, 4, 0, 0] : Fin 4 → Nat) a + S1x1x32x32.size a ≤ S5x9x32x32.size a
  inb_S5x9x32x32_S1x1x32x32_3_5_0_0 : ∀ a, (![3, 5, 0, 0] : Fin 4 → Nat) a + S1x1x32x32.size a ≤ S5x9x32x32.size a
  inb_S5x9x32x32_S1x1x32x32_3_6_0_0 : ∀ a, (![3, 6, 0, 0] : Fin 4 → Nat) a + S1x1x32x32.size a ≤ S5x9x32x32.size a
  inb_S5x9x32x32_S1x1x32x32_3_7_0_0 : ∀ a, (![3, 7, 0, 0] : Fin 4 → Nat) a + S1x1x32x32.size a ≤ S5x9x32x32.size a
  inb_S5x9x32x32_S1x1x32x32_3_8_0_0 : ∀ a, (![3, 8, 0, 0] : Fin 4 → Nat) a + S1x1x32x32.size a ≤ S5x9x32x32.size a
  inb_S5x32x1_S1x32x1_3_0_0 : ∀ a, (![3, 0, 0] : Fin 3 → Nat) a + S1x32x1.size a ≤ S5x32x1.size a
  inb_S5x9x32x32_S1x1x32x32_4_0_0_0 : ∀ a, (![4, 0, 0, 0] : Fin 4 → Nat) a + S1x1x32x32.size a ≤ S5x9x32x32.size a
  inb_S5x9x32x32_S1x1x32x32_4_1_0_0 : ∀ a, (![4, 1, 0, 0] : Fin 4 → Nat) a + S1x1x32x32.size a ≤ S5x9x32x32.size a
  inb_S5x9x32x32_S1x1x32x32_4_2_0_0 : ∀ a, (![4, 2, 0, 0] : Fin 4 → Nat) a + S1x1x32x32.size a ≤ S5x9x32x32.size a
  inb_S5x9x32x32_S1x1x32x32_4_3_0_0 : ∀ a, (![4, 3, 0, 0] : Fin 4 → Nat) a + S1x1x32x32.size a ≤ S5x9x32x32.size a
  inb_S5x9x32x32_S1x1x32x32_4_4_0_0 : ∀ a, (![4, 4, 0, 0] : Fin 4 → Nat) a + S1x1x32x32.size a ≤ S5x9x32x32.size a
  inb_S5x9x32x32_S1x1x32x32_4_5_0_0 : ∀ a, (![4, 5, 0, 0] : Fin 4 → Nat) a + S1x1x32x32.size a ≤ S5x9x32x32.size a
  inb_S5x9x32x32_S1x1x32x32_4_6_0_0 : ∀ a, (![4, 6, 0, 0] : Fin 4 → Nat) a + S1x1x32x32.size a ≤ S5x9x32x32.size a
  inb_S5x9x32x32_S1x1x32x32_4_7_0_0 : ∀ a, (![4, 7, 0, 0] : Fin 4 → Nat) a + S1x1x32x32.size a ≤ S5x9x32x32.size a
  inb_S5x9x32x32_S1x1x32x32_4_8_0_0 : ∀ a, (![4, 8, 0, 0] : Fin 4 → Nat) a + S1x1x32x32.size a ≤ S5x9x32x32.size a
  inb_S5x32x1_S1x32x1_4_0_0 : ∀ a, (![4, 0, 0] : Fin 3 → Nat) a + S1x32x1.size a ≤ S5x32x1.size a
  slices_S32x2048_o0_0_S1x1024 : S32x2048.Slices ![0, 0] S1x1024
  slices_S32x2048_o0_1024_S1x1024 : S32x2048.Slices ![0, 1024] S1x1024
  concatenates_S1x1024_S1x1024_S2x1024_d0 : Shape.Concatenates [S1x1024, S1x1024] S2x1024 0
  inb_S32x128x1024_S1x128x1024_0_0_0 : ∀ a, (![0, 0, 0] : Fin 3 → Nat) a + S1x128x1024.size a ≤ S32x128x1024.size a
  h_S1x128x1024 : 0 < S1x128x1024.numel
  shapeCasts_S1x128x1024_S128x1024 : S1x128x1024.ShapeCasts S128x1024
  slices_S32x2048_o1_0_S1x1024 : S32x2048.Slices ![1, 0] S1x1024
  slices_S32x2048_o1_1024_S1x1024 : S32x2048.Slices ![1, 1024] S1x1024
  inb_S32x128x1024_S1x128x1024_1_0_0 : ∀ a, (![1, 0, 0] : Fin 3 → Nat) a + S1x128x1024.size a ≤ S32x128x1024.size a
  slices_S32x2048_o2_0_S1x1024 : S32x2048.Slices ![2, 0] S1x1024
  slices_S32x2048_o2_1024_S1x1024 : S32x2048.Slices ![2, 1024] S1x1024
  inb_S32x128x1024_S1x128x1024_2_0_0 : ∀ a, (![2, 0, 0] : Fin 3 → Nat) a + S1x128x1024.size a ≤ S32x128x1024.size a
  slices_S32x2048_o3_0_S1x1024 : S32x2048.Slices ![3, 0] S1x1024
  slices_S32x2048_o3_1024_S1x1024 : S32x2048.Slices ![3, 1024] S1x1024
  inb_S32x128x1024_S1x128x1024_3_0_0 : ∀ a, (![3, 0, 0] : Fin 3 → Nat) a + S1x128x1024.size a ≤ S32x128x1024.size a
  slices_S32x2048_o4_0_S1x1024 : S32x2048.Slices ![4, 0] S1x1024
  slices_S32x2048_o4_1024_S1x1024 : S32x2048.Slices ![4, 1024] S1x1024
  inb_S32x128x1024_S1x128x1024_4_0_0 : ∀ a, (![4, 0, 0] : Fin 3 → Nat) a + S1x128x1024.size a ≤ S32x128x1024.size a
  slices_S32x2048_o5_0_S1x1024 : S32x2048.Slices ![5, 0] S1x1024
  slices_S32x2048_o5_1024_S1x1024 : S32x2048.Slices ![5, 1024] S1x1024
  inb_S32x128x1024_S1x128x1024_5_0_0 : ∀ a, (![5, 0, 0] : Fin 3 → Nat) a + S1x128x1024.size a ≤ S32x128x1024.size a
  slices_S32x2048_o6_0_S1x1024 : S32x2048.Slices ![6, 0] S1x1024
  slices_S32x2048_o6_1024_S1x1024 : S32x2048.Slices ![6, 1024] S1x1024
  inb_S32x128x1024_S1x128x1024_6_0_0 : ∀ a, (![6, 0, 0] : Fin 3 → Nat) a + S1x128x1024.size a ≤ S32x128x1024.size a
  slices_S32x2048_o7_0_S1x1024 : S32x2048.Slices ![7, 0] S1x1024
  slices_S32x2048_o7_1024_S1x1024 : S32x2048.Slices ![7, 1024] S1x1024
  inb_S32x128x1024_S1x128x1024_7_0_0 : ∀ a, (![7, 0, 0] : Fin 3 → Nat) a + S1x128x1024.size a ≤ S32x128x1024.size a
  slices_S32x2048_o8_0_S1x1024 : S32x2048.Slices ![8, 0] S1x1024
  slices_S32x2048_o8_1024_S1x1024 : S32x2048.Slices ![8, 1024] S1x1024
  inb_S32x128x1024_S1x128x1024_8_0_0 : ∀ a, (![8, 0, 0] : Fin 3 → Nat) a + S1x128x1024.size a ≤ S32x128x1024.size a
  slices_S32x2048_o9_0_S1x1024 : S32x2048.Slices ![9, 0] S1x1024
  slices_S32x2048_o9_1024_S1x1024 : S32x2048.Slices ![9, 1024] S1x1024
  inb_S32x128x1024_S1x128x1024_9_0_0 : ∀ a, (![9, 0, 0] : Fin 3 → Nat) a + S1x128x1024.size a ≤ S32x128x1024.size a
  slices_S32x2048_o10_0_S1x1024 : S32x2048.Slices ![10, 0] S1x1024
  slices_S32x2048_o10_1024_S1x1024 : S32x2048.Slices ![10, 1024] S1x1024
  inb_S32x128x1024_S1x128x1024_10_0_0 : ∀ a, (![10, 0, 0] : Fin 3 → Nat) a + S1x128x1024.size a ≤ S32x128x1024.size a
  slices_S32x2048_o11_0_S1x1024 : S32x2048.Slices ![11, 0] S1x1024
  slices_S32x2048_o11_1024_S1x1024 : S32x2048.Slices ![11, 1024] S1x1024
  inb_S32x128x1024_S1x128x1024_11_0_0 : ∀ a, (![11, 0, 0] : Fin 3 → Nat) a + S1x128x1024.size a ≤ S32x128x1024.size a
  slices_S32x2048_o12_0_S1x1024 : S32x2048.Slices ![12, 0] S1x1024
  slices_S32x2048_o12_1024_S1x1024 : S32x2048.Slices ![12, 1024] S1x1024
  inb_S32x128x1024_S1x128x1024_12_0_0 : ∀ a, (![12, 0, 0] : Fin 3 → Nat) a + S1x128x1024.size a ≤ S32x128x1024.size a
  slices_S32x2048_o13_0_S1x1024 : S32x2048.Slices ![13, 0] S1x1024
  slices_S32x2048_o13_1024_S1x1024 : S32x2048.Slices ![13, 1024] S1x1024
  inb_S32x128x1024_S1x128x1024_13_0_0 : ∀ a, (![13, 0, 0] : Fin 3 → Nat) a + S1x128x1024.size a ≤ S32x128x1024.size a
  slices_S32x2048_o14_0_S1x1024 : S32x2048.Slices ![14, 0] S1x1024
  slices_S32x2048_o14_1024_S1x1024 : S32x2048.Slices ![14, 1024] S1x1024
  inb_S32x128x1024_S1x128x1024_14_0_0 : ∀ a, (![14, 0, 0] : Fin 3 → Nat) a + S1x128x1024.size a ≤ S32x128x1024.size a
  slices_S32x2048_o15_0_S1x1024 : S32x2048.Slices ![15, 0] S1x1024
  slices_S32x2048_o15_1024_S1x1024 : S32x2048.Slices ![15, 1024] S1x1024
  inb_S32x128x1024_S1x128x1024_15_0_0 : ∀ a, (![15, 0, 0] : Fin 3 → Nat) a + S1x128x1024.size a ≤ S32x128x1024.size a
  slices_S32x2048_o16_0_S1x1024 : S32x2048.Slices ![16, 0] S1x1024
  slices_S32x2048_o16_1024_S1x1024 : S32x2048.Slices ![16, 1024] S1x1024
  inb_S32x128x1024_S1x128x1024_16_0_0 : ∀ a, (![16, 0, 0] : Fin 3 → Nat) a + S1x128x1024.size a ≤ S32x128x1024.size a
  slices_S32x2048_o17_0_S1x1024 : S32x2048.Slices ![17, 0] S1x1024
  slices_S32x2048_o17_1024_S1x1024 : S32x2048.Slices ![17, 1024] S1x1024
  inb_S32x128x1024_S1x128x1024_17_0_0 : ∀ a, (![17, 0, 0] : Fin 3 → Nat) a + S1x128x1024.size a ≤ S32x128x1024.size a
  slices_S32x2048_o18_0_S1x1024 : S32x2048.Slices ![18, 0] S1x1024
  slices_S32x2048_o18_1024_S1x1024 : S32x2048.Slices ![18, 1024] S1x1024
  inb_S32x128x1024_S1x128x1024_18_0_0 : ∀ a, (![18, 0, 0] : Fin 3 → Nat) a + S1x128x1024.size a ≤ S32x128x1024.size a
  slices_S32x2048_o19_0_S1x1024 : S32x2048.Slices ![19, 0] S1x1024
  slices_S32x2048_o19_1024_S1x1024 : S32x2048.Slices ![19, 1024] S1x1024
  inb_S32x128x1024_S1x128x1024_19_0_0 : ∀ a, (![19, 0, 0] : Fin 3 → Nat) a + S1x128x1024.size a ≤ S32x128x1024.size a
  slices_S32x2048_o20_0_S1x1024 : S32x2048.Slices ![20, 0] S1x1024
  slices_S32x2048_o20_1024_S1x1024 : S32x2048.Slices ![20, 1024] S1x1024
  inb_S32x128x1024_S1x128x1024_20_0_0 : ∀ a, (![20, 0, 0] : Fin 3 → Nat) a + S1x128x1024.size a ≤ S32x128x1024.size a
  slices_S32x2048_o21_0_S1x1024 : S32x2048.Slices ![21, 0] S1x1024
  slices_S32x2048_o21_1024_S1x1024 : S32x2048.Slices ![21, 1024] S1x1024
  inb_S32x128x1024_S1x128x1024_21_0_0 : ∀ a, (![21, 0, 0] : Fin 3 → Nat) a + S1x128x1024.size a ≤ S32x128x1024.size a
  slices_S32x2048_o22_0_S1x1024 : S32x2048.Slices ![22, 0] S1x1024
  slices_S32x2048_o22_1024_S1x1024 : S32x2048.Slices ![22, 1024] S1x1024
  inb_S32x128x1024_S1x128x1024_22_0_0 : ∀ a, (![22, 0, 0] : Fin 3 → Nat) a + S1x128x1024.size a ≤ S32x128x1024.size a
  slices_S32x2048_o23_0_S1x1024 : S32x2048.Slices ![23, 0] S1x1024
  slices_S32x2048_o23_1024_S1x1024 : S32x2048.Slices ![23, 1024] S1x1024
  inb_S32x128x1024_S1x128x1024_23_0_0 : ∀ a, (![23, 0, 0] : Fin 3 → Nat) a + S1x128x1024.size a ≤ S32x128x1024.size a
  slices_S32x2048_o24_0_S1x1024 : S32x2048.Slices ![24, 0] S1x1024
  slices_S32x2048_o24_1024_S1x1024 : S32x2048.Slices ![24, 1024] S1x1024
  inb_S32x128x1024_S1x128x1024_24_0_0 : ∀ a, (![24, 0, 0] : Fin 3 → Nat) a + S1x128x1024.size a ≤ S32x128x1024.size a
  slices_S32x2048_o25_0_S1x1024 : S32x2048.Slices ![25, 0] S1x1024
  slices_S32x2048_o25_1024_S1x1024 : S32x2048.Slices ![25, 1024] S1x1024
  inb_S32x128x1024_S1x128x1024_25_0_0 : ∀ a, (![25, 0, 0] : Fin 3 → Nat) a + S1x128x1024.size a ≤ S32x128x1024.size a
  slices_S32x2048_o26_0_S1x1024 : S32x2048.Slices ![26, 0] S1x1024
  slices_S32x2048_o26_1024_S1x1024 : S32x2048.Slices ![26, 1024] S1x1024
  inb_S32x128x1024_S1x128x1024_26_0_0 : ∀ a, (![26, 0, 0] : Fin 3 → Nat) a + S1x128x1024.size a ≤ S32x128x1024.size a
  slices_S32x2048_o27_0_S1x1024 : S32x2048.Slices ![27, 0] S1x1024
  slices_S32x2048_o27_1024_S1x1024 : S32x2048.Slices ![27, 1024] S1x1024
  inb_S32x128x1024_S1x128x1024_27_0_0 : ∀ a, (![27, 0, 0] : Fin 3 → Nat) a + S1x128x1024.size a ≤ S32x128x1024.size a
  slices_S32x2048_o28_0_S1x1024 : S32x2048.Slices ![28, 0] S1x1024
  slices_S32x2048_o28_1024_S1x1024 : S32x2048.Slices ![28, 1024] S1x1024
  inb_S32x128x1024_S1x128x1024_28_0_0 : ∀ a, (![28, 0, 0] : Fin 3 → Nat) a + S1x128x1024.size a ≤ S32x128x1024.size a
  slices_S32x2048_o29_0_S1x1024 : S32x2048.Slices ![29, 0] S1x1024
  slices_S32x2048_o29_1024_S1x1024 : S32x2048.Slices ![29, 1024] S1x1024
  inb_S32x128x1024_S1x128x1024_29_0_0 : ∀ a, (![29, 0, 0] : Fin 3 → Nat) a + S1x128x1024.size a ≤ S32x128x1024.size a
  slices_S32x2048_o30_0_S1x1024 : S32x2048.Slices ![30, 0] S1x1024
  slices_S32x2048_o30_1024_S1x1024 : S32x2048.Slices ![30, 1024] S1x1024
  inb_S32x128x1024_S1x128x1024_30_0_0 : ∀ a, (![30, 0, 0] : Fin 3 → Nat) a + S1x128x1024.size a ≤ S32x128x1024.size a
  slices_S32x2048_o31_0_S1x1024 : S32x2048.Slices ![31, 0] S1x1024
  slices_S32x2048_o31_1024_S1x1024 : S32x2048.Slices ![31, 1024] S1x1024
  inb_S32x128x1024_S1x128x1024_31_0_0 : ∀ a, (![31, 0, 0] : Fin 3 → Nat) a + S1x128x1024.size a ≤ S32x128x1024.size a
  inb_S1x128_S1x128_0_0 : ∀ a, (![0, 0] : Fin 2 → Nat) a + S1x128.size a ≤ S1x128.size a
  h_S1x128 : 0 < S1x128.numel
  broadcasts_S1x128_S2x128 : S1x128.Broadcasts S2x128
  inb_S1x2x128_S1x2x128_0_0_0 : ∀ a, (![0, 0, 0] : Fin 3 → Nat) a + S1x2x128.size a ≤ S1x2x128.size a
  h_S1x2x128 : 0 < S1x2x128.numel
  shapeCasts_S1x2x128_S2x128 : S1x2x128.ShapeCasts S2x128
  shapeCasts_S2x128_S1x2x128 : S2x128.ShapeCasts S1x2x128
  shapeCasts_S256x2x128_S512x128 : S256x2x128.ShapeCasts S512x128
  dot_S32x32_S32x2048_S32x2048_1_0_0_1_n_n_wf : DotDims.WF S32x32 S32x2048 S32x2048 [1] [0] [0] [1] [] []
  dot_S2x1024_S128x1024_S2x128_1_1_0_0_n_n_wf : DotDims.WF S2x1024 S128x1024 S2x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x2048.size a ≤ S256x32x2048.size a
  hwx0_0 : ∀ i : grid0.Coords, EltTy.bits .f32 = 32 ∨ (Rect.block (s := S256x32x2048) S1x32x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x9x32x32.size a ≤ S5x9x32x32.size a
  hwx0_2 : ∀ i : grid0.Coords, EltTy.bits .f32 = 32 ∨ (Rect.block (s := S5x9x32x32) S5x9x32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x32x1.size a ≤ S5x32x1.size a
  hwx0_3 : ∀ i : grid0.Coords, EltTy.bits .f32 = 32 ∨ (Rect.block (s := S5x32x1) S5x32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128x1024.size a ≤ S32x128x1024.size a
  hwx0_4 : ∀ i : grid0.Coords, EltTy.bits .f32 = 32 ∨ (Rect.block (s := S32x128x1024) S32x128x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x128.size a ≤ S256x2x128.size a
  hwx0_6 : ∀ i : grid0.Coords, EltTy.bits .f32 = 32 ∨ (Rect.block (s := S256x2x128) S1x2x128.size (cc0_transform_6 i) (hinb0_6 i)).WholeWords (EltTy.packing .f32)

variable [Facts₀]

def dot_S32x32_S32x2048_S32x2048_1_0_0_1_n_n : DotDims S32x32 S32x2048 S32x2048 where
  lhsContracting := [1]
  rhsContracting := [0]
  lhsNonContracting := [0]
  rhsNonContracting := [1]
  lhsBatch := []
  rhsBatch := []
  wf := dot_S32x32_S32x2048_S32x2048_1_0_0_1_n_n_wf
def dot_S2x1024_S128x1024_S2x128_1_1_0_0_n_n : DotDims S2x1024 S128x1024 S2x128 where
  lhsContracting := [1]
  rhsContracting := [1]
  lhsNonContracting := [0]
  rhsNonContracting := [0]
  lhsBatch := []
  rhsBatch := []
  wf := dot_S2x1024_S128x1024_S2x128_1_1_0_0_n_n_wf

abbrev win0_0 : Pipeline.Window sig grid0 :=
  Pipeline.Window.ofSpec (Memref.whole main_v5) S1x32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5x9x32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5x32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x2x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.RefRun.lean ====
/-
  The run of the reference's program with its result named: every weakly fair execution ends with the result array at
  what the host operations after the region compute from the region's arrays, and the arguments as launched.
-/
import proofs.«113494_g2000500751551631_pallasbulk_1084_2_alg».proof.Proof.Gen.ReferenceIdeal.Frame

set_option maxRecDepth 16384

noncomputable section

namespace Cert.ReferenceIdeal.Run

open Cert.ReferenceIdeal Cert.ReferenceIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The result array is no window's array: the frame run's post reads it off the host tail; the arguments as the
    generated frame reads them. -/
theorem run_result : θ_run defs (onTc (τ := τ) (main (F := F))) ⟨m, fun _ => 0, ρ⟩ (fun r => ∀ c : Dev nD,
      r.2.mem ((c.tc : Thread nD τ).loc main_v10) = Pipeline.afterTail₀ cfgs (dats m) 0 (V0 m) [hostOps1] c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v10 (Pipeline.mem_restRefs_of main_v10 (by decide) (by decide)),
      (((h c).2 main_arg0 (Pipeline.mem_restRefs_of main_arg0 (by decide) (by decide))).trans (W_main_arg0 m (dats m) c)),
      ((h c).1 2).trans ((((dats m) 0 c).arrAt_in 2 rfl _).trans ((A_eq m c 2).trans (V_main_arg1 m c))),
      ((h c).1 3).trans ((((dats m) 0 c).arrAt_in 3 rfl _).trans ((A_eq m c 3).trans (V_main_arg2 m c))),
      ((h c).1 4).trans ((((dats m) 0 c).arrAt_in 4 rfl _).trans ((A_eq m c 4).trans (V_main_arg3 m c))),
      ((h c).1 5).trans ((((dats m) 0 c).arrAt_in 5 rfl _).trans ((A_eq m c 5).trans (V_main_arg4 m c))),
      (((h c).2 main_arg5 (Pipeline.mem_restRefs_of main_arg5 (by decide) (by decide))).trans (W_main_arg5 m (dats m) c))⟩) (run_main m ρ)

end Cert.ReferenceIdeal.Run

end
-- ==== Proof.Spec.lean ====
/-
  The mathematics both programs compute, stated once over the extended reals, with no program in sight.

  An image is 32 channels of 1024 lanes: the 30 x 30 zero-ringed picture laid flat (lane p is row p / 30, column p % 30),
  then 124 zero lanes. A 3 x 3 convolution tap (dy, dx) is then the lane shift (dy - 1) * 30 + (dx - 1), as long as the
  ring and the tail stay zero: that is what multiplying by the interior mask restores after every layer.

  Both programs lay several images side by side on one long row of lanes (the kernel 32 of them, the reference 2) and
  shift the whole row. A shift then reads across the seam between neighbouring images, but only lanes 0 .. 30 of the right
  neighbour (its top ring row and the first ring pixel of the next row) or lanes 993 .. 1023 of the left one (its tail):
  all zero. So a layer on the packed row is, image by image, the layer on one image ('layerW_pack'), however many images
  share the row, and the five layers and the final linear map agree.
-/
import Idealize.ShloMosaic.PureOps.Ideal
import Idealize.ShloMosaic.Lib.ValueIdx
import Mathlib.Algebra.BigOperators.Fin
import Mathlib.Data.EReal.Operations

noncomputable section

namespace Cert.Spec

open Idealize.ShloMosaic Idealize.ShloMosaic.ValueIdx

abbrev SX : Shape := ⟨4, ![512, 3, 28, 28]⟩
abbrev SWc : Shape := ⟨4, ![5, 9, 32, 32]⟩
abbrev SBc : Shape := ⟨3, ![5, 32, 1]⟩
abbrev SWfc : Shape := ⟨3, ![32, 128, 1024]⟩
abbrev SBfc : Shape := ⟨2, ![1, 128]⟩
abbrev SMask : Shape := ⟨2, ![1, 1024]⟩
abbrev SOut : Shape := ⟨2, ![512, 128]⟩

/-- A finite row of numbers read at any integer lane: zero off the row. -/
def ext1 {n : ℕ} (v : Fin n → EReal) : ℤ → EReal :=
  fun q => if h : 0 ≤ q ∧ q < n then v ⟨q.toNat, by omega⟩ else 0

theorem ext1_of_mem {n : ℕ} (v : Fin n → EReal) (q : Fin n) : ext1 v (q.val : ℤ) = v q := by
  unfold ext1
  have h : (0 : ℤ) ≤ (q.val : ℤ) ∧ (q.val : ℤ) < n := ⟨by omega, by exact_mod_cast q.isLt⟩
  rw [dif_pos h]
  congr 1

theorem ext1_of_not_mem {n : ℕ} (v : Fin n → EReal) (q : ℤ) (h : ¬(0 ≤ q ∧ q < n)) : ext1 v q = 0 := by
  unfold ext1; rw [dif_neg h]

/-- The lane shift of tap 't = 3 * dy + dx' on the flat grid of row stride 30: '(dy - 1) * 30 + (dx - 1)'. -/
def off (t : Fin 9) : ℤ := ((t.val / 3 : ℕ) : ℤ) * 30 + ((t.val % 3 : ℕ) : ℤ) - 31

theorem off_bounds (t : Fin 9) : -31 ≤ off t ∧ off t ≤ 31 := by
  unfold off; have := t.isLt; omega

/-- One layer on a row of 'Wd' lanes: nine shifted taps times 32 input channels, the bias, the positive part, times the
    lane mask; zero off the row. 'X' is read at any integer lane (zero off the row it came from). -/
def layerW (Wd : ℤ) (w : Fin 9 → Fin 32 → Fin 32 → EReal) (b : Fin 32 → EReal) (mk : ℤ → EReal)
    (X : Fin 32 → ℤ → EReal) : Fin 32 → ℤ → EReal :=
  fun co q => if 0 ≤ q ∧ q < Wd then
    max ((∑ t : Fin 9, ∑ ci : Fin 32, w t co ci * X ci (q + off t)) + b co) 0 * mk q else 0

/-- The five layers. -/
def netW (Wd : ℤ) (w : Fin 5 → Fin 9 → Fin 32 → Fin 32 → EReal) (b : Fin 5 → Fin 32 → EReal) (mk : ℤ → EReal)
    (X : Fin 32 → ℤ → EReal) : Fin 32 → ℤ → EReal :=
  layerW Wd (w 4) (b 4) mk (layerW Wd (w 3) (b 3) mk (layerW Wd (w 2) (b 2) mk (layerW Wd (w 1) (b 1) mk
    (layerW Wd (w 0) (b 0) mk X))))

/-- A layer reads the mask only on its row. -/
theorem layerW_congr_mk (Wd : ℤ) (w b) (mk mk' : ℤ → EReal) (X) (h : ∀ q : ℤ, 0 ≤ q → q < Wd → mk q = mk' q) :
    layerW Wd w b mk X = layerW Wd w b mk' X := by
  funext co q
  unfold layerW
  split_ifs with hq
  · rw [h q hq.1 hq.2]
  · rfl

theorem netW_congr_mk (Wd : ℤ) (w b) (mk mk' : ℤ → EReal) (X) (h : ∀ q : ℤ, 0 ≤ q → q < Wd → mk q = mk' q) :
    netW Wd w b mk X = netW Wd w b mk' X := by
  unfold netW
  rw [layerW_congr_mk Wd (w 0) (b 0) mk mk' X h, layerW_congr_mk Wd (w 1) (b 1) mk mk' _ h,
    layerW_congr_mk Wd (w 2) (b 2) mk mk' _ h, layerW_congr_mk Wd (w 3) (b 3) mk mk' _ h,
    layerW_congr_mk Wd (w 4) (b 4) mk mk' _ h]

theorem layerW_off_row (Wd : ℤ) (w b mk X) (co : Fin 32) (q : ℤ) (h : ¬(0 ≤ q ∧ q < Wd)) :
    layerW Wd w b mk X co q = 0 := by
  unfold layerW; rw [if_neg h]

/-- Where the mask is zero on the ring lanes 0 .. 30 and the tail lanes 993 .. 1023, a layer's result is zero there
    (and off the row). -/
theorem layerW_ring (w b) (mk : ℤ → EReal) (X) (hmk : ∀ p : ℤ, 0 ≤ p → p < 1024 → (p < 31 ∨ 993 ≤ p) → mk p = 0)
    (co : Fin 32) (p : ℤ) (hp : p < 31 ∨ 993 ≤ p) : layerW 1024 w b mk X co p = 0 := by
  unfold layerW
  split_ifs with hq
  · rw [hmk p hq.1 hq.2 hp, mul_zero]
  · rfl

/-- Reading the packed row at a lane of image 'bi' shifted by at most 31 is reading image 'bi' at the shifted lane:
    inside the image the two agree by hypothesis; a shift that leaves the image lands on lanes 993 .. 1023 of the left
    neighbour or lanes 0 .. 30 of the right one (or off the row), where everything is zero, as is the image off its
    own lanes. -/
theorem pack_read (B : ℕ) (X : Fin 32 → ℤ → EReal) (Y : ℕ → Fin 32 → ℤ → EReal)
    (hX : ∀ ci q, ¬(0 ≤ q ∧ q < (B : ℤ) * 1024) → X ci q = 0)
    (hXY : ∀ bi : ℕ, bi < B → ∀ ci (p : ℤ), 0 ≤ p → p < 1024 → X ci ((bi : ℤ) * 1024 + p) = Y bi ci p)
    (hYz : ∀ bi : ℕ, bi < B → ∀ ci (p : ℤ), (p < 31 ∨ 993 ≤ p) → Y bi ci p = 0)
    (bi : ℕ) (hbi : bi < B) (ci : Fin 32) (p : ℤ) (hp0 : 0 ≤ p) (hp1 : p < 1024) (d : ℤ) (hd0 : -31 ≤ d) (hd1 : d ≤ 31) :
    X ci ((bi : ℤ) * 1024 + p + d) = Y bi ci (p + d) := by
  by_cases h1 : p + d < 0
  · -- the shifted lane is left of the image
    rw [hYz bi hbi ci (p + d) (Or.inl (by omega))]
    by_cases hb0 : bi = 0
    · exact hX ci _ (by omega)
    · have e : (bi : ℤ) * 1024 + p + d = ((bi - 1 : ℕ) : ℤ) * 1024 + (1024 + p + d) := by omega
      rw [e, hXY (bi - 1) (by omega) ci (1024 + p + d) (by omega) (by omega),
        hYz (bi - 1) (by omega) ci _ (Or.inr (by omega))]
  · by_cases h2 : p + d < 1024
    · -- the shifted lane stays in the image
      rw [add_assoc]
      exact hXY bi hbi ci (p + d) (by omega) h2
    · -- the shifted lane is right of the image
      rw [hYz bi hbi ci (p + d) (Or.inr (by omega))]
      by_cases hb1 : bi + 1 = B
      · exact hX ci _ (by omega)
      · have e : (bi : ℤ) * 1024 + p + d = ((bi + 1 : ℕ) : ℤ) * 1024 + (p + d - 1024) := by omega
        rw [e, hXY (bi + 1) (by omega) ci (p + d - 1024) (by omega) (by omega),
          hYz (bi + 1) (by omega) ci _ (Or.inl (by omega))]

/-- A layer on a row of 'B' images is, image by image, the layer on one image, when each image is zero on lanes
    0 .. 30 and 993 .. 1023 (and off its 1024 lanes) and the row is zero off its 'B * 1024' lanes. -/
theorem layerW_pack (B : ℕ) (w : Fin 9 → Fin 32 → Fin 32 → EReal) (b : Fin 32 → EReal) (mk : ℤ → EReal)
    (X : Fin 32 → ℤ → EReal) (Y : ℕ → Fin 32 → ℤ → EReal)
    (hX : ∀ ci q, ¬(0 ≤ q ∧ q < (B : ℤ) * 1024) → X ci q = 0)
    (hXY : ∀ bi : ℕ, bi < B → ∀ ci (p : ℤ), 0 ≤ p → p < 1024 → X ci ((bi : ℤ) * 1024 + p) = Y bi ci p)
    (hYz : ∀ bi : ℕ, bi < B → ∀ ci (p : ℤ), (p < 31 ∨ 993 ≤ p) → Y bi ci p = 0)
    (bi : ℕ) (hbi : bi < B) (co : Fin 32) (p : ℤ) (hp0 : 0 ≤ p) (hp1 : p < 1024) :
    layerW ((B : ℤ) * 1024) w b (fun q => mk (q % 1024)) X co ((bi : ℤ) * 1024 + p) = layerW 1024 w b mk (Y bi) co p := by
  have hrd : ∀ (t : Fin 9) (ci : Fin 32), X ci ((bi : ℤ) * 1024 + p + off t) = Y bi ci (p + off t) := fun t ci =>
    pack_read B X Y hX hXY hYz bi hbi ci p hp0 hp1 (off t) (off_bounds t).1 (off_bounds t).2
  have hmod : ((bi : ℤ) * 1024 + p) % 1024 = p := by omega
  unfold layerW
  rw [if_pos (by constructor <;> omega), if_pos ⟨hp0, hp1⟩]
  simp only [hrd, hmod]

/-- One layer carries the three facts that tie a packed row to its images over to the layer's results: zero off the
    row, image by image the one-image layer, and zero on each image's ring and tail lanes. -/
theorem pack_step (B : ℕ) (w : Fin 9 → Fin 32 → Fin 32 → EReal) (b : Fin 32 → EReal) (mk : ℤ → EReal)
    (hmk : ∀ p : ℤ, 0 ≤ p → p < 1024 → (p < 31 ∨ 993 ≤ p) → mk p = 0)
    (X : Fin 32 → ℤ → EReal) (Y : ℕ → Fin 32 → ℤ → EReal)
    (hX : ∀ ci q, ¬(0 ≤ q ∧ q < (B : ℤ) * 1024) → X ci q = 0)
    (hXY : ∀ bi : ℕ, bi < B → ∀ ci (p : ℤ), 0 ≤ p → p < 1024 → X ci ((bi : ℤ) * 1024 + p) = Y bi ci p)
    (hYz : ∀ bi : ℕ, bi < B → ∀ ci (p : ℤ), (p < 31 ∨ 993 ≤ p) → Y bi ci p = 0) :
    (∀ ci q, ¬(0 ≤ q ∧ q < (B : ℤ) * 1024) →
        layerW ((B : ℤ) * 1024) w b (fun q => mk (q % 1024)) X ci q = 0) ∧
    (∀ bi : ℕ, bi < B → ∀ ci (p : ℤ), 0 ≤ p → p < 1024 →
        layerW ((B : ℤ) * 1024) w b (fun q => mk (q % 1024)) X ci ((bi : ℤ) * 1024 + p)
          = layerW 1024 w b mk (Y bi) ci p) ∧
    (∀ bi : ℕ, bi < B → ∀ ci (p : ℤ), (p < 31 ∨ 993 ≤ p) → layerW 1024 w b mk (Y bi) ci p = 0) :=
  ⟨fun ci q hq => layerW_off_row _ w b _ X ci q hq,
   fun bi hbi ci p hp0 hp1 => layerW_pack B w b mk X Y hX hXY hYz bi hbi ci p hp0 hp1,
   fun bi _ ci p hp => layerW_ring w b mk (Y bi) hmk ci p hp⟩

/-- The same for the five layers: the mask zero on the ring and tail lanes keeps every layer's result zero there. -/
theorem netW_pack (B : ℕ) (w : Fin 5 → Fin 9 → Fin 32 → Fin 32 → EReal) (b : Fin 5 → Fin 32 → EReal) (mk : ℤ → EReal)
    (hmk : ∀ p : ℤ, 0 ≤ p → p < 1024 → (p < 31 ∨ 993 ≤ p) → mk p = 0)
    (X : Fin 32 → ℤ → EReal) (Y : ℕ → Fin 32 → ℤ → EReal)
    (hX : ∀ ci q, ¬(0 ≤ q ∧ q < (B : ℤ) * 1024) → X ci q = 0)
    (hXY : ∀ bi : ℕ, bi < B → ∀ ci (p : ℤ), 0 ≤ p → p < 1024 → X ci ((bi : ℤ) * 1024 + p) = Y bi ci p)
    (hYz : ∀ bi : ℕ, bi < B → ∀ ci (p : ℤ), (p < 31 ∨ 993 ≤ p) → Y bi ci p = 0)
    (bi : ℕ) (hbi : bi < B) (co : Fin 32) (p : ℤ) (hp0 : 0 ≤ p) (hp1 : p < 1024) :
    netW ((B : ℤ) * 1024) w b (fun q => mk (q % 1024)) X co ((bi : ℤ) * 1024 + p) = netW 1024 w b mk (Y bi) co p := by
  have s0 := pack_step B (w 0) (b 0) mk hmk X Y hX hXY hYz
  have s1 := pack_step B (w 1) (b 1) mk hmk _ (fun bi => layerW 1024 (w 0) (b 0) mk (Y bi)) s0.1 s0.2.1 s0.2.2
  have s2 := pack_step B (w 2) (b 2) mk hmk _
    (fun bi => layerW 1024 (w 1) (b 1) mk (layerW 1024 (w 0) (b 0) mk (Y bi))) s1.1 s1.2.1 s1.2.2
  have s3 := pack_step B (w 3) (b 3) mk hmk _
    (fun bi => layerW 1024 (w 2) (b 2) mk (layerW 1024 (w 1) (b 1) mk (layerW 1024 (w 0) (b 0) mk (Y bi))))
    s2.1 s2.2.1 s2.2.2
  have s4 := pack_step B (w 4) (b 4) mk hmk _
    (fun bi => layerW 1024 (w 3) (b 3) mk (layerW 1024 (w 2) (b 2) mk (layerW 1024 (w 1) (b 1) mk
      (layerW 1024 (w 0) (b 0) mk (Y bi)))))
    s3.1 s3.2.1 s3.2.2
  exact s4.2.1 bi hbi co p hp0 hp1

/-! ## The arguments read as the net's data -/

/-- The weights of layer 'l', tap 't'. -/
def wOf (wc : SWc.Idx → EReal) : Fin 5 → Fin 9 → Fin 32 → Fin 32 → EReal := fun l t co ci => wc (ix4 l t co ci)
/-- The bias of layer 'l'. -/
def bOf (bc : SBc.Idx → EReal) : Fin 5 → Fin 32 → EReal := fun l co => bc (ix3 l co 0)
/-- The mask at an integer lane of one image. -/
def mkOf (mask : SMask.Idx → EReal) : ℤ → EReal := ext1 fun p : Fin 1024 => mask (ix2 0 p)

/-- Image 'n' as the net finds it: channels 0 .. 2 the picture inside a one-pixel zero ring on the 30 x 30 grid laid
    flat, channels 3 .. 31 and lanes 900 .. 1023 zero. -/
def img (x : SX.Idx → EReal) (n : Fin 512) : Fin 32 → ℤ → EReal := fun c p =>
  if h : c.val < 3 ∧ 0 ≤ p ∧ p < 900 ∧ 1 ≤ p / 30 ∧ p / 30 ≤ 28 ∧ 1 ≤ p % 30 ∧ p % 30 ≤ 28 then
    x (ix4 n ⟨c.val, h.1⟩ ⟨(p / 30 - 1).toNat, by omega⟩ ⟨(p % 30 - 1).toNat, by omega⟩)
  else 0

/-- An image is zero on lanes 0 .. 30 (the top ring row and the next row's first pixel), on lanes 993 .. 1023 (the
    tail) and off its 1024 lanes. -/
theorem img_ring (x : SX.Idx → EReal) (n : Fin 512) (c : Fin 32) (p : ℤ) (hp : p < 31 ∨ 993 ≤ p) : img x n c p = 0 := by
  unfold img
  split_ifs with h
  · exfalso
    obtain ⟨_, h0, h900, hr1, _, hc1, _⟩ := h
    omega
  · rfl

/-- The activations of image 'n' after the five layers. -/
def act (x : SX.Idx → EReal) (wc : SWc.Idx → EReal) (bc : SBc.Idx → EReal) (mask : SMask.Idx → EReal) (n : Fin 512) :
    Fin 32 → ℤ → EReal :=
  netW 1024 (wOf wc) (bOf bc) (mkOf mask) (img x n)

/-- Score 'k' of image 'n': the activations against the final weights over channels and lanes, plus the final bias. -/
def scoreAt (x : SX.Idx → EReal) (wc : SWc.Idx → EReal) (bc : SBc.Idx → EReal) (wfc : SWfc.Idx → EReal)
    (bfc : SBfc.Idx → EReal) (mask : SMask.Idx → EReal) (n : Fin 512) (k : Fin 128) : EReal :=
  (∑ c : Fin 32, ∑ p : Fin 1024, act x wc bc mask n c (p.val : ℤ) * wfc (ix3 c k p)) + bfc (ix2 0 k)

/-- The result array. -/
def G (x : SX.Idx → EReal) (wc : SWc.Idx → EReal) (bc : SBc.Idx → EReal) (wfc : SWfc.Idx → EReal)
    (bfc : SBfc.Idx → EReal) (mask : SMask.Idx → EReal) : SOut.Idx → EReal :=
  fun i => scoreAt x wc bc wfc bfc mask (i 0) (i 1)

theorem G_apply (x wc bc wfc bfc mask) (n : Fin 512) (k : Fin 128) :
    G x wc bc wfc bfc mask (ix2 n k) = scoreAt x wc bc wfc bfc mask n k := rfl

end Cert.Spec

end
-- ==== Proof.KBody.lean ====
/-
  What one grid point of the kernel's convolution call leaves in its output block, read at an entry: the five layers on
  the point's row of 32 images (32768 lanes), each layer the eight shifted taps contracted in one product of depth 256 plus
  the centre tap's product of depth 32, the bias, the positive part and the mask; image 'b' of the row is lanes
  'b * 1024 .. b * 1024 + 1023'.
-/
import proofs.«113494_g2000500751551631_pallasbulk_1084_2_alg».proof.Proof.Gen.KernelIdeal.Frame
import proofs.«113494_g2000500751551631_pallasbulk_1084_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.BodyVal

open Idealize.ShloMosaic Idealize.ShloMosaic.ValueIdx Idealize.SL.Sem Cert.KernelIdeal Cert.KernelIdeal.Gen

/-- The weights as the body holds them, read as (layer, tap, output channel, input channel): tap 4 (the centre) from the
    centre array, the other eight from the depth-256 array, tap 't' at depth block 't' (below 4) or 't - 1' (above). -/
def kW (x2 : Vec Ideal S5x32x256 .bf16) (x3 : Vec Ideal S5x32x32 .bf16) : Fin 5 → Fin 9 → Fin 32 → Fin 32 → EReal :=
  fun l t co ci => if t.val = 4 then x3 (ix3 l co ci)
    else x2 (ix3 l co ⟨(if t.val < 4 then t.val else t.val - 1) * 32 + ci.val, by have := t.isLt; have := ci.isLt; split <;> omega⟩)
/-- The biases. -/
def kB (x4 : Vec Ideal S5x32x1 .f32) : Fin 5 → Fin 32 → EReal := fun l co => x4 (ix3 l co 0)
/-- The row's mask at an integer lane. -/
def kMask (x1 : Vec Ideal S1x32768 .f32) : ℤ → EReal := Cert.Spec.ext1 fun q : Fin 32768 => x1 (ix2 0 q)
/-- The row of 32 images at a channel and an integer lane. -/
def kX (x0 : Vec Ideal S1x32x32768 .bf16) : Fin 32 → ℤ → EReal := fun ci => Cert.Spec.ext1 fun q : Fin 32768 => x0 (ix3 0 ci q)

/-! ### The two products of a layer, read at an entry -/

theorem lhs8_0 (j : S32x32768.Idx) (k : dot_S32x256_S256x32768_S32x32768_1_0_0_1_n_n.contr.Idx) :
    (dot_S32x256_S256x32768_S32x32768_1_0_0_1_n_n.lhsIdx j k 0 : ℕ) = j 0 := by
  simp [DotDims.lhsIdx, dot_S32x256_S256x32768_S32x32768_1_0_0_1_n_n]; rfl
theorem lhs8_1 (j : S32x32768.Idx) (k : dot_S32x256_S256x32768_S32x32768_1_0_0_1_n_n.contr.Idx) :
    (dot_S32x256_S256x32768_S32x32768_1_0_0_1_n_n.lhsIdx j k 1 : ℕ) = k ⟨0, by decide⟩ := by
  simp [DotDims.lhsIdx, dot_S32x256_S256x32768_S32x32768_1_0_0_1_n_n]; rfl
theorem rhs8_0 (j : S32x32768.Idx) (k : dot_S32x256_S256x32768_S32x32768_1_0_0_1_n_n.contr.Idx) :
    (dot_S32x256_S256x32768_S32x32768_1_0_0_1_n_n.rhsIdx j k 0 : ℕ) = k ⟨0, by decide⟩ := by
  simp [DotDims.rhsIdx, dot_S32x256_S256x32768_S32x32768_1_0_0_1_n_n]; rfl
theorem rhs8_1 (j : S32x32768.Idx) (k : dot_S32x256_S256x32768_S32x32768_1_0_0_1_n_n.contr.Idx) :
    (dot_S32x256_S256x32768_S32x32768_1_0_0_1_n_n.rhsIdx j k 1 : ℕ) = j 1 := by
  simp [DotDims.rhsIdx, dot_S32x256_S256x32768_S32x32768_1_0_0_1_n_n]; rfl

/-- The product of depth 256 into a zero accumulator is the plain sum over the depth. -/
theorem mm8_apply (a : FVec Ideal S32x256 .bf16) (v : FVec Ideal S256x32768 .bf16) (co : Fin 32) (q : Fin 32768) :
    matmul (F := Ideal) dot_S32x256_S256x32768_S32x32768_1_0_0_1_n_n none a v (constant (F := Ideal) S32x32768 .f32 0x00000000#32) (ix2 co q)
      = ∑ k : Fin 256, a (ix2 co k) * v (ix2 k q) := by
  simp only [matmul]
  rw [Ideal.matmul_constant_zero_apply, ← Equiv.sum_comp (contrEquiv1 dot_S32x256_S256x32768_S32x32768_1_0_0_1_n_n 256 rfl rfl).symm]
  refine Finset.sum_congr rfl fun k _ => ?_
  congr 2
  · apply Shape.idx_ext₂
    · exact lhs8_0 _ _
    · exact (lhs8_1 _ _).trans (contrEquiv1_symm_val _ _ _ _ k)
  · apply Shape.idx_ext₂
    · exact (rhs8_0 _ _).trans (contrEquiv1_symm_val _ _ _ _ k)
    · exact rhs8_1 _ _

theorem lhsc_0 (j : S32x32768.Idx) (k : dot_S32x32_S32x32768_S32x32768_1_0_0_1_n_n.contr.Idx) :
    (dot_S32x32_S32x32768_S32x32768_1_0_0_1_n_n.lhsIdx j k 0 : ℕ) = j 0 := by
  simp [DotDims.lhsIdx, dot_S32x32_S32x32768_S32x32768_1_0_0_1_n_n]; rfl
theorem lhsc_1 (j : S32x32768.Idx) (k : dot_S32x32_S32x32768_S32x32768_1_0_0_1_n_n.contr.Idx) :
    (dot_S32x32_S32x32768_S32x32768_1_0_0_1_n_n.lhsIdx j k 1 : ℕ) = k ⟨0, by decide⟩ := by
  simp [DotDims.lhsIdx, dot_S32x32_S32x32768_S32x32768_1_0_0_1_n_n]; rfl
theorem rhsc_0 (j : S32x32768.Idx) (k : dot_S32x32_S32x32768_S32x32768_1_0_0_1_n_n.contr.Idx) :
    (dot_S32x32_S32x32768_S32x32768_1_0_0_1_n_n.rhsIdx j k 0 : ℕ) = k ⟨0, by decide⟩ := by
  simp [DotDims.rhsIdx, dot_S32x32_S32x32768_S32x32768_1_0_0_1_n_n]; rfl
theorem rhsc_1 (j : S32x32768.Idx) (k : dot_S32x32_S32x32768_S32x32768_1_0_0_1_n_n.contr.Idx) :
    (dot_S32x32_S32x32768_S32x32768_1_0_0_1_n_n.rhsIdx j k 1 : ℕ) = j 1 := by
  simp [DotDims.rhsIdx, dot_S32x32_S32x32768_S32x32768_1_0_0_1_n_n]; rfl

/-- The centre tap's product of depth 32 into a zero accumulator. -/
theorem mmc_apply (a : FVec Ideal S32x32 .bf16) (v : FVec Ideal S32x32768 .bf16) (co : Fin 32) (q : Fin 32768) :
    matmul (F := Ideal) dot_S32x32_S32x32768_S32x32768_1_0_0_1_n_n none a v (constant (F := Ideal) S32x32768 .f32 0x00000000#32) (ix2 co q)
      = ∑ k : Fin 32, a (ix2 co k) * v (ix2 k q) := by
  simp only [matmul]
  rw [Ideal.matmul_constant_zero_apply, ← Equiv.sum_comp (contrEquiv1 dot_S32x32_S32x32768_S32x32768_1_0_0_1_n_n 32 rfl rfl).symm]
  refine Finset.sum_congr rfl fun k _ => ?_
  congr 2
  · apply Shape.idx_ext₂
    · exact lhsc_0 _ _
    · exact (lhsc_1 _ _).trans (contrEquiv1_symm_val _ _ _ _ k)
  · apply Shape.idx_ext₂
    · exact (rhsc_0 _ _).trans (contrEquiv1_symm_val _ _ _ _ k)
    · exact rhsc_1 _ _

/-- A column (one value per row) spread along the lanes reads the row's value. -/
theorem bcast_col_apply (v : FVec Ideal S32x1 .f32) (h : S32x1.Broadcasts S32x32768) (co : Fin 32) (q : Fin 32768) :
    broadcastTo S32x32768 v h (ix2 co q) = v (ix2 co 0) := by
  refine broadcastTo_apply v h (ix2 co q) (ix2 co 0) fun ax => ?_
  match ax with
  | ⟨0, _⟩ => rfl
  | ⟨1, _⟩ => rfl

/-! ### The layers' payloads at an entry -/

theorem zero_f32 : (FloatOps.ofBits (F := Ideal) FTy.f32 0x00000000#32 : EReal) = 0 := Ideal.ofBits_zero_f32

theorem pay16_apply (w : Vec Ideal S1x32x256 .bf16) (v : Vec Ideal S256x32768 .bf16) (co : Fin 32) (q : Fin 32768) :
    k0_pay16 (F := Ideal) w v (ix2 co q) = ∑ k : Fin 256, w (ix3 0 co k) * v (ix2 k q) := by
  unfold k0_pay16
  refine (mm8_apply _ _ co q).trans ?_
  exact Finset.sum_congr rfl fun k _ => by rw [shapeCast_1ab_ab_apply]

theorem pay17_apply (m : Vec Ideal S1x32768 .f32) (vc : Vec Ideal S32x32768 .bf16) (z8 : FVec Ideal S32x32768 .f32) (wc : Vec Ideal S1x32x32 .bf16) (bs : Vec Ideal S1x32x1 .f32) (co : Fin 32) (q : Fin 32768) :
    k0_pay17 (F := Ideal) m vc z8 wc bs (ix2 co q)
      = max ((z8 (ix2 co q) + ∑ ci : Fin 32, wc (ix3 0 co ci) * vc (ix2 ci q)) + bs (ix3 0 co 0)) 0 * m (ix2 0 q) := by
  unfold k0_pay17
  simp only [shapeCast_self, truncf_apply, mulf_apply, maximumf_apply, addf_apply, broadcast_apply, broadcastTo_1b_ab_apply, bcast_col_apply, mmc_apply, shapeCast_1ab_ab_apply]
  rw [zero_f32]

theorem pay26_apply (vc : Vec Ideal S32x32768 .bf16) (w8 : Vec Ideal S1x32x256 .bf16) (v : Vec Ideal S256x32768 .bf16) (wc : Vec Ideal S1x32x32 .bf16) (co : Fin 32) (q : Fin 32768) :
    k0_pay26 (F := Ideal) vc w8 v wc (ix2 co q)
      = (∑ k : Fin 256, w8 (ix3 0 co k) * v (ix2 k q)) + ∑ ci : Fin 32, wc (ix3 0 co ci) * vc (ix2 ci q) := by
  unfold k0_pay26
  simp only [addf_apply, mm8_apply, mmc_apply, shapeCast_1ab_ab_apply]

theorem pay27_apply (m : Vec Ideal S1x32768 .f32) (z : FVec Ideal S32x32768 .f32) (bs : Vec Ideal S1x32x1 .f32) (co : Fin 32) (q : Fin 32768) :
    k0_pay27 (F := Ideal) m z bs (ix2 co q) = max (z (ix2 co q) + bs (ix3 0 co 0)) 0 * m (ix2 0 q) := by
  unfold k0_pay27
  simp only [shapeCast_self, truncf_apply, mulf_apply, maximumf_apply, addf_apply, broadcast_apply, broadcastTo_1b_ab_apply, bcast_col_apply, shapeCast_1ab_ab_apply]
  rw [zero_f32]

theorem pay36_apply (m : Vec Ideal S1x32768 .f32) (vc : Vec Ideal S32x32768 .bf16) (w8 : Vec Ideal S1x32x256 .bf16) (v : Vec Ideal S256x32768 .bf16) (wc : Vec Ideal S1x32x32 .bf16) (bs : Vec Ideal S1x32x1 .f32) (co : Fin 32) (q : Fin 32768) :
    k0_pay36 (F := Ideal) m vc w8 v wc bs (ix2 co q)
      = max (((∑ k : Fin 256, w8 (ix3 0 co k) * v (ix2 k q)) + ∑ ci : Fin 32, wc (ix3 0 co ci) * vc (ix2 ci q)) + bs (ix3 0 co 0)) 0 * m (ix2 0 q) := by
  unfold k0_pay36
  simp only [mulf_apply, maximumf_apply, addf_apply, broadcast_apply, broadcastTo_1b_ab_apply, bcast_col_apply, mm8_apply, mmc_apply, shapeCast_1ab_ab_apply]
  rw [zero_f32]

theorem pay37_apply (z : FVec Ideal S32x32768 .f32) (y : S32x32768.Idx) : k0_pay37 (F := Ideal) z y = z y := by
  unfold k0_pay37
  simp only [shapeCast_self, truncf_apply]

theorem pay46_apply (m : Vec Ideal S1x32768 .f32) (vc : Vec Ideal S32x32768 .bf16) (w8 : Vec Ideal S1x32x256 .bf16) (v : Vec Ideal S256x32768 .bf16) (wc : Vec Ideal S1x32x32 .bf16) (bs : Vec Ideal S1x32x1 .f32) (co : Fin 32) (q : Fin 32768) :
    k0_pay46 (F := Ideal) m vc w8 v wc bs (ix2 co q)
      = max (((∑ k : Fin 256, w8 (ix3 0 co k) * v (ix2 k q)) + ∑ ci : Fin 32, wc (ix3 0 co ci) * vc (ix2 ci q)) + bs (ix3 0 co 0)) 0 * m (ix2 0 q) := by
  unfold k0_pay46
  simp only [shapeCast_self, truncf_apply, mulf_apply, maximumf_apply, addf_apply, broadcast_apply, broadcastTo_1b_ab_apply, bcast_col_apply, mm8_apply, mmc_apply, shapeCast_1ab_ab_apply]
  rw [zero_f32]

theorem pay55_apply (m : Vec Ideal S1x32768 .f32) (vc : Vec Ideal S32x32768 .bf16) (w8 : Vec Ideal S1x32x256 .bf16) (v : Vec Ideal S256x32768 .bf16) (wc : Vec Ideal S1x32x32 .bf16) (bs : Vec Ideal S1x32x1 .f32) (co : Fin 32) (q : Fin 32768) :
    k0_pay55 (F := Ideal) m vc w8 v wc bs (ix2 co q)
      = max (((∑ k : Fin 256, w8 (ix3 0 co k) * v (ix2 k q)) + ∑ ci : Fin 32, wc (ix3 0 co ci) * vc (ix2 ci q)) + bs (ix3 0 co 0)) 0 * m (ix2 0 q) := by
  unfold k0_pay55
  simp only [truncf_apply, mulf_apply, maximumf_apply, addf_apply, broadcast_apply, broadcastTo_1b_ab_apply, bcast_col_apply, mm8_apply, mmc_apply, shapeCast_1ab_ab_apply]
  rw [zero_f32]

/-! ### Blocks of the whole operands -/

theorem hz2 : (![0, 0] : Fin 2 → Nat) = fun _ => 0 := funext fun a => by fin_cases a <;> rfl
theorem hz3 : (![0, 0, 0] : Fin 3 → Nat) = fun _ => 0 := funext fun a => by fin_cases a <;> rfl

/-- Block `l` of a stack of matrices: where its entry sits in the stack. -/
theorem stack_idx {n a b : ℕ} (l : Fin n)
    (inb : ∀ ax, (![l.val, 0, 0] : Fin 3 → ℕ) ax + (![1, a, b] : Fin 3 → ℕ) ax ≤ (⟨3, ![n, a, b]⟩ : Shape).size ax) (i : Fin a) (j : Fin b) :
    (Rect.unit _ _ inb).toLoadRect.idx (ix3 (0 : Fin 1) i j) = ix3 l i j := by
  funext ax
  apply Fin.ext
  match ax with
  | ⟨0, _⟩ => simp [LoadRect.idx]
  | ⟨1, _⟩ => simp [LoadRect.idx]
  | ⟨2, _⟩ => simp [LoadRect.idx]

/-- Block `l` of a stack of matrices, read through the whole buffer. -/
theorem readAt_stack {n a b : ℕ} {e : EltTy} (M : Memref sig .tc .vmem (⟨3, ![n, a, b]⟩ : Shape) e) (hM : M.IsWhole) (x : Vec Ideal (⟨3, ![n, a, b]⟩ : Shape) e)
    (l : Fin n) (inb : ∀ ax, (![l.val, 0, 0] : Fin 3 → ℕ) ax + (![1, a, b] : Fin 3 → ℕ) ax ≤ (⟨3, ![n, a, b]⟩ : Shape).size ax) (i : Fin a) (j : Fin b) :
    View.readAt (Elt Ideal) M.view (Rect.unit (s := (⟨3, ![n, a, b]⟩ : Shape)) ![l.val, 0, 0] ![1, a, b] inb).toLoadRect (hM.unread x) (ix3 (0 : Fin 1) i j) = x (ix3 l i j) := by
  rw [View.readAt_apply, hM.read_unread, stack_idx]

/-! ### One layer's sums, regrouped by tap -/

/-- The shifts of the eight outer taps, in the order the depth-256 operand stacks them. -/
def d8 : Fin 8 → ℤ := ![-31, -30, -29, -1, 1, 29, 30, 31]

/-- A sum over the depth 256 is a sum over eight blocks of 32. -/
theorem sum_fin256 (f : Fin 256 → EReal) :
    ∑ k : Fin 256, f k = ∑ j : Fin 8, ∑ ci : Fin 32, f ⟨j.val * 32 + ci.val, by have := j.isLt; have := ci.isLt; omega⟩ := by
  have e := (Equiv.sum_comp (finProdFinEquiv : Fin 8 × Fin 32 ≃ Fin (8 * 32)) f).symm
  rw [e, Fintype.sum_prod_type]
  refine Finset.sum_congr rfl fun j _ => Finset.sum_congr rfl fun ci _ => ?_
  congr 1
  apply Fin.ext
  simp only [finProdFinEquiv_apply_val]
  omega

/-- Nine taps: the eight outer ones, then the centre. -/
theorem sum_taps9 (g : Fin 9 → EReal) : ∑ t, g t = (g 0 + g 1 + g 2 + g 3 + g 5 + g 6 + g 7 + g 8) + g 4 := by
  rw [Fin.sum_univ_succ, Fin.sum_univ_eight]
  show g 0 + (g 1 + g 2 + g 3 + g 4 + g 5 + g 6 + g 7 + g 8) = _
  abel

/-- One layer at an entry inside the row: the product of depth 256 over the eight shifted copies plus the centre product,
    the bias, the positive part and the mask are the layer of the specification on the row `A`. -/
theorem layer_value (x1 : Vec Ideal S1x32768 .f32) (x2 : Vec Ideal S5x32x256 .bf16) (x3 : Vec Ideal S5x32x32 .bf16) (x4 : Vec Ideal S5x32x1 .f32)
    (A : Fin 32 → ℤ → EReal) (l : Fin 5) (co : Fin 32) (q : Fin 32768)
    (w8 : Vec Ideal S1x32x256 .bf16) (hw8 : ∀ k, w8 (ix3 0 co k) = x2 (ix3 l co k))
    (wc : Vec Ideal S1x32x32 .bf16) (hwc : ∀ ci, wc (ix3 0 co ci) = x3 (ix3 l co ci))
    (bs : Vec Ideal S1x32x1 .f32) (hbs : bs (ix3 0 co 0) = x4 (ix3 l co 0))
    (m : Vec Ideal S1x32768 .f32) (hm : m (ix2 0 q) = x1 (ix2 0 q))
    (v : Vec Ideal S256x32768 .bf16)
    (hv : ∀ (j : Fin 8) (ci : Fin 32), v (ix2 ⟨j.val * 32 + ci.val, by have := j.isLt; have := ci.isLt; omega⟩ q) = A ci ((q.val : ℤ) + d8 j))
    (vc : Vec Ideal S32x32768 .bf16) (hvc : ∀ ci, vc (ix2 ci q) = A ci (q.val : ℤ)) :
    max (((∑ k : Fin 256, w8 (ix3 0 co k) * v (ix2 k q)) + ∑ ci : Fin 32, wc (ix3 0 co ci) * vc (ix2 ci q)) + bs (ix3 0 co 0)) 0 * m (ix2 0 q)
      = Cert.Spec.layerW 32768 (kW x2 x3 l) (kB x4 l) (kMask x1) A co (q.val : ℤ) := by
  have hq := q.isLt
  unfold Cert.Spec.layerW
  rw [if_pos ⟨by omega, by omega⟩, sum_taps9, sum_fin256, Fin.sum_univ_eight]
  have hb : ∀ (j : Fin 8) (t : Fin 9),
      (∀ ci : Fin 32, kW x2 x3 l t co ci = x2 (ix3 l co ⟨j.val * 32 + ci.val, by have := j.isLt; have := ci.isLt; omega⟩)) → Cert.Spec.off t = d8 j →
      ∑ ci : Fin 32, w8 (ix3 0 co ⟨j.val * 32 + ci.val, by have := j.isLt; have := ci.isLt; omega⟩) * v (ix2 ⟨j.val * 32 + ci.val, by have := j.isLt; have := ci.isLt; omega⟩ q)
        = ∑ ci : Fin 32, kW x2 x3 l t co ci * A ci ((q.val : ℤ) + Cert.Spec.off t) := by
    intro j t h1 h2
    refine Finset.sum_congr rfl fun ci _ => ?_
    rw [hw8, hv j ci, h1 ci, h2]
  have hc : ∑ ci : Fin 32, wc (ix3 0 co ci) * vc (ix2 ci q) = ∑ ci : Fin 32, kW x2 x3 l 4 co ci * A ci ((q.val : ℤ) + Cert.Spec.off 4) := by
    refine Finset.sum_congr rfl fun ci _ => ?_
    rw [hwc, hvc, show Cert.Spec.off 4 = 0 from by decide, add_zero]
    rfl
  rw [hb 0 0 (fun _ => rfl) (by decide), hb 1 1 (fun _ => rfl) (by decide), hb 2 2 (fun _ => rfl) (by decide), hb 3 3 (fun _ => rfl) (by decide),
    hb 4 5 (fun _ => rfl) (by decide), hb 5 6 (fun _ => rfl) (by decide), hb 6 7 (fun _ => rfl) (by decide), hb 7 8 (fun _ => rfl) (by decide), hc, hbs, hm]
  have hmk : kMask x1 (q.val : ℤ) = x1 (ix2 0 q) := by unfold kMask; exact Cert.Spec.ext1_of_mem _ q
  rw [hmk]
  unfold kB
  rfl

/-! ### Stores into a matrix, read back at an entry -/

/-- A store at a rectangle of a matrix, newest, read at an entry the rectangle holds. -/
theorem canon_cons_hit {m n m' n' : ℕ} {e : EltTy} (o0 o1 : ℕ)
    (inb : ∀ ax, (![o0, o1] : Fin 2 → ℕ) ax + (![m', n'] : Fin 2 → ℕ) ax ≤ (⟨2, ![m, n]⟩ : Shape).size ax)
    (w : (⟨2, ![m', n']⟩ : Shape).Idx → Elt Ideal e) (L : List (View.Piece (Elt Ideal) (⟨2, ![m, n]⟩ : Shape) e))
    (i : Fin m) (j : Fin n) (a : Fin m') (b : Fin n') (hi : i.val = o0 + a.val) (hj : j.val = o1 + b.val) :
    View.canon (⟨Rect.unit _ _ inb, w⟩ :: L) (ix2 i j) = w (ix2 a b) := by
  have h : ix2 i j = (Rect.unit _ _ inb).emb (ix2 a b) := Shape.idx_ext₂ (by simp [hi]) (by simp [hj])
  rw [h]
  exact View.canon_cons_emb (Rect.unit _ _ inb) w L (ix2 a b)

/-- The same at an entry the rectangle does not hold: the earlier stores show. -/
theorem canon_cons_miss {m n m' n' : ℕ} {e : EltTy} (o0 o1 : ℕ)
    (inb : ∀ ax, (![o0, o1] : Fin 2 → ℕ) ax + (![m', n'] : Fin 2 → ℕ) ax ≤ (⟨2, ![m, n]⟩ : Shape).size ax)
    (w : (⟨2, ![m', n']⟩ : Shape).Idx → Elt Ideal e) (L : List (View.Piece (Elt Ideal) (⟨2, ![m, n]⟩ : Shape) e))
    (i : Fin m) (j : Fin n) (h : i.val < o0 ∨ o0 + m' ≤ i.val ∨ j.val < o1 ∨ o1 + n' ≤ j.val) :
    View.canon (⟨Rect.unit _ _ inb, w⟩ :: L) (ix2 i j) = View.canon L (ix2 i j) := by
  refine View.canon_cons_of_not_mem _ L ?_
  show ix2 i j ∉ (Rect.unit _ _ inb).set
  rw [Rect.mem_set_unit]
  intro hm
  have h0 : o0 ≤ i.val ∧ i.val < o0 + m' := hm 0
  have h1 : o1 ≤ j.val ∧ j.val < o1 + n' := hm 1
  omega

/-! ### The scratch rows: 32 margin lanes, the row, 32 margin lanes -/

/-- The scratch rows hold the row function `A`: channel `ci` at scratch lane `j` is `A ci (j - 32)`. -/
def ScrIs (L : List (View.Piece (Elt Ideal) S32x32832 .bf16)) (A : Fin 32 → ℤ → EReal) : Prop :=
  ∀ (ci : Fin 32) (j : Fin 32832), View.canon L (ix2 ci j) = A ci ((j.val : ℤ) - 32)

/-- A row function that vanishes off the row. -/
def OffZero (A : Fin 32 → ℤ → EReal) : Prop := ∀ (ci : Fin 32) (z : ℤ), ¬(0 ≤ z ∧ z < 32768) → A ci z = 0

/-- A store over the centre replaces the row; the margins keep their zeros. -/
theorem scr_cons (L : List (View.Piece (Elt Ideal) S32x32832 .bf16)) (A A' : Fin 32 → ℤ → EReal) (hL : ScrIs L A)
    (hA : OffZero A) (hA' : OffZero A')
    (inb : ∀ ax, (![0, 32] : Fin 2 → ℕ) ax + (![32, 32768] : Fin 2 → ℕ) ax ≤ S32x32832.size ax)
    (w : S32x32768.Idx → Elt Ideal .bf16) (hw : ∀ (ci : Fin 32) (q : Fin 32768), w (ix2 ci q) = A' ci (q.val : ℤ)) :
    ScrIs (⟨Rect.unit _ _ inb, w⟩ :: L) A' := by
  intro ci j
  have hj := j.isLt
  by_cases hc : 32 ≤ j.val ∧ j.val < 32800
  · rw [canon_cons_hit 0 32 inb w L ci j ci ⟨j.val - 32, by omega⟩ (by simp) (by simp only []; omega), hw]
    congr 1
    simp only []
    omega
  · rw [canon_cons_miss 0 32 inb w L ci j (by omega), hL, hA _ _ (by omega), hA' _ _ (by omega)]

/-- The scratch after the two margin stores of zeros and the centre store of the row. -/
theorem scr_init (A : Fin 32 → ℤ → EReal) (hA : OffZero A)
    (inb0 : ∀ ax, (![0, 32] : Fin 2 → ℕ) ax + (![32, 32768] : Fin 2 → ℕ) ax ≤ S32x32832.size ax)
    (inb1 : ∀ ax, (![0, 32800] : Fin 2 → ℕ) ax + (![32, 32] : Fin 2 → ℕ) ax ≤ S32x32832.size ax)
    (inb2 : ∀ ax, (![0, 0] : Fin 2 → ℕ) ax + (![32, 32] : Fin 2 → ℕ) ax ≤ S32x32832.size ax)
    (w : S32x32768.Idx → Elt Ideal .bf16) (hw : ∀ (ci : Fin 32) (q : Fin 32768), w (ix2 ci q) = A ci (q.val : ℤ))
    (z2 z1 : S32x32.Idx → Elt Ideal .bf16) (hz2 : ∀ y, z2 y = 0) (hz1 : ∀ y, z1 y = 0) :
    ScrIs [⟨Rect.unit _ _ inb0, w⟩, ⟨Rect.unit _ _ inb1, z2⟩, ⟨Rect.unit _ _ inb2, z1⟩] A := by
  intro ci j
  have hj := j.isLt
  by_cases hc : 32 ≤ j.val ∧ j.val < 32800
  · rw [canon_cons_hit 0 32 inb0 w _ ci j ci ⟨j.val - 32, by omega⟩ (by simp) (by simp only []; omega), hw]
    congr 1
    simp only []
    omega
  · rw [canon_cons_miss 0 32 inb0 w _ ci j (by omega), hA _ _ (by omega)]
    by_cases hc2 : 32800 ≤ j.val
    · rw [canon_cons_hit 0 32800 inb1 z2 _ ci j ci ⟨j.val - 32800, by omega⟩ (by simp) (by simp only []; omega), hz2]
    · rw [canon_cons_miss 0 32800 inb1 z2 _ ci j (by omega),
        canon_cons_hit 0 0 inb2 z1 _ ci j ci ⟨j.val, by omega⟩ (by simp) (by simp), hz1]

/-- A load of the row's width from the scratch at lane offset `o` reads the row shifted by `o - 32`. -/
theorem scr_load (M : Memref sig .tc .vmem S32x32832 .bf16) (L : List (View.Piece (Elt Ideal) S32x32832 .bf16)) (A : Fin 32 → ℤ → EReal)
    (hL : ScrIs L A) (o : ℕ) (inb : ∀ ax, (![0, o] : Fin 2 → ℕ) ax + (![32, 32768] : Fin 2 → ℕ) ax ≤ S32x32832.size ax)
    (ci : Fin 32) (q : Fin 32768) :
    M.view.readCov L (Rect.unit (s := S32x32832) ![0, o] ![32, 32768] inb).toLoadRect (ix2 ci q) = A ci ((q.val : ℤ) + ((o : ℤ) - 32)) := by
  have ho : o + 32768 ≤ 32832 := by simpa using inb 1
  have hq := q.isLt
  rw [View.readCov_eq_canon']
  have h : (Rect.unit (s := S32x32832) ![0, o] ![32, 32768] inb).toLoadRect.idx (ix2 ci q) = ix2 ci (⟨o + q.val, by omega⟩ : Fin 32832) :=
    Shape.idx_ext₂ (by simp [LoadRect.idx]) (by simp [LoadRect.idx])
  show View.canon L ((Rect.unit (s := S32x32832) ![0, o] ![32, 32768] inb).toLoadRect.idx (ix2 ci q)) = _
  rw [h, hL]
  congr 1
  simp only []
  omega

/-! ### The depth-256 operand: eight shifted copies of the row, stacked -/

local macro "miss8" : tactic => `(tactic| refine (canon_cons_miss _ _ _ _ _ _ _ (by dsimp only; omega)).trans ?_)
local macro "hit8" : tactic => `(tactic| exact canon_cons_hit _ _ _ _ _ _ _ _ _ (by first | omega | simp) (by first | omega | simp))

/-- Eight stores of 32 rows each, copy `j` at rows `32 j ..`, the newest first, read whole at row `32 j + ci`. -/
theorem taps_read (M8 : Memref sig .tc .vmem S256x32768 .bf16) (L8 : List (View.Piece (Elt Ideal) S256x32768 .bf16))
    (i0 : ∀ ax, (![0, 0] : Fin 2 → ℕ) ax + (![32, 32768] : Fin 2 → ℕ) ax ≤ S256x32768.size ax)
    (i1 : ∀ ax, (![32, 0] : Fin 2 → ℕ) ax + (![32, 32768] : Fin 2 → ℕ) ax ≤ S256x32768.size ax)
    (i2 : ∀ ax, (![64, 0] : Fin 2 → ℕ) ax + (![32, 32768] : Fin 2 → ℕ) ax ≤ S256x32768.size ax)
    (i3 : ∀ ax, (![96, 0] : Fin 2 → ℕ) ax + (![32, 32768] : Fin 2 → ℕ) ax ≤ S256x32768.size ax)
    (i4 : ∀ ax, (![128, 0] : Fin 2 → ℕ) ax + (![32, 32768] : Fin 2 → ℕ) ax ≤ S256x32768.size ax)
    (i5 : ∀ ax, (![160, 0] : Fin 2 → ℕ) ax + (![32, 32768] : Fin 2 → ℕ) ax ≤ S256x32768.size ax)
    (i6 : ∀ ax, (![192, 0] : Fin 2 → ℕ) ax + (![32, 32768] : Fin 2 → ℕ) ax ≤ S256x32768.size ax)
    (i7 : ∀ ax, (![224, 0] : Fin 2 → ℕ) ax + (![32, 32768] : Fin 2 → ℕ) ax ≤ S256x32768.size ax)
    (iw : ∀ ax, (![0, 0] : Fin 2 → ℕ) ax + (![256, 32768] : Fin 2 → ℕ) ax ≤ S256x32768.size ax)
    (w0 w1 w2 w3 w4 w5 w6 w7 : S32x32768.Idx → Elt Ideal .bf16) (q : Fin 32768) (T : Fin 8 → Fin 32 → EReal)
    (h0 : ∀ ci, w0 (ix2 ci q) = T 0 ci) (h1 : ∀ ci, w1 (ix2 ci q) = T 1 ci) (h2 : ∀ ci, w2 (ix2 ci q) = T 2 ci) (h3 : ∀ ci, w3 (ix2 ci q) = T 3 ci)
    (h4 : ∀ ci, w4 (ix2 ci q) = T 4 ci) (h5 : ∀ ci, w5 (ix2 ci q) = T 5 ci) (h6 : ∀ ci, w6 (ix2 ci q) = T 6 ci) (h7 : ∀ ci, w7 (ix2 ci q) = T 7 ci)
    (j : Fin 8) (ci : Fin 32) :
    M8.view.readCov (⟨Rect.unit _ _ i7, w7⟩ :: ⟨Rect.unit _ _ i6, w6⟩ :: ⟨Rect.unit _ _ i5, w5⟩ :: ⟨Rect.unit _ _ i4, w4⟩ :: ⟨Rect.unit _ _ i3, w3⟩ ::
        ⟨Rect.unit _ _ i2, w2⟩ :: ⟨Rect.unit _ _ i1, w1⟩ :: ⟨Rect.unit _ _ i0, w0⟩ :: L8)
      (Rect.unit (s := S256x32768) ![0, 0] ![256, 32768] iw).toLoadRect (ix2 (⟨j.val * 32 + ci.val, by have := j.isLt; have := ci.isLt; omega⟩ : Fin 256) q) = T j ci := by
  have hci := ci.isLt
  rw [View.readCov_eq_canon']
  have h : (Rect.unit (s := S256x32768) ![0, 0] ![256, 32768] iw).toLoadRect.idx (ix2 (⟨j.val * 32 + ci.val, by have := j.isLt; omega⟩ : Fin 256) q)
      = ix2 (⟨j.val * 32 + ci.val, by have := j.isLt; omega⟩ : Fin 256) q :=
    Shape.idx_ext₂ (by simp [LoadRect.idx]) (by simp [LoadRect.idx])
  show View.canon _ ((Rect.unit (s := S256x32768) ![0, 0] ![256, 32768] iw).toLoadRect.idx (ix2 (⟨j.val * 32 + ci.val, by have := j.isLt; omega⟩ : Fin 256) q)) = _
  rw [h]
  match j with
  | ⟨0, _⟩ => refine Eq.trans ?_ (h0 ci); miss8; miss8; miss8; miss8; miss8; miss8; miss8; hit8
  | ⟨1, _⟩ => refine Eq.trans ?_ (h1 ci); miss8; miss8; miss8; miss8; miss8; miss8; hit8
  | ⟨2, _⟩ => refine Eq.trans ?_ (h2 ci); miss8; miss8; miss8; miss8; miss8; hit8
  | ⟨3, _⟩ => refine Eq.trans ?_ (h3 ci); miss8; miss8; miss8; miss8; hit8
  | ⟨4, _⟩ => refine Eq.trans ?_ (h4 ci); miss8; miss8; miss8; hit8
  | ⟨5, _⟩ => refine Eq.trans ?_ (h5 ci); miss8; miss8; hit8
  | ⟨6, _⟩ => refine Eq.trans ?_ (h6 ci); miss8; hit8
  | ⟨7, _⟩ => refine Eq.trans ?_ (h7 ci); hit8

/-- What a layer's product of depth 256 reads: row `32 j + ci` of the stacked copies is the row `A` shifted by the `j`-th outer tap. -/
theorem layer_reads (M7 : Memref sig .tc .vmem S32x32832 .bf16) (M8 : Memref sig .tc .vmem S256x32768 .bf16)
    (L7 : List (View.Piece (Elt Ideal) S32x32832 .bf16)) (L8 : List (View.Piece (Elt Ideal) S256x32768 .bf16))
    (A : Fin 32 → ℤ → EReal) (hL : ScrIs L7 A)
    (a1 : ∀ ax, (![0, 1] : Fin 2 → ℕ) ax + (![32, 32768] : Fin 2 → ℕ) ax ≤ S32x32832.size ax)
    (a2 : ∀ ax, (![0, 2] : Fin 2 → ℕ) ax + (![32, 32768] : Fin 2 → ℕ) ax ≤ S32x32832.size ax)
    (a3 : ∀ ax, (![0, 3] : Fin 2 → ℕ) ax + (![32, 32768] : Fin 2 → ℕ) ax ≤ S32x32832.size ax)
    (a31 : ∀ ax, (![0, 31] : Fin 2 → ℕ) ax + (![32, 32768] : Fin 2 → ℕ) ax ≤ S32x32832.size ax)
    (a33 : ∀ ax, (![0, 33] : Fin 2 → ℕ) ax + (![32, 32768] : Fin 2 → ℕ) ax ≤ S32x32832.size ax)
    (a61 : ∀ ax, (![0, 61] : Fin 2 → ℕ) ax + (![32, 32768] : Fin 2 → ℕ) ax ≤ S32x32832.size ax)
    (a62 : ∀ ax, (![0, 62] : Fin 2 → ℕ) ax + (![32, 32768] : Fin 2 → ℕ) ax ≤ S32x32832.size ax)
    (a63 : ∀ ax, (![0, 63] : Fin 2 → ℕ) ax + (![32, 32768] : Fin 2 → ℕ) ax ≤ S32x32832.size ax)
    (hs : S32x32768.ShapeCasts S32x32768)
    (i0 : ∀ ax, (![0, 0] : Fin 2 → ℕ) ax + (![32, 32768] : Fin 2 → ℕ) ax ≤ S256x32768.size ax)
    (i1 : ∀ ax, (![32, 0] : Fin 2 → ℕ) ax + (![32, 32768] : Fin 2 → ℕ) ax ≤ S256x32768.size ax)
    (i2 : ∀ ax, (![64, 0] : Fin 2 → ℕ) ax + (![32, 32768] : Fin 2 → ℕ) ax ≤ S256x32768.size ax)
    (i3 : ∀ ax, (![96, 0] : Fin 2 → ℕ) ax + (![32, 32768] : Fin 2 → ℕ) ax ≤ S256x32768.size ax)
    (i4 : ∀ ax, (![128, 0] : Fin 2 → ℕ) ax + (![32, 32768] : Fin 2 → ℕ) ax ≤ S256x32768.size ax)
    (i5 : ∀ ax, (![160, 0] : Fin 2 → ℕ) ax + (![32, 32768] : Fin 2 → ℕ) ax ≤ S256x32768.size ax)
    (i6 : ∀ ax, (![192, 0] : Fin 2 → ℕ) ax + (![32, 32768] : Fin 2 → ℕ) ax ≤ S256x32768.size ax)
    (i7 : ∀ ax, (![224, 0] : Fin 2 → ℕ) ax + (![32, 32768] : Fin 2 → ℕ) ax ≤ S256x32768.size ax)
    (iw : ∀ ax, (![0, 0] : Fin 2 → ℕ) ax + (![256, 32768] : Fin 2 → ℕ) ax ≤ S256x32768.size ax)
    (j : Fin 8) (ci : Fin 32) (q : Fin 32768) :
    M8.view.readCov (
        ⟨Rect.unit _ _ i7, shapeCast (s := S32x32768) S32x32768 (M7.view.readCov L7 (Rect.unit (s := S32x32832) ![0, 63] ![32, 32768] a63).toLoadRect) hs⟩ ::
        ⟨Rect.unit _ _ i6, shapeCast (s := S32x32768) S32x32768 (M7.view.readCov L7 (Rect.unit (s := S32x32832) ![0, 62] ![32, 32768] a62).toLoadRect) hs⟩ ::
        ⟨Rect.unit _ _ i5, shapeCast (s := S32x32768) S32x32768 (M7.view.readCov L7 (Rect.unit (s := S32x32832) ![0, 61] ![32, 32768] a61).toLoadRect) hs⟩ ::
        ⟨Rect.unit _ _ i4, shapeCast (s := S32x32768) S32x32768 (M7.view.readCov L7 (Rect.unit (s := S32x32832) ![0, 33] ![32, 32768] a33).toLoadRect) hs⟩ ::
        ⟨Rect.unit _ _ i3, shapeCast (s := S32x32768) S32x32768 (M7.view.readCov L7 (Rect.unit (s := S32x32832) ![0, 31] ![32, 32768] a31).toLoadRect) hs⟩ ::
        ⟨Rect.unit _ _ i2, shapeCast (s := S32x32768) S32x32768 (M7.view.readCov L7 (Rect.unit (s := S32x32832) ![0, 3] ![32, 32768] a3).toLoadRect) hs⟩ ::
        ⟨Rect.unit _ _ i1, shapeCast (s := S32x32768) S32x32768 (M7.view.readCov L7 (Rect.unit (s := S32x32832) ![0, 2] ![32, 32768] a2).toLoadRect) hs⟩ ::
        ⟨Rect.unit _ _ i0, shapeCast (s := S32x32768) S32x32768 (M7.view.readCov L7 (Rect.unit (s := S32x32832) ![0, 1] ![32, 32768] a1).toLoadRect) hs⟩ :: L8)
      (Rect.unit (s := S256x32768) ![0, 0] ![256, 32768] iw).toLoadRect (ix2 (⟨j.val * 32 + ci.val, by have := j.isLt; have := ci.isLt; omega⟩ : Fin 256) q)
      = A ci ((q.val : ℤ) + d8 j) := by
  have key : ∀ (o : ℕ) (inb : ∀ ax, (![0, o] : Fin 2 → ℕ) ax + (![32, 32768] : Fin 2 → ℕ) ax ≤ S32x32832.size ax) (d : ℤ), (o : ℤ) - 32 = d →
      ∀ ci : Fin 32, shapeCast (s := S32x32768) S32x32768 (M7.view.readCov L7 (Rect.unit (s := S32x32832) ![0, o] ![32, 32768] inb).toLoadRect) hs (ix2 ci q) = A ci ((q.val : ℤ) + d) := by
    intro o inb d hd ci
    rw [shapeCast_self, scr_load M7 L7 A hL o inb ci q, hd]
  exact taps_read M8 L8 i0 i1 i2 i3 i4 i5 i6 i7 iw _ _ _ _ _ _ _ _ q (fun j ci => A ci ((q.val : ℤ) + d8 j))
    (key 1 a1 (d8 0) (by decide)) (key 2 a2 (d8 1) (by decide)) (key 3 a3 (d8 2) (by decide)) (key 31 a31 (d8 3) (by decide))
    (key 33 a33 (d8 4) (by decide)) (key 61 a61 (d8 5) (by decide)) (key 62 a62 (d8 6) (by decide)) (key 63 a63 (d8 7) (by decide)) j ci

/-! ### One layer of the run -/

/-- The mask row, read through its whole buffer. -/
theorem mask_read (M2 : Memref sig .tc .vmem S1x32768 .f32) (h2 : M2.IsWhole) (x1 : Vec Ideal S1x32768 .f32)
    (im : ∀ ax, (![0, 0] : Fin 2 → ℕ) ax + (![1, 32768] : Fin 2 → ℕ) ax ≤ S1x32768.size ax) (q : Fin 32768) :
    View.readAt (Elt Ideal) M2.view (Rect.unit (s := S1x32768) ![0, 0] ![1, 32768] im).toLoadRect (h2.unread x1) (ix2 (0 : Fin 1) q) = x1 (ix2 0 q) := by
  rw [View.readAt_eq_ld, h2.read_unread]
  exact congrFun (View.ld_unit_zero (S := S1x32768) hz2 im x1) (ix2 0 q)

/-- One layer of the body at an entry: its arithmetic on what it loads — block `l` of the weights and biases, the mask, the
    eight shifted copies of the scratch row stacked in the depth-256 operand, the centre — is the specification's layer on
    the row `A` the scratch holds. -/
theorem layer_step (x1 : Vec Ideal S1x32768 .f32) (x2 : Vec Ideal S5x32x256 .bf16) (x3 : Vec Ideal S5x32x32 .bf16) (x4 : Vec Ideal S5x32x1 .f32)
    (A : Fin 32 → ℤ → EReal) (l : Fin 5)
    (M2 : Memref sig .tc .vmem S1x32768 .f32) (h2 : M2.IsWhole) (M3 : Memref sig .tc .vmem S5x32x256 .bf16) (h3 : M3.IsWhole)
    (M4 : Memref sig .tc .vmem S5x32x32 .bf16) (h4 : M4.IsWhole) (M5 : Memref sig .tc .vmem S5x32x1 .f32) (h5 : M5.IsWhole)
    (M7 : Memref sig .tc .vmem S32x32832 .bf16) (M8 : Memref sig .tc .vmem S256x32768 .bf16)
    (L7 : List (View.Piece (Elt Ideal) S32x32832 .bf16)) (L8 : List (View.Piece (Elt Ideal) S256x32768 .bf16)) (hL : ScrIs L7 A)
    (im : ∀ ax, (![0, 0] : Fin 2 → ℕ) ax + (![1, 32768] : Fin 2 → ℕ) ax ≤ S1x32768.size ax)
    (iw8 : ∀ ax, (![l.val, 0, 0] : Fin 3 → ℕ) ax + (![1, 32, 256] : Fin 3 → ℕ) ax ≤ S5x32x256.size ax)
    (iwc : ∀ ax, (![l.val, 0, 0] : Fin 3 → ℕ) ax + (![1, 32, 32] : Fin 3 → ℕ) ax ≤ S5x32x32.size ax)
    (ibs : ∀ ax, (![l.val, 0, 0] : Fin 3 → ℕ) ax + (![1, 32, 1] : Fin 3 → ℕ) ax ≤ S5x32x1.size ax)
    (a1 : ∀ ax, (![0, 1] : Fin 2 → ℕ) ax + (![32, 32768] : Fin 2 → ℕ) ax ≤ S32x32832.size ax)
    (a2 : ∀ ax, (![0, 2] : Fin 2 → ℕ) ax + (![32, 32768] : Fin 2 → ℕ) ax ≤ S32x32832.size ax)
    (a3 : ∀ ax, (![0, 3] : Fin 2 → ℕ) ax + (![32, 32768] : Fin 2 → ℕ) ax ≤ S32x32832.size ax)
    (a31 : ∀ ax, (![0, 31] : Fin 2 → ℕ) ax + (![32, 32768] : Fin 2 → ℕ) ax ≤ S32x32832.size ax)
    (a33 : ∀ ax, (![0, 33] : Fin 2 → ℕ) ax + (![32, 32768] : Fin 2 → ℕ) ax ≤ S32x32832.size ax)
    (a61 : ∀ ax, (![0, 61] : Fin 2 → ℕ) ax + (![32, 32768] : Fin 2 → ℕ) ax ≤ S32x32832.size ax)
    (a62 : ∀ ax, (![0, 62] : Fin 2 → ℕ) ax + (![32, 32768] : Fin 2 → ℕ) ax ≤ S32x32832.size ax)
    (a63 : ∀ ax, (![0, 63] : Fin 2 → ℕ) ax + (![32, 32768] : Fin 2 → ℕ) ax ≤ S32x32832.size ax)
    (ac : ∀ ax, (![0, 32] : Fin 2 → ℕ) ax + (![32, 32768] : Fin 2 → ℕ) ax ≤ S32x32832.size ax)
    (hs : S32x32768.ShapeCasts S32x32768)
    (i0 : ∀ ax, (![0, 0] : Fin 2 → ℕ) ax + (![32, 32768] : Fin 2 → ℕ) ax ≤ S256x32768.size ax)
    (i1 : ∀ ax, (![32, 0] : Fin 2 → ℕ) ax + (![32, 32768] : Fin 2 → ℕ) ax ≤ S256x32768.size ax)
    (i2 : ∀ ax, (![64, 0] : Fin 2 → ℕ) ax + (![32, 32768] : Fin 2 → ℕ) ax ≤ S256x32768.size ax)
    (i3 : ∀ ax, (![96, 0] : Fin 2 → ℕ) ax + (![32, 32768] : Fin 2 → ℕ) ax ≤ S256x32768.size ax)
    (i4 : ∀ ax, (![128, 0] : Fin 2 → ℕ) ax + (![32, 32768] : Fin 2 → ℕ) ax ≤ S256x32768.size ax)
    (i5 : ∀ ax, (![160, 0] : Fin 2 → ℕ) ax + (![32, 32768] : Fin 2 → ℕ) ax ≤ S256x32768.size ax)
    (i6 : ∀ ax, (![192, 0] : Fin 2 → ℕ) ax + (![32, 32768] : Fin 2 → ℕ) ax ≤ S256x32768.size ax)
    (i7 : ∀ ax, (![224, 0] : Fin 2 → ℕ) ax + (![32, 32768] : Fin 2 → ℕ) ax ≤ S256x32768.size ax)
    (iw : ∀ ax, (![0, 0] : Fin 2 → ℕ) ax + (![256, 32768] : Fin 2 → ℕ) ax ≤ S256x32768.size ax)
    (co : Fin 32) (q : Fin 32768) :
    max (((∑ k : Fin 256, View.readAt (Elt Ideal) M3.view (Rect.unit (s := S5x32x256) ![l.val, 0, 0] ![1, 32, 256] iw8).toLoadRect (h3.unread x2) (ix3 (0 : Fin 1) co k)
            * M8.view.readCov (
                ⟨Rect.unit _ _ i7, shapeCast (s := S32x32768) S32x32768 (M7.view.readCov L7 (Rect.unit (s := S32x32832) ![0, 63] ![32, 32768] a63).toLoadRect) hs⟩ ::
                ⟨Rect.unit _ _ i6, shapeCast (s := S32x32768) S32x32768 (M7.view.readCov L7 (Rect.unit (s := S32x32832) ![0, 62] ![32, 32768] a62).toLoadRect) hs⟩ ::
                ⟨Rect.unit _ _ i5, shapeCast (s := S32x32768) S32x32768 (M7.view.readCov L7 (Rect.unit (s := S32x32832) ![0, 61] ![32, 32768] a61).toLoadRect) hs⟩ ::
                ⟨Rect.unit _ _ i4, shapeCast (s := S32x32768) S32x32768 (M7.view.readCov L7 (Rect.unit (s := S32x32832) ![0, 33] ![32, 32768] a33).toLoadRect) hs⟩ ::
                ⟨Rect.unit _ _ i3, shapeCast (s := S32x32768) S32x32768 (M7.view.readCov L7 (Rect.unit (s := S32x32832) ![0, 31] ![32, 32768] a31).toLoadRect) hs⟩ ::
                ⟨Rect.unit _ _ i2, shapeCast (s := S32x32768) S32x32768 (M7.view.readCov L7 (Rect.unit (s := S32x32832) ![0, 3] ![32, 32768] a3).toLoadRect) hs⟩ ::
                ⟨Rect.unit _ _ i1, shapeCast (s := S32x32768) S32x32768 (M7.view.readCov L7 (Rect.unit (s := S32x32832) ![0, 2] ![32, 32768] a2).toLoadRect) hs⟩ ::
                ⟨Rect.unit _ _ i0, shapeCast (s := S32x32768) S32x32768 (M7.view.readCov L7 (Rect.unit (s := S32x32832) ![0, 1] ![32, 32768] a1).toLoadRect) hs⟩ :: L8)
              (Rect.unit (s := S256x32768) ![0, 0] ![256, 32768] iw).toLoadRect (ix2 k q))
          + ∑ ci : Fin 32, View.readAt (Elt Ideal) M4.view (Rect.unit (s := S5x32x32) ![l.val, 0, 0] ![1, 32, 32] iwc).toLoadRect (h4.unread x3) (ix3 (0 : Fin 1) co ci)
            * M7.view.readCov L7 (Rect.unit (s := S32x32832) ![0, 32] ![32, 32768] ac).toLoadRect (ix2 ci q))
        + View.readAt (Elt Ideal) M5.view (Rect.unit (s := S5x32x1) ![l.val, 0, 0] ![1, 32, 1] ibs).toLoadRect (h5.unread x4) (ix3 (0 : Fin 1) co (0 : Fin 1))) 0
      * View.readAt (Elt Ideal) M2.view (Rect.unit (s := S1x32768) ![0, 0] ![1, 32768] im).toLoadRect (h2.unread x1) (ix2 (0 : Fin 1) q)
    = Cert.Spec.layerW 32768 (kW x2 x3 l) (kB x4 l) (kMask x1) A co (q.val : ℤ) :=
  layer_value x1 x2 x3 x4 A l co q _ (fun k => readAt_stack M3 h3 x2 l iw8 co k) _ (fun ci => readAt_stack M4 h4 x3 l iwc co ci)
    _ (readAt_stack M5 h5 x4 l ibs co 0) _ (mask_read M2 h2 x1 im q)
    _ (fun j ci => layer_reads M7 M8 L7 L8 A hL a1 a2 a3 a31 a33 a61 a62 a63 hs i0 i1 i2 i3 i4 i5 i6 i7 iw j ci q)
    _ (fun ci => (scr_load M7 L7 A hL 32 ac ci q).trans (by rw [show ((32 : ℕ) : ℤ) - 32 = 0 from by norm_num, add_zero]))

/-! ### The run: the scratch after each layer -/

theorem zero_bf16 : (FloatOps.ofBits (F := Ideal) FTy.bf16 0x0000#16 : EReal) = 0 := by
  show Ideal.ofBits .bf16 0x0000#16 = 0
  simp [Ideal.ofBits, Ideal.ieee]

theorem pay5_zero (y : S32x32.Idx) : k0_pay5 (F := Ideal) y = 0 := by
  unfold k0_pay5
  simp only [shapeCast_self, broadcast_apply]
  exact zero_bf16

theorem pay6_zero (y : S32x32.Idx) : k0_pay6 (F := Ideal) y = 0 := by
  unfold k0_pay6
  simp only [shapeCast_self, broadcast_apply]
  exact zero_bf16

theorem pay7_apply (v : Vec Ideal S1x32x32768 .bf16) (ci : Fin 32) (q : Fin 32768) : k0_pay7 (F := Ideal) v (ix2 ci q) = v (ix3 0 ci q) := by
  unfold k0_pay7
  simp only [shapeCast_self, shapeCast_1ab_ab_apply]

theorem offzero_kX (x0 : Vec Ideal S1x32x32768 .bf16) : OffZero (kX x0) := fun ci z h => by
  unfold kX
  exact Cert.Spec.ext1_of_not_mem _ z h

theorem offzero_layer (w : Fin 9 → Fin 32 → Fin 32 → EReal) (b : Fin 32 → EReal) (mk : ℤ → EReal) (X : Fin 32 → ℤ → EReal) :
    OffZero (Cert.Spec.layerW 32768 w b mk X) := fun co z h => Cert.Spec.layerW_off_row 32768 w b mk X co z h

section Run

variable (c : Dev nD) (arg1 : Memref sig .tc .vmem S1x32x32768 .bf16) (harg1 : arg1.IsWhole) (arg2 : Memref sig .tc .vmem S1x32768 .f32) (harg2 : arg2.IsWhole)
  (arg3 : Memref sig .tc .vmem S5x32x256 .bf16) (harg3 : arg3.IsWhole) (arg4 : Memref sig .tc .vmem S5x32x32 .bf16) (harg4 : arg4.IsWhole)
  (arg5 : Memref sig .tc .vmem S5x32x1 .f32) (harg5 : arg5.IsWhole) (arg7 : Memref sig .tc .vmem S32x32832 .bf16) (arg8 : Memref sig .tc .vmem S256x32768 .bf16)
  (x0 : Vec Ideal S1x32x32768 .bf16) (x1 : Vec Ideal S1x32768 .f32) (x2 : Vec Ideal S5x32x256 .bf16) (x3 : Vec Ideal S5x32x32 .bf16) (x4 : Vec Ideal S5x32x1 .f32)

/-- The row after the first `n` layers. -/
def rowA1 : Fin 32 → ℤ → EReal := Cert.Spec.layerW 32768 (kW x2 x3 0) (kB x4 0) (kMask x1) (kX x0)
def rowA2 : Fin 32 → ℤ → EReal := Cert.Spec.layerW 32768 (kW x2 x3 1) (kB x4 1) (kMask x1) (rowA1 x0 x1 x2 x3 x4)
def rowA3 : Fin 32 → ℤ → EReal := Cert.Spec.layerW 32768 (kW x2 x3 2) (kB x4 2) (kMask x1) (rowA2 x0 x1 x2 x3 x4)
def rowA4 : Fin 32 → ℤ → EReal := Cert.Spec.layerW 32768 (kW x2 x3 3) (kB x4 3) (kMask x1) (rowA3 x0 x1 x2 x3 x4)
def rowA5 : Fin 32 → ℤ → EReal := Cert.Spec.layerW 32768 (kW x2 x3 4) (kB x4 4) (kMask x1) (rowA4 x0 x1 x2 x3 x4)

/-- The scratch after the margins are zeroed and the input row is stored. -/
theorem scr0 : ScrIs (kernelRun0_A.sl.HS0_3 c arg1 harg1 x0) (kX x0) := by
  unfold kernelRun0_A.sl.HS0_3
  refine scr_init (kX x0) (offzero_kX x0) _ _ _ _ (fun ci q => ?_) _ _ pay6_zero pay5_zero
  refine (pay7_apply _ ci q).trans ((readAt_stack arg1 harg1 x0 0 _ ci q).trans ?_)
  unfold kX
  exact (Cert.Spec.ext1_of_mem (fun q : Fin 32768 => x0 (ix3 0 ci q)) q).symm

/-- The scratch after layer 0. -/
theorem scr1 : ScrIs (kernelRun0_A.sl.HS0_4 c arg1 harg1 arg2 harg2 arg3 harg3 arg4 harg4 arg5 harg5 arg7 arg8 x0 x1 x2 x3 x4) (rowA1 x0 x1 x2 x3 x4) := by
  unfold kernelRun0_A.sl.HS0_4
  refine scr_cons _ (kX x0) _ (scr0 c arg1 harg1 x0) (offzero_kX x0) (offzero_layer _ _ _ _) _ _ (fun co q => ?_)
  rw [pay17_apply]
  unfold kernelRun0_A.sl.r_1
  rw [pay16_apply]
  unfold kernelRun0_A.sl.r kernelRun0_A.sl.r_2 kernelRun0_A.sl.v46 kernelRun0_A.sl.v49 kernelRun0_A.sl.HS1_8
  exact layer_step x1 x2 x3 x4 (kX x0) 0 arg2 harg2 arg3 harg3 arg4 harg4 arg5 harg5 arg7 arg8 _ _ (scr0 c arg1 harg1 x0)
    _ _ _ _ _ _ _ _ _ _ _ _ _ _ _ _ _ _ _ _ _ _ _ co q

/-- The scratch after layer 1. -/
theorem scr2 : ScrIs (kernelRun0_A.sl.HS0_5 c arg1 harg1 arg2 harg2 arg3 harg3 arg4 harg4 arg5 harg5 arg7 arg8 x0 x1 x2 x3 x4) (rowA2 x0 x1 x2 x3 x4) := by
  unfold kernelRun0_A.sl.HS0_5
  refine scr_cons _ (rowA1 x0 x1 x2 x3 x4) _ (scr1 c arg1 harg1 arg2 harg2 arg3 harg3 arg4 harg4 arg5 harg5 arg7 arg8 x0 x1 x2 x3 x4) (offzero_layer _ _ _ _) (offzero_layer _ _ _ _) _ _ (fun co q => ?_)
  rw [pay27_apply]
  unfold kernelRun0_A.sl.r_3
  rw [pay26_apply]
  unfold kernelRun0_A.sl.r kernelRun0_A.sl.r_4 kernelRun0_A.sl.v99 kernelRun0_A.sl.v102 kernelRun0_A.sl.HS1_16
  exact layer_step x1 x2 x3 x4 (rowA1 x0 x1 x2 x3 x4) 1 arg2 harg2 arg3 harg3 arg4 harg4 arg5 harg5 arg7 arg8 _ _ (scr1 c arg1 harg1 arg2 harg2 arg3 harg3 arg4 harg4 arg5 harg5 arg7 arg8 x0 x1 x2 x3 x4)
    _ _ _ _ _ _ _ _ _ _ _ _ _ _ _ _ _ _ _ _ _ _ _ co q

/-- The scratch after layer 2. -/
theorem scr3 : ScrIs (kernelRun0_A.sl.HS0_6 c arg1 harg1 arg2 harg2 arg3 harg3 arg4 harg4 arg5 harg5 arg7 arg8 x0 x1 x2 x3 x4) (rowA3 x0 x1 x2 x3 x4) := by
  unfold kernelRun0_A.sl.HS0_6
  refine scr_cons _ (rowA2 x0 x1 x2 x3 x4) _ (scr2 c arg1 harg1 arg2 harg2 arg3 harg3 arg4 harg4 arg5 harg5 arg7 arg8 x0 x1 x2 x3 x4) (offzero_layer _ _ _ _) (offzero_layer _ _ _ _) _ _ (fun co q => ?_)
  rw [pay37_apply]
  unfold kernelRun0_A.sl.r_5
  rw [pay36_apply]
  unfold kernelRun0_A.sl.r kernelRun0_A.sl.v152 kernelRun0_A.sl.v155 kernelRun0_A.sl.HS1_24
  exact layer_step x1 x2 x3 x4 (rowA2 x0 x1 x2 x3 x4) 2 arg2 harg2 arg3 harg3 arg4 harg4 arg5 harg5 arg7 arg8 _ _ (scr2 c arg1 harg1 arg2 harg2 arg3 harg3 arg4 harg4 arg5 harg5 arg7 arg8 x0 x1 x2 x3 x4)
    _ _ _ _ _ _ _ _ _ _ _ _ _ _ _ _ _ _ _ _ _ _ _ co q

/-- The scratch after layer 3. -/
theorem scr4 : ScrIs (kernelRun0_A.sl.HS0_7 c arg1 harg1 arg2 harg2 arg3 harg3 arg4 harg4 arg5 harg5 arg7 arg8 x0 x1 x2 x3 x4) (rowA4 x0 x1 x2 x3 x4) := by
  unfold kernelRun0_A.sl.HS0_7
  refine scr_cons _ (rowA3 x0 x1 x2 x3 x4) _ (scr3 c arg1 harg1 arg2 harg2 arg3 harg3 arg4 harg4 arg5 harg5 arg7 arg8 x0 x1 x2 x3 x4) (offzero_layer _ _ _ _) (offzero_layer _ _ _ _) _ _ (fun co q => ?_)
  rw [pay46_apply]
  unfold kernelRun0_A.sl.r kernelRun0_A.sl.v205 kernelRun0_A.sl.v208 kernelRun0_A.sl.HS1_32
  exact layer_step x1 x2 x3 x4 (rowA3 x0 x1 x2 x3 x4) 3 arg2 harg2 arg3 harg3 arg4 harg4 arg5 harg5 arg7 arg8 _ _ (scr3 c arg1 harg1 arg2 harg2 arg3 harg3 arg4 harg4 arg5 harg5 arg7 arg8 x0 x1 x2 x3 x4)
    _ _ _ _ _ _ _ _ _ _ _ _ _ _ _ _ _ _ _ _ _ _ _ co q

/-- The last layer's activations at an entry. -/
theorem val5 (co : Fin 32) (q : Fin 32768) :
    kernelRun0_A.sl.r_7 c arg1 harg1 arg2 harg2 arg3 harg3 arg4 harg4 arg5 harg5 arg7 arg8 x0 x1 x2 x3 x4 (ix2 co q) = rowA5 x0 x1 x2 x3 x4 co (q.val : ℤ) := by
  unfold kernelRun0_A.sl.r_7
  rw [pay55_apply]
  unfold kernelRun0_A.sl.r kernelRun0_A.sl.v258 kernelRun0_A.sl.v261 kernelRun0_A.sl.HS1_40
  exact layer_step x1 x2 x3 x4 (rowA4 x0 x1 x2 x3 x4) 4 arg2 harg2 arg3 harg3 arg4 harg4 arg5 harg5 arg7 arg8 _ _ (scr4 c arg1 harg1 arg2 harg2 arg3 harg3 arg4 harg4 arg5 harg5 arg7 arg8 x0 x1 x2 x3 x4)
    _ _ _ _ _ _ _ _ _ _ _ _ _ _ _ _ _ _ _ _ _ _ _ co q

theorem rowA5_eq : rowA5 x0 x1 x2 x3 x4 = Cert.Spec.netW 32768 (kW x2 x3) (kB x4) (kMask x1) (kX x0) := rfl

end Run

/-! ### The output block -/

/-- The output block as a function of the last layer's activations: image `b`, channel `co`, lane `p` is the activation
    at channel `co`, lane `b * 1024 + p`. -/
def outG (V : S32x32768.Idx → EReal) : S1x32x32x1024.Idx → EReal := fun y =>
  V (ix2 (y 2) (⟨(y 1).val * 1024 + (y 3).val, by
    have h1 : (y 1).val < 32 := (y 1).isLt
    have h3 : (y 3).val < 1024 := (y 3).isLt
    omega⟩ : Fin 32768))

/-- The store of image `b`: the lanes `b * 1024 ..` of the activations, as a block of the output. -/
theorem piece_eq (V : S32x32768.Idx → EReal) (b o : ℕ) (ho : o = b * 1024) (hb : b < 32)
    (inb : ∀ ax, (![0, b, 0, 0] : Fin 4 → ℕ) ax + (![1, 1, 32, 1024] : Fin 4 → ℕ) ax ≤ S1x32x32x1024.size ax)
    (hsl : S32x32768.Slices ![0, o] S32x1024) (hc : S32x1024.ShapeCasts S1x1x32x1024) (x : S1x1x32x1024.Idx) :
    shapeCast (s := S32x1024) S1x1x32x1024 (extractStridedSlice (s := S32x32768) S32x1024 ![0, o] V hsl) hc x
      = outG V ((Rect.unit (s := S1x32x32x1024) ![0, b, 0, 0] ![1, 1, 32, 1024] inb).emb x) := by
  obtain ⟨u, u', i, j, rfl⟩ : ∃ (u u' : Fin 1) (i : Fin 32) (j : Fin 1024), x = ix4 u u' i j := ⟨x 0, x 1, x 2, x 3, eq_ix4 x⟩
  have hu : u.val = 0 := by omega
  have hu' : u'.val = 0 := by omega
  have hj := j.isLt
  have h1 : shapeCast (s := S32x1024) S1x1x32x1024 (extractStridedSlice (s := S32x32768) S32x1024 ![0, o] V hsl) hc (ix4 u u' i j)
      = extractStridedSlice (s := S32x32768) S32x1024 ![0, o] V hsl (ix2 i j) :=
    shapeCast_apply _ hc _ _ (by
      rw [Shape.rowMajor_val_two, Shape.rowMajor_val_four]
      show i.val * 1024 + j.val = ((u.val * 1 + u'.val) * 32 + i.val) * 1024 + j.val
      omega)
  rw [h1, slice2_axis1_apply o V hsl i j (⟨o + j.val, by omega⟩ : Fin 32768) rfl]
  unfold outG
  congr 1
  apply Shape.idx_ext₂
  · simp
  · simp
    omega

/-- The output block at image 'b' of the row, channel 'co', lane 'p': the five layers on the row, at lane 'b * 1024 + p'. -/
theorem conv_body_apply (c : Dev nD) (i : grid0.Coords) (arg1 : Memref sig .tc .vmem S1x32x32768 .bf16) (harg1 : arg1.IsWhole) (arg2 : Memref sig .tc .vmem S1x32768 .f32) (harg2 : arg2.IsWhole) (arg3 : Memref sig .tc .vmem S5x32x256 .bf16) (harg3 : arg3.IsWhole) (arg4 : Memref sig .tc .vmem S5x32x32 .bf16) (harg4 : arg4.IsWhole) (arg5 : Memref sig .tc .vmem S5x32x1 .f32) (harg5 : arg5.IsWhole) (arg6 : Memref sig .tc .vmem S1x32x32x1024 .bf16) (harg6 : arg6.IsWhole) (arg7 : Memref sig .tc .vmem S32x32832 .bf16) (harg7 : arg7.IsWhole) (arg8 : Memref sig .tc .vmem S256x32768 .bf16) (harg8 : arg8.IsWhole)
    (x0 : Vec Ideal S1x32x32768 .bf16) (x1 : Vec Ideal S1x32768 .f32) (x2 : Vec Ideal S5x32x256 .bf16) (x3 : Vec Ideal S5x32x32 .bf16) (x4 : Vec Ideal S5x32x1 .f32)
    (b : Fin 32) (co : Fin 32) (p : Fin 1024) :
    out0_A_5 (F := Ideal) c i arg1 harg1 arg2 harg2 arg3 harg3 arg4 harg4 arg5 harg5 arg6 harg6 arg7 harg7 arg8 harg8 x0 x1 x2 x3 x4 (ix4 0 b co p)
      = Cert.Spec.netW 32768 (kW x2 x3) (kB x4) (kMask x1) (kX x0) co ((b.val : ℤ) * 1024 + (p.val : ℤ)) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  have hp : ∀ pc ∈ (kernelRun0_A (F := Ideal) c i arg1 harg1 arg2 harg2 arg3 harg3 arg4 harg4 arg5 harg5 arg6 harg6 arg7 harg7 arg8 harg8 x0 x1 x2 x3 x4).1, ∀ x : pc.1.shape.Idx,
      pc.2 x = outG (kernelRun0_A.sl.r_7 c arg1 harg1 arg2 harg2 arg3 harg3 arg4 harg4 arg5 harg5 arg7 arg8 x0 x1 x2 x3 x4) (pc.1.emb x) := by
    unfold kernelRun0_A
    dsimp only
    simp only [List.forall_mem_cons, List.not_mem_nil, false_imp_iff, implies_true, and_true]
    unfold kernelRun0_A.sl.r_8 kernelRun0_A.sl.r_9 kernelRun0_A.sl.r_10 kernelRun0_A.sl.r_11 k0_pay57 k0_pay65 k0_pay79 k0_pay87 k0_pay1 k0_pay58 k0_pay66 k0_pay80
    and_intros
    all_goals (intro x; refine piece_eq _ _ _ ?_ ?_ _ _ _ x <;> norm_num)
  rw [View.canon_apply_of_pieces _ _ hp _ (cover0_A_5 c i arg1 harg1 arg2 harg2 arg3 harg3 arg4 harg4 arg5 harg5 arg6 harg6 arg7 harg7 arg8 harg8 x0 x1 x2 x3 x4 (ix4 0 b co p))]
  have hb := b.isLt
  have hpl := p.isLt
  have hv := val5 c arg1 harg1 arg2 harg2 arg3 harg3 arg4 harg4 arg5 harg5 arg7 arg8 x0 x1 x2 x3 x4 co (⟨b.val * 1024 + p.val, by omega⟩ : Fin 32768)
  rw [rowA5_eq] at hv
  refine Eq.trans ?_ (hv.trans ?_)
  · rfl
  · exact congrArg _ (by simp)

end Cert.KernelIdeal.BodyVal

end
-- ==== Proof.KHost.lean ====
/-
  What the kernel's program computes on the host, read at an entry.
  Before the convolution call: the images channel-padded to 32, ringed with one zero pixel, laid flat on 900 lanes and
  padded to 1024, 32 images side by side per row (row 's' holds images '32 s .. 32 s + 31', image 'b' on lanes
  'b * 1024 ..'); the mask repeated 32 times; the weights of the eight outer taps laid side by side along the contracted
  axis (tap order 0 1 2 3 5 6 7 8) and the centre tap's apart. Between the calls: the activations read as one row of
  32768 numbers per image (channel 'ch' on lanes 'ch * 1024 ..'), and the final weights transposed to match.

  Each boundary's contents are the launch memory carried through the host operations in order. An array a stretch of
  operations does not write is what it was before the stretch; an array it writes is the operation's function of its
  operands. So every array read here is first written as one term of layout operations (pad, reshape, transpose,
  repeat, gather, slice) over the launched arguments, stretch by stretch, and that term is then read at an entry one
  operation at a time: a reshape keeps the row-major position, a transpose permutes the coordinates, a pad reads its
  operand inside and the padding value (the integer 0 as a number, i.e. 0) outside.
-/
import proofs.«113494_g2000500751551631_pallasbulk_1084_2_alg».proof.Proof.Gen.KernelIdeal.Frame
import proofs.«113494_g2000500751551631_pallasbulk_1084_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.HostVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The argument arrays as launched, at their literal types. -/
abbrev aX (c : Dev nD) : Cert.Spec.SX.Idx → EReal := m ((c : Thread nD τ).loc main_arg0)
abbrev aWc (c : Dev nD) : Cert.Spec.SWc.Idx → EReal := m ((c : Thread nD τ).loc main_arg1)
abbrev aBc (c : Dev nD) : Cert.Spec.SBc.Idx → EReal := m ((c : Thread nD τ).loc main_arg2)
abbrev aWfc (c : Dev nD) : Cert.Spec.SWfc.Idx → EReal := m ((c : Thread nD τ).loc main_arg3)
abbrev aBfc (c : Dev nD) : Cert.Spec.SBfc.Idx → EReal := m ((c : Thread nD τ).loc main_arg4)
abbrev aMask (c : Dev nD) : Cert.Spec.SMask.Idx → EReal := m ((c : Thread nD τ).loc main_arg5)

/-! ## The boundaries, stretch by stretch -/

/-- What the last stretch before the convolution call leaves in an array it writes, over the contents before it. -/
local macro "open_v5" : tactic => `(tactic| (
  dsimp only [V5, W5]
  simp only [hostOps0_4]
  after_results_simp))

/-- What the stretch between the two calls leaves in an array it writes, over the contents at the first call's exit. -/
local macro "open_v7" : tactic => `(tactic| (
  dsimp only [V7, W7]
  simp only [hostOps1]
  after_results))

/-- No operation of a stretch writes the given argument. -/
local macro "arg_kept" : tactic => `(tactic| (
  refine List.forall_iff_forall_mem.mp ?_
  simp only [hostOps1, hostOps0_4, hostOps0_3, hostOps0_2, hostOps0_1, hostOps0, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- An argument no host operation before the last stretch ahead of the convolution call writes is there as launched. -/
theorem W4_of_arg (c : Dev nD) (b : Ref sig .tc)
    (h3 : ∀ op ∈ (hostOps0_3 : List (HloOp τ sig (Elt Ideal))), Proc.devRef .tc b ∉ op.writes)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W4 m ρ c (Proc.devRef .tc b) = m ((c : Thread nD τ).loc b) :=
  calc W4 m ρ c (Proc.devRef .tc b)
    _ = W3 m ρ c (Proc.devRef .tc b) := StableHlo.after_of_forall_not_mem (b := Proc.devRef .tc b) _ _ h3
    _ = W2 m ρ c (Proc.devRef .tc b) := StableHlo.after_of_forall_not_mem (b := Proc.devRef .tc b) _ _ h2
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c : Thread nD τ).loc b) := rfl

/-- An argument no host operation before the convolution call writes is there as launched. -/
theorem W5_of_arg (c : Dev nD) (b : Ref sig .tc)
    (h4 : ∀ op ∈ (hostOps0_4 : List (HloOp τ sig (Elt Ideal))), Proc.devRef .tc b ∉ op.writes)
    (h3 : ∀ op ∈ (hostOps0_3 : List (HloOp τ sig (Elt Ideal))), Proc.devRef .tc b ∉ op.writes)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W5 m ρ c (Proc.devRef .tc b) = m ((c : Thread nD τ).loc b) :=
  (StableHlo.after_of_forall_not_mem (b := Proc.devRef .tc b) _ _ h4).trans (W4_of_arg m ρ c b h3 h2 h1 h0)

theorem W4_main_arg1 (c : Dev nD) : (W4 m ρ c (Proc.devRef .tc main_arg1) : S5x9x32x32.Idx → EReal) = aWc m c :=
  W4_of_arg m ρ c main_arg1 (by arg_kept) (by arg_kept) (by arg_kept) (by arg_kept)

theorem W4_main_arg5 (c : Dev nD) : (W4 m ρ c (Proc.devRef .tc main_arg5) : S1x1024.Idx → EReal) = aMask m c :=
  W4_of_arg m ρ c main_arg5 (by arg_kept) (by arg_kept) (by arg_kept) (by arg_kept)

/-- The pictures after the first pad. -/
theorem W2_main_v0 (c : Dev nD) :
    (W2 m ρ c (Proc.devRef .tc main_v0) : S512x32x30x30.Idx → EReal)
      = pad S512x32x30x30 ![0, 0, 1, 1] ![0, 29, 1, 1] ![0, 0, 0, 0] (aX m c)
          (sitofp (F := Ideal) .f32 (constantI S_ 32 0#32)) pads_S512x3x28x28_S512x32x30x30_000_0290_110_110 h_S_ := by
  dsimp only [W2, W1, W0]
  simp only [hostOps0_1, hostOps0]
  after_results
  rfl

/-- Laid flat on 900 lanes; and the second zero. -/
theorem W3_main_v1 (c : Dev nD) :
    (W3 m ρ c (Proc.devRef .tc main_v1) : S512x32x900.Idx → EReal)
      = shapeCast S512x32x900 (W2 m ρ c (Proc.devRef .tc main_v0) : S512x32x30x30.Idx → EReal)
          shapeCasts_S512x32x30x30_S512x32x900 := by
  dsimp only [W3]
  simp only [hostOps0_2]
  after_results
  rfl

theorem W3_main_c_1 (c : Dev nD) :
    (W3 m ρ c (Proc.devRef .tc main_c_1) : S_.Idx → BitVec 32) = constantI S_ 32 0#32 := by
  dsimp only [W3]
  simp only [hostOps0_2]
  after_results

/-- After the second pad. -/
theorem W4_main_v2 (c : Dev nD) :
    (W4 m ρ c (Proc.devRef .tc main_v2) : S512x32x1024.Idx → EReal)
      = pad S512x32x1024 ![0, 0, 0] ![0, 0, 124] ![0, 0, 0]
          (W3 m ρ c (Proc.devRef .tc main_v1) : S512x32x900.Idx → EReal)
          (sitofp (F := Ideal) .f32 (W3 m ρ c (Proc.devRef .tc main_c_1) : S_.Idx → BitVec 32))
          pads_S512x32x900_S512x32x1024_000_000_01240 h_S_ := by
  dsimp only [W4]
  simp only [hostOps0_3]
  after_results
  rfl

/-- The packed images as one term of the padded ones. -/
theorem V5_main_v6 (c : Dev nD) :
    (V5 m ρ c main_v6 : S16x32x32768.Idx → EReal)
      = truncf (F := Ideal) .bf16
          (shapeCast S16x32x32768
            (transpose S16x32x32x1024 [0, 2, 1, 3]
              (shapeCast S16x32x32x1024 (W4 m ρ c (Proc.devRef .tc main_v2) : S512x32x1024.Idx → EReal)
                shapeCasts_S512x32x1024_S16x32x32x1024)
              transposes_S16x32x32x1024_S16x32x32x1024_0_2_1_3)
            shapeCasts_S16x32x32x1024_S16x32x32768)
          bitsLt_bf16_f32 := by
  dsimp only [V5, W5]
  simp only [hostOps0_4]
  after_results
  rfl

/-! ## The packed images -/

/-- The padding value: the integer 0 read as a number. -/
theorem zpad_apply (i : S_.Idx) : (sitofp (F := Ideal) .f32 (constantI S_ 32 0#32) : S_.Idx → EReal) i = 0 := by
  show (((0#32 : BitVec 32).toInt : ℝ) : EReal) = 0
  rw [show (0#32 : BitVec 32).toInt = 0 from by decide, Int.cast_zero, EReal.coe_zero]

/-- The first pad (29 more channels, a one-pixel ring) read at an entry: the picture inside, the padding value outside. -/
theorem pad1_apply (x : S512x3x28x28.Idx → EReal) (v : S_.Idx → EReal) (n : Fin 512) (ci : Fin 32) (r cc : Fin 30) :
    pad S512x32x30x30 ![0, 0, 1, 1] ![0, 29, 1, 1] ![0, 0, 0, 0] x v pads_S512x3x28x28_S512x32x30x30_000_0290_110_110 h_S_
        (ix4 n ci r cc)
      = if h : ci.val < 3 ∧ 1 ≤ r.val ∧ r.val ≤ 28 ∧ 1 ≤ cc.val ∧ cc.val ≤ 28 then
          x (ix4 n ⟨ci.val, h.1⟩ ⟨r.val - 1, by omega⟩ ⟨cc.val - 1, by omega⟩)
        else v (Shape.Idx.first h_S_) := by
  by_cases h : ci.val < 3 ∧ 1 ≤ r.val ∧ r.val ≤ 28 ∧ 1 ≤ cc.val ∧ cc.val ≤ 28
  · rw [dif_pos h]
    refine pad_apply_of_inside _ _ _ x v pads_S512x3x28x28_S512x32x30x30_000_0290_110_110 h_S_ (ix4 n ci r cc) _ (fun a => ?_)
    match a with
    | ⟨0, _⟩ => show n.val = 0 + n.val * (0 + 1); omega
    | ⟨1, _⟩ => show ci.val = 0 + ci.val * (0 + 1); omega
    | ⟨2, _⟩ => show r.val = 1 + (r.val - 1) * (0 + 1); omega
    | ⟨3, _⟩ => show cc.val = 1 + (cc.val - 1) * (0 + 1); omega
  · rw [dif_neg h]
    by_cases h1 : ci.val < 3
    · by_cases h2 : 1 ≤ r.val ∧ r.val ≤ 28
      · refine pad_apply_of_not_inside _ _ _ x v pads_S512x3x28x28_S512x32x30x30_000_0290_110_110 h_S_ (ix4 n ci r cc) (3 : Fin 4) ?_
        show ¬(1 ≤ cc.val ∧ (cc.val - 1) % (0 + 1) = 0 ∧ (cc.val - 1) / (0 + 1) < 28)
        omega
      · refine pad_apply_of_not_inside _ _ _ x v pads_S512x3x28x28_S512x32x30x30_000_0290_110_110 h_S_ (ix4 n ci r cc) (2 : Fin 4) ?_
        show ¬(1 ≤ r.val ∧ (r.val - 1) % (0 + 1) = 0 ∧ (r.val - 1) / (0 + 1) < 28)
        omega
    · refine pad_apply_of_not_inside _ _ _ x v pads_S512x3x28x28_S512x32x30x30_000_0290_110_110 h_S_ (ix4 n ci r cc) (1 : Fin 4) ?_
      show ¬(0 ≤ ci.val ∧ (ci.val - 0) % (0 + 1) = 0 ∧ (ci.val - 0) / (0 + 1) < 3)
      omega

/-- The second pad (124 more lanes) read at an entry. -/
theorem pad2_apply (x : S512x32x900.Idx → EReal) (v : S_.Idx → EReal) (n : Fin 512) (ci : Fin 32) (p : Fin 1024) :
    pad S512x32x1024 ![0, 0, 0] ![0, 0, 124] ![0, 0, 0] x v pads_S512x32x900_S512x32x1024_000_000_01240 h_S_ (ix3 n ci p)
      = if h : p.val < 900 then x (ix3 n ci ⟨p.val, h⟩) else v (Shape.Idx.first h_S_) := by
  by_cases h : p.val < 900
  · rw [dif_pos h]
    refine pad_apply_of_inside _ _ _ x v pads_S512x32x900_S512x32x1024_000_000_01240 h_S_ (ix3 n ci p) _ (fun a => ?_)
    match a with
    | ⟨0, _⟩ => show n.val = 0 + n.val * (0 + 1); omega
    | ⟨1, _⟩ => show ci.val = 0 + ci.val * (0 + 1); omega
    | ⟨2, _⟩ => show p.val = 0 + p.val * (0 + 1); omega
  · rw [dif_neg h]
    refine pad_apply_of_not_inside _ _ _ x v pads_S512x32x900_S512x32x1024_000_000_01240 h_S_ (ix3 n ci p) (2 : Fin 3) ?_
    show ¬(0 ≤ p.val ∧ (p.val - 0) % (0 + 1) = 0 ∧ (p.val - 0) / (0 + 1) < 900)
    omega

/-- An image of the net read off the launched pictures: inside the ring the picture, elsewhere zero. -/
theorem img_of_inside (x : Cert.Spec.SX.Idx → EReal) (n : Fin 512) (ci : Fin 32) (p : ℕ)
    (h : ci.val < 3 ∧ p < 900 ∧ 1 ≤ p / 30 ∧ p / 30 ≤ 28 ∧ 1 ≤ p % 30 ∧ p % 30 ≤ 28) :
    Cert.Spec.img x n ci ((p : ℕ) : ℤ)
      = x (ix4 n ⟨ci.val, h.1⟩ ⟨p / 30 - 1, by omega⟩ ⟨p % 30 - 1, by omega⟩) := by
  unfold Cert.Spec.img
  rw [dif_pos (by omega)]
  refine congrArg x (funext fun a => ?_)
  match a with
  | ⟨0, _⟩ => rfl
  | ⟨1, _⟩ => rfl
  | ⟨2, _⟩ => exact Fin.ext (by show (((p : ℕ) : ℤ) / 30 - 1).toNat = p / 30 - 1; omega)
  | ⟨3, _⟩ => exact Fin.ext (by show (((p : ℕ) : ℤ) % 30 - 1).toNat = p % 30 - 1; omega)

theorem img_of_outside (x : Cert.Spec.SX.Idx → EReal) (n : Fin 512) (ci : Fin 32) (p : ℕ)
    (h : ¬(ci.val < 3 ∧ p < 900 ∧ 1 ≤ p / 30 ∧ p / 30 ≤ 28 ∧ 1 ≤ p % 30 ∧ p % 30 ≤ 28)) :
    Cert.Spec.img x n ci ((p : ℕ) : ℤ) = 0 := by
  unfold Cert.Spec.img
  rw [dif_neg (by omega)]

/-- The two pads with the reshape between them, read at image 'n', channel 'ci', lane 'p' of 1024: the net's image. -/
theorem padded_apply (x : S512x3x28x28.Idx → EReal) (v : S_.Idx → EReal) (hv : ∀ i, v i = 0)
    (n : Fin 512) (ci : Fin 32) (p : Fin 1024) :
    pad S512x32x1024 ![0, 0, 0] ![0, 0, 124] ![0, 0, 0]
        (shapeCast S512x32x900
          (pad S512x32x30x30 ![0, 0, 1, 1] ![0, 29, 1, 1] ![0, 0, 0, 0] x v pads_S512x3x28x28_S512x32x30x30_000_0290_110_110 h_S_)
          shapeCasts_S512x32x30x30_S512x32x900)
        v pads_S512x32x900_S512x32x1024_000_000_01240 h_S_ (ix3 n ci p)
      = Cert.Spec.img x n ci ((p.val : ℕ) : ℤ) := by
  rw [pad2_apply]
  by_cases hp : p.val < 900
  · rw [dif_pos hp]
    -- lane p of the flat 900 is row p / 30, column p % 30 of the ringed picture
    rw [shapeCast_apply _ shapeCasts_S512x32x30x30_S512x32x900 (ix3 n ci (⟨p.val, hp⟩ : Fin 900))
      (ix4 n ci (⟨p.val / 30, by omega⟩ : Fin 30) (⟨p.val % 30, Nat.mod_lt _ (by decide)⟩ : Fin 30)) (by
        rw [Shape.rowMajor_val_three, Shape.rowMajor_val_four]
        show ((n.val * 32 + ci.val) * 30 + p.val / 30) * 30 + p.val % 30 = (n.val * 32 + ci.val) * 900 + p.val
        omega)]
    rw [pad1_apply]
    by_cases h : ci.val < 3 ∧ p.val < 900 ∧ 1 ≤ p.val / 30 ∧ p.val / 30 ≤ 28 ∧ 1 ≤ p.val % 30 ∧ p.val % 30 ≤ 28
    · rw [dif_pos ⟨h.1, h.2.2⟩, img_of_inside x n ci p.val h]
    · rw [dif_neg (fun h' => h ⟨h'.1, hp, h'.2⟩), img_of_outside x n ci p.val h, hv]
  · rw [dif_neg hp, img_of_outside x n ci p.val (fun h => hp h.2.1), hv]

/-- The padded images laid 32 side by side: row 's', channel 'ci', lane 'q' is image '32 s + q / 1024' at lane 'q % 1024'. -/
theorem packed_apply (y : S512x32x1024.Idx → EReal) (s : Fin 16) (ci : Fin 32) (q : Fin 32768) :
    shapeCast S16x32x32768
        (transpose S16x32x32x1024 [0, 2, 1, 3]
          (shapeCast S16x32x32x1024 y shapeCasts_S512x32x1024_S16x32x32x1024)
          transposes_S16x32x32x1024_S16x32x32x1024_0_2_1_3)
        shapeCasts_S16x32x32x1024_S16x32x32768 (ix3 s ci q)
      = y (ix3 ⟨s.val * 32 + q.val / 1024, by have := s.isLt; have := q.isLt; omega⟩ ci ⟨q.val % 1024, Nat.mod_lt _ (by decide)⟩) := by
  have hs := s.isLt
  have hq := q.isLt
  refine (shapeCast_apply _ shapeCasts_S16x32x32x1024_S16x32x32768 (ix3 s ci q)
    (ix4 s ci (⟨q.val / 1024, by omega⟩ : Fin 32) (⟨q.val % 1024, Nat.mod_lt _ (by decide)⟩ : Fin 1024)) (by
      rw [Shape.rowMajor_val_three, Shape.rowMajor_val_four]
      show ((s.val * 32 + ci.val) * 32 + q.val / 1024) * 1024 + q.val % 1024 = (s.val * 32 + ci.val) * 32768 + q.val
      omega)).trans ?_
  refine (transpose_apply [0, 2, 1, 3] _ transposes_S16x32x32x1024_S16x32x32x1024_0_2_1_3 _
    (ix4 s (⟨q.val / 1024, by omega⟩ : Fin 32) ci (⟨q.val % 1024, Nat.mod_lt _ (by decide)⟩ : Fin 1024)) (fun b => by
      match b with
      | ⟨0, _⟩ => rfl
      | ⟨1, _⟩ => rfl
      | ⟨2, _⟩ => rfl
      | ⟨3, _⟩ => rfl)).trans ?_
  exact shapeCast_apply _ shapeCasts_S512x32x1024_S16x32x32x1024 _ _ (by
    rw [Shape.rowMajor_val_three, Shape.rowMajor_val_four]
    show ((s.val * 32 + q.val / 1024) * 32 + ci.val) * 1024 + q.val % 1024
      = ((s.val * 32 + q.val / 1024) * 32 + ci.val) * 1024 + q.val % 1024
    rfl)

/-- Row 's' of the packed images, channel 'ci', lane 'q': image '32 s + q / 1024' at lane 'q % 1024'. -/
theorem xp_apply (c : Dev nD) (s : Fin 16) (ci : Fin 32) (q : Fin 32768) :
    (V5 m ρ c main_v6 : S16x32x32768.Idx → EReal) (ix3 s ci q)
      = Cert.Spec.img (aX m c) ⟨s.val * 32 + q.val / 1024, by have := s.isLt; have := q.isLt; omega⟩ ci (((q.val % 1024 : ℕ) : ℤ)) := by
  rw [V5_main_v6, truncf_apply, packed_apply, W4_main_v2, W3_main_c_1, W3_main_v1, W2_main_v0]
  exact padded_apply (aX m c) _ zpad_apply _ ci ⟨q.val % 1024, Nat.mod_lt _ (by decide)⟩

/-! ## The repeated mask -/

/-- The repeated mask as one term of the launched mask. -/
theorem v9_eq (c : Dev nD) :
    (V5 m ρ c main_v9 : S1x32768.Idx → EReal)
      = shapeCast S1x32768
          (broadcastInDim S1x1x32x1024 ![0, 1, 2, 3] bcast_S1x1x1x1024_S1x1x32x1024_0_1_2_3
            (shapeCast S1x1x1x1024 (aMask m c) shapeCasts_S1x1024_S1x1x1x1024))
          shapeCasts_S1x1x32x1024_S1x32768 := by
  have e : (V5 m ρ c main_v9 : S1x32768.Idx → EReal)
      = shapeCast S1x32768
          (broadcastInDim S1x1x32x1024 ![0, 1, 2, 3] bcast_S1x1x1x1024_S1x1x32x1024_0_1_2_3
            (shapeCast S1x1x1x1024 (W4 m ρ c (Proc.devRef .tc main_arg5) : S1x1024.Idx → EReal) shapeCasts_S1x1024_S1x1x1x1024))
          shapeCasts_S1x1x32x1024_S1x32768 := by
    open_v5
    rfl
  rw [e, W4_main_arg5]

/-- The repeated mask: lane 'q' holds the mask's lane 'q % 1024'. -/
theorem maskrow_apply (c : Dev nD) (q : Fin 32768) :
    (V5 m ρ c main_v9 : S1x32768.Idx → EReal) (ix2 0 q) = aMask m c (ix2 0 ⟨q.val % 1024, Nat.mod_lt _ (by decide)⟩) := by
  rw [v9_eq]
  have hq := q.isLt
  -- position q of the long row is image q / 1024, lane q % 1024
  refine (shapeCast_apply _ shapeCasts_S1x1x32x1024_S1x32768 (ix2 (0 : Fin 1) q)
    (ix4 (0 : Fin 1) (0 : Fin 1) (⟨q.val / 1024, by omega⟩ : Fin 32) (⟨q.val % 1024, Nat.mod_lt _ (by decide)⟩ : Fin 1024)) (by
      rw [Shape.rowMajor_val_two, Shape.rowMajor_val_four]
      show ((0 * 1 + 0) * 32 + q.val / 1024) * 1024 + q.val % 1024 = 0 * 32768 + q.val
      omega)).trans ?_
  -- the repeat along the images' axis reads the one row
  refine (broadcastInDim_apply ![0, 1, 2, 3] bcast_S1x1x1x1024_S1x1x32x1024_0_1_2_3 _ _
    (ix4 (0 : Fin 1) (0 : Fin 1) (0 : Fin 1) (⟨q.val % 1024, Nat.mod_lt _ (by decide)⟩ : Fin 1024)) (fun a => by
      match a with
      | ⟨0, _⟩ => rfl
      | ⟨1, _⟩ => rfl
      | ⟨2, _⟩ => rfl
      | ⟨3, _⟩ => rfl)).trans ?_
  exact shapeCast_apply _ shapeCasts_S1x1024_S1x1x1x1024 _ (ix2 (0 : Fin 1) (⟨q.val % 1024, Nat.mod_lt _ (by decide)⟩ : Fin 1024)) (by
    rw [Shape.rowMajor_val_two, Shape.rowMajor_val_four]
    show 0 * 1024 + q.val % 1024 = ((0 * 1 + 0) * 1 + 0) * 1024 + q.val % 1024
    omega)

/-! ## The convolution weights -/

/-- The weights with the tap axis moved behind the output channel: entry '(l, co, t, ci)' is the launched '(l, t, co, ci)'. -/
theorem wT_apply (w : S5x9x32x32.Idx → EReal) (l : Fin 5) (co : Fin 32) (t : Fin 9) (ci : Fin 32) :
    transpose S5x32x9x32 [0, 2, 1, 3] w transposes_S5x9x32x32_S5x32x9x32_0_2_1_3 (ix4 l co t ci) = w (ix4 l t co ci) :=
  transpose_apply [0, 2, 1, 3] w transposes_S5x9x32x32_S5x32x9x32_0_2_1_3 (ix4 l co t ci) (ix4 l t co ci) (fun b => by
    match b with
    | ⟨0, _⟩ => rfl
    | ⟨1, _⟩ => rfl
    | ⟨2, _⟩ => rfl
    | ⟨3, _⟩ => rfl)

/-- The gather along the tap axis read at an entry: the tap is the index vector's entry, read signed and clamped to 0 .. 8. -/
theorem gatherTap_apply {α : Type} (x : S5x32x9x32.Idx → α) (idx : IVec S8x1 32) (l : Fin 5) (co : Fin 32) (t : Fin 8) (ci : Fin 32) :
    Host.gather gather_S5x32x9x32_S8x1_S5x32x8x32_013_2_n_n_2_1_532132 x idx (ix4 l co t ci)
      = x (ix4 l co ⟨min (idx (ix2 t (0 : Fin 1))).toInt.toNat 8, by omega⟩ ci) := by
  unfold Host.gather
  refine congrArg x (funext fun a => Fin.ext ?_)
  show gather_S5x32x9x32_S8x1_S5x32x8x32_013_2_n_n_2_1_532132.start (ix4 l co t ci) idx a
      + gather_S5x32x9x32_S8x1_S5x32x8x32_013_2_n_n_2_1_532132.batchCoord (ix4 l co t ci) a
      + gather_S5x32x9x32_S8x1_S5x32x8x32_013_2_n_n_2_1_532132.offCoord (ix4 l co t ci) a = _
  rw [GatherDims.batchCoord_eq_zero _ _ _ List.not_mem_nil, Nat.add_zero]
  match a with
  | ⟨0, _⟩ =>
    have h1 : gather_S5x32x9x32_S8x1_S5x32x8x32_013_2_n_n_2_1_532132.start (ix4 l co t ci) idx (0 : Fin 4) = 0 := by
      unfold GatherDims.start; exact dif_neg (by decide)
    have h2 : gather_S5x32x9x32_S8x1_S5x32x8x32_013_2_n_n_2_1_532132.offCoord (ix4 l co t ci) (0 : Fin 4) = l.val := by
      unfold GatherDims.offCoord; rw [dif_pos (by decide)]; rfl
    show gather_S5x32x9x32_S8x1_S5x32x8x32_013_2_n_n_2_1_532132.start (ix4 l co t ci) idx (0 : Fin 4)
      + gather_S5x32x9x32_S8x1_S5x32x8x32_013_2_n_n_2_1_532132.offCoord (ix4 l co t ci) (0 : Fin 4) = l.val
    rw [h1, h2, Nat.zero_add]
  | ⟨1, _⟩ =>
    have h1 : gather_S5x32x9x32_S8x1_S5x32x8x32_013_2_n_n_2_1_532132.start (ix4 l co t ci) idx (1 : Fin 4) = 0 := by
      unfold GatherDims.start; exact dif_neg (by decide)
    have h2 : gather_S5x32x9x32_S8x1_S5x32x8x32_013_2_n_n_2_1_532132.offCoord (ix4 l co t ci) (1 : Fin 4) = co.val := by
      unfold GatherDims.offCoord; rw [dif_pos (by decide)]; rfl
    show gather_S5x32x9x32_S8x1_S5x32x8x32_013_2_n_n_2_1_532132.start (ix4 l co t ci) idx (1 : Fin 4)
      + gather_S5x32x9x32_S8x1_S5x32x8x32_013_2_n_n_2_1_532132.offCoord (ix4 l co t ci) (1 : Fin 4) = co.val
    rw [h1, h2, Nat.zero_add]
  | ⟨2, _⟩ =>
    have h2 : gather_S5x32x9x32_S8x1_S5x32x8x32_013_2_n_n_2_1_532132.offCoord (ix4 l co t ci) (2 : Fin 4) = 0 :=
      GatherDims.offCoord_eq_zero _ _ _ (by decide)
    have hm : (2 : Fin 4) ∈ gather_S5x32x9x32_S8x1_S5x32x8x32_013_2_n_n_2_1_532132.startIndexMap := by decide
    have hsi : gather_S5x32x9x32_S8x1_S5x32x8x32_013_2_n_n_2_1_532132.siIdx (ix4 l co t ci)
        ⟨List.idxOf (2 : Fin 4) gather_S5x32x9x32_S8x1_S5x32x8x32_013_2_n_n_2_1_532132.startIndexMap,
          List.idxOf_lt_length_iff.2 hm⟩ = ix2 t (0 : Fin 1) := by
      funext b; refine Fin.ext ?_
      match b with
      | ⟨0, _⟩ => rfl
      | ⟨1, _⟩ => rfl
    have h1 : gather_S5x32x9x32_S8x1_S5x32x8x32_013_2_n_n_2_1_532132.start (ix4 l co t ci) idx (2 : Fin 4)
        = min (idx (ix2 t (0 : Fin 1))).toInt.toNat 8 := by
      unfold GatherDims.start; rw [dif_pos hm, hsi]; rfl
    show gather_S5x32x9x32_S8x1_S5x32x8x32_013_2_n_n_2_1_532132.start (ix4 l co t ci) idx (2 : Fin 4)
      + gather_S5x32x9x32_S8x1_S5x32x8x32_013_2_n_n_2_1_532132.offCoord (ix4 l co t ci) (2 : Fin 4)
      = min (idx (ix2 t (0 : Fin 1))).toInt.toNat 8
    rw [h1, h2, Nat.add_zero]
  | ⟨3, _⟩ =>
    have h1 : gather_S5x32x9x32_S8x1_S5x32x8x32_013_2_n_n_2_1_532132.start (ix4 l co t ci) idx (3 : Fin 4) = 0 := by
      unfold GatherDims.start; exact dif_neg (by decide)
    have h2 : gather_S5x32x9x32_S8x1_S5x32x8x32_013_2_n_n_2_1_532132.offCoord (ix4 l co t ci) (3 : Fin 4) = ci.val := by
      unfold GatherDims.offCoord; rw [dif_pos (by decide)]; rfl
    show gather_S5x32x9x32_S8x1_S5x32x8x32_013_2_n_n_2_1_532132.start (ix4 l co t ci) idx (3 : Fin 4)
      + gather_S5x32x9x32_S8x1_S5x32x8x32_013_2_n_n_2_1_532132.offCoord (ix4 l co t ci) (3 : Fin 4) = ci.val
    rw [h1, h2, Nat.zero_add]

/-- The index vector of the gather: the outer taps' numbers 0 1 2 3 5 6 7 8 (the compare, add and select leave a
    non-negative entry as it is). -/
theorem tapIdx_apply (t : Fin 8) :
    ((broadcastInDim S8x1 ![0] bcast_S8_S8x1_0
        (select
          (cmpi CmpIPredicate.slt (fun i => lit0 (S8.rowMajor i)) (broadcastInDim S8 ![] bcast_S_S8 (constantI S_ 32 0#32)))
          (addi (fun i => lit0 (S8.rowMajor i)) (broadcastInDim S8 ![] bcast_S_S8 (constantI S_ 32 9#32)))
          (fun i => lit0 (S8.rowMajor i))) : IVec S8x1 32) (ix2 t (0 : Fin 1))).toInt.toNat
      = if t.val < 4 then t.val else t.val + 1 := by
  fin_cases t <;> rfl

/-- The eight outer taps' weights as one term of the launched weights. -/
theorem v19_eq (c : Dev nD) :
    (V5 m ρ c main_v19 : S5x32x256.Idx → EReal)
      = truncf (F := Ideal) .bf16
          (shapeCast S5x32x256
            (Host.gather gather_S5x32x9x32_S8x1_S5x32x8x32_013_2_n_n_2_1_532132
              (transpose S5x32x9x32 [0, 2, 1, 3] (aWc m c) transposes_S5x9x32x32_S5x32x9x32_0_2_1_3)
              (broadcastInDim S8x1 ![0] bcast_S8_S8x1_0
                (select
                  (cmpi CmpIPredicate.slt (fun i => lit0 (S8.rowMajor i)) (broadcastInDim S8 ![] bcast_S_S8 (constantI S_ 32 0#32)))
                  (addi (fun i => lit0 (S8.rowMajor i)) (broadcastInDim S8 ![] bcast_S_S8 (constantI S_ 32 9#32)))
                  (fun i => lit0 (S8.rowMajor i)))))
            shapeCasts_S5x32x8x32_S5x32x256)
          bitsLt_bf16_f32 := by
  have e : (V5 m ρ c main_v19 : S5x32x256.Idx → EReal)
      = truncf (F := Ideal) .bf16
          (shapeCast S5x32x256
            (Host.gather gather_S5x32x9x32_S8x1_S5x32x8x32_013_2_n_n_2_1_532132
              (transpose S5x32x9x32 [0, 2, 1, 3] (W4 m ρ c (Proc.devRef .tc main_arg1) : S5x9x32x32.Idx → EReal)
                transposes_S5x9x32x32_S5x32x9x32_0_2_1_3)
              (broadcastInDim S8x1 ![0] bcast_S8_S8x1_0
                (select
                  (cmpi CmpIPredicate.slt (fun i => lit0 (S8.rowMajor i)) (broadcastInDim S8 ![] bcast_S_S8 (constantI S_ 32 0#32)))
                  (addi (fun i => lit0 (S8.rowMajor i)) (broadcastInDim S8 ![] bcast_S_S8 (constantI S_ 32 9#32)))
                  (fun i => lit0 (S8.rowMajor i)))))
            shapeCasts_S5x32x8x32_S5x32x256)
          bitsLt_bf16_f32 := by
    open_v5
    rfl
  rw [e, W4_main_arg1]

/-- The eight outer taps side by side: depth 'k' is input channel 'k % 32' of tap 'k / 32' counted without the centre. -/
theorem w8_apply (c : Dev nD) (l : Fin 5) (co : Fin 32) (k : Fin 256) :
    (V5 m ρ c main_v19 : S5x32x256.Idx → EReal) (ix3 l co k)
      = aWc m c (ix4 l ⟨if k.val / 32 < 4 then k.val / 32 else k.val / 32 + 1, by have := k.isLt; split <;> omega⟩ co ⟨k.val % 32, Nat.mod_lt _ (by decide)⟩) := by
  rw [v19_eq, truncf_apply]
  have hk := k.isLt
  -- depth k of the 256 is tap slot k / 32, input channel k % 32
  refine (shapeCast_apply _ shapeCasts_S5x32x8x32_S5x32x256 (ix3 l co k)
    (ix4 l co (⟨k.val / 32, by omega⟩ : Fin 8) (⟨k.val % 32, Nat.mod_lt _ (by decide)⟩ : Fin 32)) (by
      rw [Shape.rowMajor_val_three, Shape.rowMajor_val_four]
      show ((l.val * 32 + co.val) * 8 + k.val / 32) * 32 + k.val % 32 = (l.val * 32 + co.val) * 256 + k.val
      omega)).trans ?_
  rw [gatherTap_apply, wT_apply]
  refine congrArg (aWc m c) (funext fun a => ?_)
  match a with
  | ⟨0, _⟩ => rfl
  | ⟨1, _⟩ =>
    refine Fin.ext ?_
    have ht := tapIdx_apply (⟨k.val / 32, by omega⟩ : Fin 8)
    show min _ 8 = _
    rw [ht]
    show min (if k.val / 32 < 4 then k.val / 32 else k.val / 32 + 1) 8
      = if k.val / 32 < 4 then k.val / 32 else k.val / 32 + 1
    split <;> omega
  | ⟨2, _⟩ => rfl
  | ⟨3, _⟩ => rfl

/-- The centre tap's weights as one term of the launched weights. -/
theorem v22_eq (c : Dev nD) :
    (V5 m ρ c main_v22 : S5x32x32.Idx → EReal)
      = truncf (F := Ideal) .bf16
          (shapeCast S5x32x32
            (extractStridedSlice S5x32x1x32 ![0, 0, 4, 0]
              (transpose S5x32x9x32 [0, 2, 1, 3] (aWc m c) transposes_S5x9x32x32_S5x32x9x32_0_2_1_3)
              slices_S5x32x9x32_S5x32x1x32_0_0_4_0)
            shapeCasts_S5x32x1x32_S5x32x32)
          bitsLt_bf16_f32 := by
  have e : (V5 m ρ c main_v22 : S5x32x32.Idx → EReal)
      = truncf (F := Ideal) .bf16
          (shapeCast S5x32x32
            (extractStridedSlice S5x32x1x32 ![0, 0, 4, 0]
              (transpose S5x32x9x32 [0, 2, 1, 3] (W4 m ρ c (Proc.devRef .tc main_arg1) : S5x9x32x32.Idx → EReal)
                transposes_S5x9x32x32_S5x32x9x32_0_2_1_3)
              slices_S5x32x9x32_S5x32x1x32_0_0_4_0)
            shapeCasts_S5x32x1x32_S5x32x32)
          bitsLt_bf16_f32 := by
    open_v5
    rfl
  rw [e, W4_main_arg1]

/-- The centre tap's weights. -/
theorem wcen_apply (c : Dev nD) (l : Fin 5) (co ci : Fin 32) :
    (V5 m ρ c main_v22 : S5x32x32.Idx → EReal) (ix3 l co ci) = aWc m c (ix4 l 4 co ci) := by
  rw [v22_eq, truncf_apply]
  refine (shapeCast_apply _ shapeCasts_S5x32x1x32_S5x32x32 (ix3 l co ci) (ix4 l co (0 : Fin 1) ci) (by
      rw [Shape.rowMajor_val_three, Shape.rowMajor_val_four]
      show ((l.val * 32 + co.val) * 1 + 0) * 32 + ci.val = (l.val * 32 + co.val) * 32 + ci.val
      omega)).trans ?_
  refine (extractStridedSlice_apply ![0, 0, 4, 0] _ slices_S5x32x9x32_S5x32x1x32_0_0_4_0 (ix4 l co (0 : Fin 1) ci)
    (ix4 l co (4 : Fin 9) ci) (fun a => by
      match a with
      | ⟨0, _⟩ => show l.val = 0 + l.val; omega
      | ⟨1, _⟩ => show co.val = 0 + co.val; omega
      | ⟨2, _⟩ => rfl
      | ⟨3, _⟩ => show ci.val = 0 + ci.val; omega)).trans ?_
  exact wT_apply (aWc m c) l co 4 ci

/-! ## The arguments that pass through -/

/-- The biases reach the convolution call as launched. -/
theorem bc_eq (c : Dev nD) : (V5 m ρ c main_arg2 : S5x32x1.Idx → EReal) = aBc m c :=
  W5_of_arg m ρ c main_arg2 (by arg_kept) (by arg_kept) (by arg_kept) (by arg_kept) (by arg_kept)

/-- The final weights at the convolution call's exit are as launched: neither the host operations before it nor the call
    writes them. -/
theorem W6_main_arg3 (c : Dev nD) : W6 m ρ c (Proc.devRef .tc main_arg3) = m ((c : Thread nD τ).loc main_arg3) :=
  (W6_of_ne m ρ c main_arg3 (by decide)).trans
    (W5_of_arg m ρ c main_arg3 (by arg_kept) (by arg_kept) (by arg_kept) (by arg_kept) (by arg_kept))

/-! ## Between the two calls -/

/-- The rows handed to the second call are the convolution call's result reshaped. -/
theorem v24_eq (c : Dev nD) :
    (V7 m ρ c main_v24 : S512x32768.Idx → EReal)
      = shapeCast S512x32768 (V6 m ρ c main_v23 : S16x32x32x1024.Idx → EReal) shapeCasts_S16x32x32x1024_S512x32768 := by
  open_v7
  rfl

/-- Between the calls: image 'n' 's row of 32768 activations is block 'n / 32', image 'n % 32' of the convolution's result,
    channel 'j / 1024', lane 'j % 1024'. -/
theorem rows_apply (c : Dev nD) (n : Fin 512) (j : Fin 32768) :
    (V7 m ρ c main_v24 : S512x32768.Idx → EReal) (ix2 n j)
      = (V6 m ρ c main_v23 : S16x32x32x1024.Idx → EReal)
          (ix4 ⟨n.val / 32, by have := n.isLt; omega⟩ ⟨n.val % 32, Nat.mod_lt _ (by decide)⟩ ⟨j.val / 1024, by have := j.isLt; omega⟩ ⟨j.val % 1024, Nat.mod_lt _ (by decide)⟩) := by
  rw [v24_eq]
  have hn := n.isLt
  have hj := j.isLt
  exact shapeCast_apply _ shapeCasts_S16x32x32x1024_S512x32768 (ix2 n j) _ (by
    rw [Shape.rowMajor_val_two, Shape.rowMajor_val_four]
    show ((n.val / 32 * 32 + n.val % 32) * 32 + j.val / 1024) * 1024 + j.val % 1024 = n.val * 32768 + j.val
    omega)

/-- The final weights handed to the second call, as one term of the launched ones. -/
theorem v27_eq (c : Dev nD) :
    (V7 m ρ c main_v27 : S32768x128.Idx → EReal)
      = truncf (F := Ideal) .bf16
          (shapeCast S32768x128
            (transpose S32x1024x128 [0, 2, 1] (aWfc m c) transposes_S32x128x1024_S32x1024x128_0_2_1)
            shapeCasts_S32x1024x128_S32768x128)
          bitsLt_bf16_f32 := by
  have e : (V7 m ρ c main_v27 : S32768x128.Idx → EReal)
      = truncf (F := Ideal) .bf16
          (shapeCast S32768x128
            (transpose S32x1024x128 [0, 2, 1] (W6 m ρ c (Proc.devRef .tc main_arg3) : S32x128x1024.Idx → EReal)
              transposes_S32x128x1024_S32x1024x128_0_2_1)
            shapeCasts_S32x1024x128_S32768x128)
          bitsLt_bf16_f32 := by
    open_v7
    rfl
  rw [e, W6_main_arg3]

/-- The final weights transposed: row 'j' is channel 'j / 1024', lane 'j % 1024'. -/
theorem wfct_apply (c : Dev nD) (j : Fin 32768) (k : Fin 128) :
    (V7 m ρ c main_v27 : S32768x128.Idx → EReal) (ix2 j k)
      = aWfc m c (ix3 ⟨j.val / 1024, by have := j.isLt; omega⟩ k ⟨j.val % 1024, Nat.mod_lt _ (by decide)⟩) := by
  rw [v27_eq, truncf_apply]
  have hj := j.isLt
  refine (shapeCast_apply _ shapeCasts_S32x1024x128_S32768x128 (ix2 j k)
    (ix3 (⟨j.val / 1024, by omega⟩ : Fin 32) (⟨j.val % 1024, Nat.mod_lt _ (by decide)⟩ : Fin 1024) k) (by
      rw [Shape.rowMajor_val_two, Shape.rowMajor_val_three]
      show (j.val / 1024 * 1024 + j.val % 1024) * 128 + k.val = j.val * 128 + k.val
      omega)).trans ?_
  exact transpose_apply [0, 2, 1] _ transposes_S32x128x1024_S32x1024x128_0_2_1 _
    (ix3 (⟨j.val / 1024, by omega⟩ : Fin 32) k (⟨j.val % 1024, Nat.mod_lt _ (by decide)⟩ : Fin 1024)) (fun b => by
      match b with
      | ⟨0, _⟩ => rfl
      | ⟨1, _⟩ => rfl
      | ⟨2, _⟩ => rfl)

/-- The final bias reaches the second call as launched. -/
theorem bfc_eq (c : Dev nD) : (V7 m ρ c main_arg4 : S1x128.Idx → EReal) = aBfc m c :=
  calc W7 m ρ c (Proc.devRef .tc main_arg4)
    _ = W6 m ρ c (Proc.devRef .tc main_arg4) := StableHlo.after_of_forall_not_mem (b := Proc.devRef .tc main_arg4) _ _ (by arg_kept)
    _ = W5 m ρ c (Proc.devRef .tc main_arg4) := W6_of_ne m ρ c main_arg4 (by decide)
    _ = m ((c : Thread nD τ).loc main_arg4) :=
      W5_of_arg m ρ c main_arg4 (by arg_kept) (by arg_kept) (by arg_kept) (by arg_kept) (by arg_kept)

end Cert.KernelIdeal.HostVal

end
-- ==== Proof.KConv.lean ====
/-
  The kernel's convolution call as a whole: its result array holds, at block 's', image 'b', channel 'co', lane 'p', the
  activations of image '32 s + b' after the five layers. Grid point 's' works on the row of images '32 s .. 32 s + 31';
  the row's layers are the images' layers one by one because every image is zero on its ring and tail lanes, as the mask
  keeps it after each layer.
-/
import proofs.«113494_g2000500751551631_pallasbulk_1084_2_alg».proof.Proof.KBody
import proofs.«113494_g2000500751551631_pallasbulk_1084_2_alg».proof.Proof.KHost

set_option maxRecDepth 16384

noncomputable section

namespace Cert.KernelIdeal.ConvVal

open Idealize.ShloMosaic Idealize.ShloMosaic.TcCoe Idealize.ShloMosaic.ValueIdx Idealize.SL.Sem
open Cert.KernelIdeal Cert.KernelIdeal.Gen Cert.KernelIdeal.HostVal Cert.KernelIdeal.BodyVal

variable (m : (ℓ : Loc nD τ sig) → Buf (Elt Ideal) ℓ) (ρ : Dev nD → PrngReg)

/-! ## The blocks a grid point reads and writes -/

/-- The index maps over the 16 grid points: the packed images and the result move with the point along their first
    axis, one block per point; the mask, the weights and the biases are whole arrays at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 4) = t.val ∧ win0_5.index t (1 : Fin 4) = 0 ∧ win0_5.index t (2 : Fin 4) = 0
    ∧ win0_5.index t (3 : Fin 4) = 0 :=
  (by decide +kernel : ∀ t : Fin grid0.N, _)

/-- Block 0 at grid point 't' is row 't' of the packed images. -/
theorem blk0_apply (V : (c : Dev nD) → (b : Ref sig .tc) → Buf (Elt Ideal) ((c : Thread nD τ).loc b))
    (c : Dev nD) (t : Fin cfg0.N) (ci : Fin 32) (q : Fin 32768) :
    (iblk0 V c 0 t : S1x32x32768.Idx → EReal) (ix3 0 ci q)
      = (V c main_v6 : S16x32x32768.Idx → EReal) (ix3 ⟨t.val, Nat.lt_of_lt_of_eq t.isLt N_0⟩ ci q) := by
  obtain ⟨e0, e1, e2, -⟩ := idx_facts t
  show V c main_v6 (((cfg0.win 0).blk t).view.emb (ix3 0 ci q)) = _
  congr 1
  funext a; apply Fin.ext
  match a with
  | ⟨0, _⟩ => show win0_0.index t (0 : Fin 3) * 1 + 1 * 0 = t.val; omega
  | ⟨1, _⟩ => show win0_0.index t (1 : Fin 3) * 32 + 1 * ci.val = ci.val; omega
  | ⟨2, _⟩ => show win0_0.index t (2 : Fin 3) * 32768 + 1 * q.val = q.val; omega

/-- Block 1 is the whole repeated mask. -/
theorem blk1_apply (V : (c : Dev nD) → (b : Ref sig .tc) → Buf (Elt Ideal) ((c : Thread nD τ).loc b))
    (c : Dev nD) (t : Fin cfg0.N) (q : Fin 32768) :
    (iblk0 V c 1 t : S1x32768.Idx → EReal) (ix2 0 q) = (V c main_v9 : S1x32768.Idx → EReal) (ix2 0 q) := by
  obtain ⟨-, -, -, e0, e1, -⟩ := idx_facts t
  show V c main_v9 (((cfg0.win 1).blk t).view.emb (ix2 0 q)) = _
  congr 1
  funext a; apply Fin.ext
  match a with
  | ⟨0, _⟩ => show win0_1.index t (0 : Fin 2) * 1 + 1 * 0 = 0; omega
  | ⟨1, _⟩ => show win0_1.index t (1 : Fin 2) * 32768 + 1 * q.val = q.val; omega

/-- Block 2 is the whole array of the eight outer taps' weights. -/
theorem blk2_apply (V : (c : Dev nD) → (b : Ref sig .tc) → Buf (Elt Ideal) ((c : Thread nD τ).loc b))
    (c : Dev nD) (t : Fin cfg0.N) (l : Fin 5) (co : Fin 32) (k : Fin 256) :
    (iblk0 V c 2 t : S5x32x256.Idx → EReal) (ix3 l co k) = (V c main_v19 : S5x32x256.Idx → EReal) (ix3 l co k) := by
  obtain ⟨-, -, -, -, -, e0, e1, e2, -⟩ := idx_facts t
  show V c main_v19 (((cfg0.win 2).blk t).view.emb (ix3 l co k)) = _
  congr 1
  funext a; apply Fin.ext
  match a with
  | ⟨0, _⟩ => show win0_2.index t (0 : Fin 3) * 5 + 1 * l.val = l.val; omega
  | ⟨1, _⟩ => show win0_2.index t (1 : Fin 3) * 32 + 1 * co.val = co.val; omega
  | ⟨2, _⟩ => show win0_2.index t (2 : Fin 3) * 256 + 1 * k.val = k.val; omega

/-- Block 3 is the whole array of the centre tap's weights. -/
theorem blk3_apply (V : (c : Dev nD) → (b : Ref sig .tc) → Buf (Elt Ideal) ((c : Thread nD τ).loc b))
    (c : Dev nD) (t : Fin cfg0.N) (l : Fin 5) (co ci : Fin 32) :
    (iblk0 V c 3 t : S5x32x32.Idx → EReal) (ix3 l co ci) = (V c main_v22 : S5x32x32.Idx → EReal) (ix3 l co ci) := by
  obtain ⟨-, -, -, -, -, -, -, -, e0, e1, e2, -⟩ := idx_facts t
  show V c main_v22 (((cfg0.win 3).blk t).view.emb (ix3 l co ci)) = _
  congr 1
  funext a; apply Fin.ext
  match a with
  | ⟨0, _⟩ => show win0_3.index t (0 : Fin 3) * 5 + 1 * l.val = l.val; omega
  | ⟨1, _⟩ => show win0_3.index t (1 : Fin 3) * 32 + 1 * co.val = co.val; omega
  | ⟨2, _⟩ => show win0_3.index t (2 : Fin 3) * 32 + 1 * ci.val = ci.val; omega

/-- Block 4 is the whole array of biases. -/
theorem blk4_apply (V : (c : Dev nD) → (b : Ref sig .tc) → Buf (Elt Ideal) ((c : Thread nD τ).loc b))
    (c : Dev nD) (t : Fin cfg0.N) (l : Fin 5) (co : Fin 32) :
    (iblk0 V c 4 t : S5x32x1.Idx → EReal) (ix3 l co 0) = (V c main_arg2 : S5x32x1.Idx → EReal) (ix3 l co 0) := by
  obtain ⟨-, -, -, -, -, -, -, -, -, -, -, e0, e1, e2, -⟩ := idx_facts t
  show V c main_arg2 (((cfg0.win 4).blk t).view.emb (ix3 l co 0)) = _
  congr 1
  funext a; apply Fin.ext
  match a with
  | ⟨0, _⟩ => show win0_4.index t (0 : Fin 3) * 5 + 1 * l.val = l.val; omega
  | ⟨1, _⟩ => show win0_4.index t (1 : Fin 3) * 32 + 1 * co.val = co.val; omega
  | ⟨2, _⟩ => show win0_4.index t (2 : Fin 3) * 1 + 1 * 0 = 0; omega

/-! ## A point's row of 32 images, layer by layer -/

/-- The weights as the body holds them are the launched weights, tap by tap. -/
theorem kW_eq (c : Dev nD) (x2 : Vec Ideal S5x32x256 .bf16) (x3 : Vec Ideal S5x32x32 .bf16)
    (h2 : ∀ l co k, x2 (ix3 l co k) = (V5 m ρ c main_v19 : S5x32x256.Idx → EReal) (ix3 l co k))
    (h3 : ∀ l co ci, x3 (ix3 l co ci) = (V5 m ρ c main_v22 : S5x32x32.Idx → EReal) (ix3 l co ci)) :
    kW x2 x3 = Cert.Spec.wOf (aWc m c) := by
  funext l t co ci
  unfold kW Cert.Spec.wOf
  have ht := t.isLt
  have hci := ci.isLt
  by_cases h4 : t.val = 4
  · rw [if_pos h4, h3, wcen_apply]
    have e : t = 4 := Fin.ext h4
    rw [e]
  · rw [if_neg h4, h2, w8_apply]
    congr 1
    funext e
    match e with
    | ⟨0, _⟩ => rfl
    | ⟨1, _⟩ =>
      apply Fin.ext
      show (if ((if t.val < 4 then t.val else t.val - 1) * 32 + ci.val) / 32 < 4
        then ((if t.val < 4 then t.val else t.val - 1) * 32 + ci.val) / 32
        else ((if t.val < 4 then t.val else t.val - 1) * 32 + ci.val) / 32 + 1) = t.val
      split_ifs <;> omega
    | ⟨2, _⟩ => rfl
    | ⟨3, _⟩ =>
      apply Fin.ext
      show ((if t.val < 4 then t.val else t.val - 1) * 32 + ci.val) % 32 = ci.val
      split_ifs <;> omega

/-- The biases as the body holds them are the launched biases. -/
theorem kB_eq (c : Dev nD) (x4 : Vec Ideal S5x32x1 .f32)
    (h4 : ∀ l co, x4 (ix3 l co 0) = (V5 m ρ c main_arg2 : S5x32x1.Idx → EReal) (ix3 l co 0)) :
    kB x4 = Cert.Spec.bOf (aBc m c) := by
  funext l co
  unfold kB Cert.Spec.bOf
  rw [h4, bc_eq]

/-- The row's mask at a lane of the row is the one-image mask at the lane's place in its image. -/
theorem kMask_eq (c : Dev nD) (x1 : Vec Ideal S1x32768 .f32)
    (h1 : ∀ q, x1 (ix2 0 q) = (V5 m ρ c main_v9 : S1x32768.Idx → EReal) (ix2 0 q))
    (q : ℤ) (hq0 : 0 ≤ q) (hq1 : q < 32768) :
    kMask x1 q = Cert.Spec.mkOf (aMask m c) (q % 1024) := by
  obtain ⟨n, rfl⟩ := Int.eq_ofNat_of_zero_le hq0
  have hn : n < 32768 := by omega
  unfold kMask Cert.Spec.mkOf
  refine (Cert.Spec.ext1_of_mem (fun q : Fin 32768 => x1 (ix2 0 q)) ⟨n, hn⟩).trans ?_
  show x1 (ix2 0 ⟨n, hn⟩) = _
  rw [h1, maskrow_apply]
  have e : ((n : ℤ) % 1024) = (((⟨n % 1024, Nat.mod_lt _ (by decide)⟩ : Fin 1024).val : ℕ) : ℤ) := by
    show (n : ℤ) % 1024 = ((n % 1024 : ℕ) : ℤ)
    omega
  rw [e, Cert.Spec.ext1_of_mem]

/-- Off its 32768 lanes the row reads zero. -/
theorem kX_off (x0 : Vec Ideal S1x32x32768 .bf16) (ci : Fin 32) (q : ℤ) (h : ¬(0 ≤ q ∧ q < ((32 : ℕ) : ℤ) * 1024)) :
    kX x0 ci q = 0 := by
  unfold kX
  exact Cert.Spec.ext1_of_not_mem _ q (fun hh => h ⟨hh.1, by have := hh.2; omega⟩)

/-- Two readings of an image agree when the image numbers and the lanes do. -/
theorem img_congr (x : Cert.Spec.SX.Idx → EReal) (ci : Fin 32) (a : ℕ) (ha : a < 512) (a' : ℕ) (ha' : a' < 512) (z z' : ℤ)
    (h1 : a = a') (h2 : z = z') : Cert.Spec.img x ⟨a, ha⟩ ci z = Cert.Spec.img x ⟨a', ha'⟩ ci z' := by
  subst h1; subst h2; rfl

/-- Lane 'bi * 1024 + p' of row 's' is lane 'p' of image '32 s + bi'. -/
theorem kX_img (c : Dev nD) (s : Fin 16) (x0 : Vec Ideal S1x32x32768 .bf16)
    (h0 : ∀ ci q, x0 (ix3 0 ci q) = (V5 m ρ c main_v6 : S16x32x32768.Idx → EReal) (ix3 s ci q))
    (bi : ℕ) (hbi : bi < 32) (ci : Fin 32) (p : ℤ) (hp0 : 0 ≤ p) (hp1 : p < 1024) :
    kX x0 ci ((bi : ℤ) * 1024 + p)
      = Cert.Spec.img (aX m c) ⟨s.val * 32 + bi, by have := s.isLt; omega⟩ ci p := by
  obtain ⟨n, rfl⟩ := Int.eq_ofNat_of_zero_le hp0
  have hn : n < 1024 := by omega
  have hq : bi * 1024 + n < 32768 := by omega
  unfold kX
  have e : ((bi : ℤ) * 1024 + (n : ℤ)) = (((⟨bi * 1024 + n, hq⟩ : Fin 32768).val : ℕ) : ℤ) := by
    show (bi : ℤ) * 1024 + (n : ℤ) = ((bi * 1024 + n : ℕ) : ℤ)
    omega
  rw [e, Cert.Spec.ext1_of_mem]
  show x0 (ix3 0 ci ⟨bi * 1024 + n, hq⟩) = _
  rw [h0, xp_apply]
  exact img_congr _ ci _ _ _ _ _ _
    (by show s.val * 32 + (bi * 1024 + n) / 1024 = s.val * 32 + bi; omega)
    (by show (((bi * 1024 + n) % 1024 : ℕ) : ℤ) = (n : ℤ); omega)

/-- The images of row 's', numbered within the row; past the row, zero. -/
def rowImg (c : Dev nD) (s : Fin 16) : ℕ → Fin 32 → ℤ → EReal := fun bi =>
  if h : bi < 32 then Cert.Spec.img (aX m c) ⟨s.val * 32 + bi, by have := s.isLt; omega⟩ else fun _ _ => 0

/-- The five layers on row 's' at image 'b' of the row, lane 'p', are the activations of image '32 s + b': the packed
    row's layers are the images' layers one by one, every image being zero on its ring and tail lanes. -/
theorem row_net (c : Dev nD)
    (hmk : ∀ p : ℤ, 0 ≤ p → p < 1024 → (p < 31 ∨ 993 ≤ p) → Cert.Spec.mkOf (aMask m c) p = 0)
    (s : Fin 16)
    (x0 : Vec Ideal S1x32x32768 .bf16) (x1 : Vec Ideal S1x32768 .f32) (x2 : Vec Ideal S5x32x256 .bf16)
    (x3 : Vec Ideal S5x32x32 .bf16) (x4 : Vec Ideal S5x32x1 .f32)
    (h0 : ∀ ci q, x0 (ix3 0 ci q) = (V5 m ρ c main_v6 : S16x32x32768.Idx → EReal) (ix3 s ci q))
    (h1 : ∀ q, x1 (ix2 0 q) = (V5 m ρ c main_v9 : S1x32768.Idx → EReal) (ix2 0 q))
    (h2 : ∀ l co k, x2 (ix3 l co k) = (V5 m ρ c main_v19 : S5x32x256.Idx → EReal) (ix3 l co k))
    (h3 : ∀ l co ci, x3 (ix3 l co ci) = (V5 m ρ c main_v22 : S5x32x32.Idx → EReal) (ix3 l co ci))
    (h4 : ∀ l co, x4 (ix3 l co 0) = (V5 m ρ c main_arg2 : S5x32x1.Idx → EReal) (ix3 l co 0))
    (b co : Fin 32) (p : Fin 1024) :
    Cert.Spec.netW 32768 (kW x2 x3) (kB x4) (kMask x1) (kX x0) co ((b.val : ℤ) * 1024 + (p.val : ℤ))
      = Cert.Spec.act (aX m c) (aWc m c) (aBc m c) (aMask m c)
          ⟨s.val * 32 + b.val, by have := s.isLt; have := b.isLt; omega⟩ co (p.val : ℤ) := by
  rw [kW_eq m ρ c x2 x3 h2 h3, kB_eq m ρ c x4 h4,
    Cert.Spec.netW_congr_mk 32768 _ _ (kMask x1) (fun q => Cert.Spec.mkOf (aMask m c) (q % 1024)) _
      (fun q hq0 hq1 => kMask_eq m ρ c x1 h1 q hq0 hq1)]
  have e : (32768 : ℤ) = ((32 : ℕ) : ℤ) * 1024 := by norm_num
  rw [e]
  have hp := p.isLt
  rw [Cert.Spec.netW_pack 32 _ _ (Cert.Spec.mkOf (aMask m c)) hmk (kX x0) (rowImg m c s)
    (fun ci q h => kX_off x0 ci q h)
    (fun bi hbi ci p hp0 hp1 => by rw [kX_img m ρ c s x0 h0 bi hbi ci p hp0 hp1]; unfold rowImg; rw [dif_pos hbi])
    (fun bi hbi ci p hp => by unfold rowImg; rw [dif_pos hbi]; exact Cert.Spec.img_ring _ _ ci p hp)
    b.val b.isLt co (p.val : ℤ) (by omega) (by omega)]
  unfold rowImg Cert.Spec.act
  rw [dif_pos b.isLt]

/-! ## From the points' blocks to the result array -/

/-- What grid point 't' leaves in its output block at image 'b' of its row, channel 'co', lane 'p': the activations of
    image '32 t + b'. -/
theorem point_apply (c : Dev nD)
    (hmk : ∀ p : ℤ, 0 ≤ p → p < 1024 → (p < 31 ∨ 993 ≤ p) → Cert.Spec.mkOf (aMask m c) p = 0)
    (t : Fin cfg0.N) (b co : Fin 32) (p : Fin 1024) :
    (outsAt0 (V5 m ρ) c t : Vec Ideal S1x32x32x1024 .bf16) (ix4 0 b co p)
      = Cert.Spec.act (aX m c) (aWc m c) (aBc m c) (aMask m c)
          ⟨t.val * 32 + b.val, by have := Nat.lt_of_lt_of_eq t.isLt N_0; have := b.isLt; omega⟩ co (p.val : ℤ) := by
  unfold outsAt0
  rw [conv_body_apply]
  exact row_net m ρ c hmk ⟨t.val, Nat.lt_of_lt_of_eq t.isLt N_0⟩ _ _ _ _ _
    (fun ci q => blk0_apply (V5 m ρ) c t ci q)
    (fun q => blk1_apply (V5 m ρ) c t q)
    (fun l co k => blk2_apply (V5 m ρ) c t l co k)
    (fun l co ci => blk3_apply (V5 m ρ) c t l co ci)
    (fun l co => blk4_apply (V5 m ρ) c t l co) b co p

/-- The call's result array as the spec reads it: block 's', image 'b' holds the activations of image '32 s + b'. -/
def convG (c : Dev nD) : S16x32x32x1024.Idx → EReal := fun j =>
  Cert.Spec.act (aX m c) (aWc m c) (aBc m c) (aMask m c)
    ⟨(j 0).val * 32 + (j 1).val, by
      have h0 : (j 0).val < 16 := (j 0).isLt
      have h1 : (j 1).val < 32 := (j 1).isLt
      omega⟩ (j 2) (((j 3).val : ℕ) : ℤ)

/-- The result array at an entry. -/
theorem convG_apply (c : Dev nD) (s : Fin 16) (b co : Fin 32) (p : Fin 1024) :
    convG m c (ix4 s b co p)
      = Cert.Spec.act (aX m c) (aWc m c) (aBc m c) (aMask m c)
          ⟨s.val * 32 + b.val, by have := s.isLt; have := b.isLt; omega⟩ co (p.val : ℤ) := rfl

/-- What point 't' writes back is block 't' of that array. -/
theorem flushed_eq (c : Dev nD)
    (hmk : ∀ p : ℤ, 0 ≤ p → p < 1024 → (p < 31 ∨ 993 ≤ p) → Cert.Spec.mkOf (aMask m c) p = 0)
    (t : Fin cfg0.N) :
    (dat0 (V5 m ρ) c).flushed 5 t = ((cfg0.win 5).blk t).view.read (Elt Ideal) (convG m c) := by
  obtain ⟨-, -, -, -, -, -, -, -, -, -, -, -, -, -, e0, e1, e2, e3⟩ := idx_facts t
  show (cfg0.win 5).cut (grid0.coords t) ((dat0 (V5 m ρ) c).after 5 t) = _
  rw [after0_5]
  refine funext fun (y : S1x32x32x1024.Idx) => ?_
  obtain ⟨b, co, p, rfl⟩ : ∃ (b co : Fin 32) (p : Fin 1024), y = ix4 (0 : Fin 1) b co p :=
    ⟨y 1, y 2, y 3, funext fun a => by
      match a with
      | ⟨0, _⟩ => exact Fin.ext (by show (y 0).val = 0; have h : (y 0).val < 1 := (y 0).isLt; omega)
      | ⟨1, _⟩ => rfl
      | ⟨2, _⟩ => rfl
      | ⟨3, _⟩ => rfl⟩
  rw [View.read_apply]
  show (outsAt0 (V5 m ρ) c t : Vec Ideal S1x32x32x1024 .bf16) (ix4 0 b co p)
    = convG m c (((cfg0.win 5).blk t).view.emb (ix4 (0 : Fin 1) b co p))
  have he : ((cfg0.win 5).blk t).view.emb (ix4 (0 : Fin 1) b co p)
      = (ix4 (⟨t.val, Nat.lt_of_lt_of_eq t.isLt N_0⟩ : Fin 16) b co p : S16x32x32x1024.Idx) := by
    funext a; apply Fin.ext
    match a with
    | ⟨0, _⟩ => show win0_5.index t (0 : Fin 4) * 1 + 1 * 0 = t.val; omega
    | ⟨1, _⟩ => show win0_5.index t (1 : Fin 4) * 32 + 1 * b.val = b.val; omega
    | ⟨2, _⟩ => show win0_5.index t (2 : Fin 4) * 32 + 1 * co.val = co.val; omega
    | ⟨3, _⟩ => show win0_5.index t (3 : Fin 4) * 1024 + 1 * p.val = p.val; omega
  rw [he, convG_apply]
  exact point_apply m ρ c hmk t b co p

/-- An index of the array is in point 't' 's block iff each coordinate is in the block's range on its axis. -/
theorem mem_blk (t : Fin cfg0.N) (i : S16x32x32x1024.Idx) :
    i ∈ ((cfg0.win 5).blk t).view.set ↔ ∀ a : Fin 4, win0_5.index t a * S1x32x32x1024.size a ≤ (i a).val ∧ (i a).val < win0_5.index t a * S1x32x32x1024.size a + S1x32x32x1024.size a := by
  show i ∈ ((View.whole main_v23).slice (win0_5.rect t)).set ↔ _
  rw [View.set_slice_whole, Rect.mem_set_unit]
  exact Iff.rfl

/-- Block 's' of the array is point 's' 's block. -/
theorem cover (i : S16x32x32x1024.Idx) :
    ∃ t : Fin cfg0.N, (cfg0.win 5).flush t = true ∧ i ∈ ((cfg0.win 5).blk t).view.set := by
  have hi0 : (i 0).val < 16 := (i 0).isLt
  have hi1 : (i 1).val < 32 := (i 1).isLt
  have hi2 : (i 2).val < 32 := (i 2).isLt
  have hi3 : (i 3).val < 1024 := (i 3).isLt
  obtain ⟨t, ht⟩ : ∃ t : Fin cfg0.N, t.val = (i 0).val := ⟨⟨(i 0).val, Nat.lt_of_lt_of_eq hi0 N_0.symm⟩, rfl⟩
  obtain ⟨-, -, -, -, -, -, -, -, -, -, -, -, -, -, e0, e1, e2, e3⟩ := idx_facts t
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 32 ≤ (i 1).val ∧ (i 1).val < win0_5.index t (1 : Fin 4) * 32 + 32; omega
  | ⟨2, _⟩ => show win0_5.index t (2 : Fin 4) * 32 ≤ (i 2).val ∧ (i 2).val < win0_5.index t (2 : Fin 4) * 32 + 32; omega
  | ⟨3, _⟩ => show win0_5.index t (3 : Fin 4) * 1024 ≤ (i 3).val ∧ (i 3).val < win0_5.index t (3 : Fin 4) * 1024 + 1024; omega

/-- The call's result array after the run. -/
theorem final (c : Dev nD)
    (hmk : ∀ p : ℤ, 0 ≤ p → p < 1024 → (p < 31 ∨ 993 ≤ p) → Cert.Spec.mkOf (aMask m c) p = 0) :
    ((dat0 (V5 m ρ) c).arrAt 5 cfg0.N : S16x32x32x1024.Idx → EReal) = convG m c :=
  (dat0 (V5 m ρ) c).arrAt_eq_of_cover 5 (convG m c) (fun t _ => flushed_eq m ρ c hmk t) cover

/-- The convolution call's result array, at an entry. -/
theorem conv_value (c : Dev nD)
    (hmk : ∀ p : ℤ, 0 ≤ p → p < 1024 → (p < 31 ∨ 993 ≤ p) → Cert.Spec.mkOf (aMask m c) p = 0)
    (s : Fin 16) (b co : Fin 32) (p : Fin 1024) :
    (V6 m ρ c main_v23 : S16x32x32x1024.Idx → EReal) (ix4 s b co p)
      = Cert.Spec.act (aX m c) (aWc m c) (aBc m c) (aMask m c)
          ⟨s.val * 32 + b.val, by have := s.isLt; have := b.isLt; omega⟩ co (p.val : ℤ) := by
  have h : (V6 m ρ c main_v23 : S16x32x32x1024.Idx → EReal) = convG m c :=
    (W6_arr m ρ c 5).trans (final m ρ c hmk)
  rw [h, convG_apply]

end Cert.KernelIdeal.ConvVal

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.KFc.lean ====
/-
  The kernel's second call as a whole: one product of depth 32768 per image row against the transposed final weights,
  plus the final bias; the depth splits as 32 channels of 1024 lanes, which is the spec's double sum. So the program's
  result array is the spec's.

  The call works on the 512 image rows in two blocks of 256: point 't' reads rows '256 t .. 256 t + 255' of the
  activations, all of the weights and of the bias, and writes rows '256 t .. 256 t + 255' of the result. Each entry of a
  block is the entry of ONE whole-array formula ('fcOf') at the block's place, the two blocks cover the result, so the
  result array is that formula of the three arrays the call finds; those arrays, read at an entry, are the activations
  of the convolution call and the final weights and bias as launched.
-/
import proofs.«113494_g2000500751551631_pallasbulk_1084_2_alg».proof.Proof.KConv
import proofs.«113494_g2000500751551631_pallasbulk_1084_2_alg».proof.Proof.LibDot

set_option maxRecDepth 16384

noncomputable section

namespace Cert.KernelIdeal.FcVal

open Idealize.ShloMosaic Idealize.ShloMosaic.TcCoe Idealize.ShloMosaic.ValueIdx Idealize.SL.Sem
open Cert.KernelIdeal Cert.KernelIdeal.Gen Cert.KernelIdeal.HostVal
open Idealize.ShloMosaic.Pipeline (Dat)

variable (m : (ℓ : Loc nD τ sig) → Buf (Elt Ideal) ℓ) (ρ : Dev nD → PrngReg)

/-! ## The whole-array formula and the body at an entry -/

/-- Entry (n, k) of the result as a function of the three arrays the call reads: row 'n' of the first against column
    'k' of the second over the 32768 depth positions, plus entry 'k' of the one-row third. -/
def fcOf (rows : S512x32768.Idx → EReal) (wt : S32768x128.Idx → EReal) (b : S1x128.Idx → EReal) : S512x128.Idx → EReal :=
  fun i => (∑ j : Fin 32768, rows (ix2 (i 0) j) * wt (ix2 j (i 1))) + b (ix2 0 (i 1))

/-- The whole-array formula at an entry. -/
theorem fcOf_apply (rows : S512x32768.Idx → EReal) (wt : S32768x128.Idx → EReal) (b : S1x128.Idx → EReal)
    (n : Fin 512) (k : Fin 128) :
    fcOf rows wt b (ix2 n k) = (∑ j : Fin 32768, rows (ix2 n j) * wt (ix2 j k)) + b (ix2 0 k) := rfl

/-- The body's arithmetic at entry (r, k) of a block: the product of row 'r' of the 256 x 32768 block with column 'k'
    of the weights, accumulated from zero, plus the bias row laid along every row. -/
theorem body_at (x0 : FVec Ideal S256x32768 .bf16) (x1 : FVec Ideal S32768x128 .bf16) (x2 : FVec Ideal S1x128 .f32)
    (r : Fin 256) (k : Fin 128) :
    k1_pay1 (F := Ideal) x0 x1 x2 (ix2 r k) = (∑ j : Fin 32768, x0 (ix2 r j) * x1 (ix2 j k)) + x2 (ix2 0 k) := by
  unfold k1_pay1
  simp only [shapeCast_self]
  rw [addf_apply]
  refine congrArg₂ (· + ·)
    (Cert.LibDot.matmul_zero_at dot_S256x32768_S32768x128_S256x128_1_0_0_1_n_n rfl rfl rfl rfl rfl rfl none x0 x1 r k)
    (broadcastTo_apply x2 broadcasts_S1x128_S256x128 (ix2 r k) (ix2 0 k) fun a => ?_)
  match a with
  | ⟨0, _⟩ => rfl
  | ⟨1, _⟩ => rfl

/-! ## The blocks of the two grid points -/

/-- The body loads and stores its whole buffers: offsets zero. -/
theorem zero_offsets : (![0, 0] : Fin 2 → Nat) = fun _ => 0 := funext fun a => by fin_cases a <;> rfl

/-- The block indices over the two grid points: the rows' block moves with the result's block along the rows; the
    weights and the bias are one block each; the result's block index is 0 or 1 along the rows and 0 along the columns. -/
theorem index_maps : ∀ t : Fin cfg1.N,
    win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 1 :=
  (by decide +kernel : ∀ t : Fin grid1.N, _)

/-- Each of the result's two row blocks is some point's. -/
theorem index_onto : ∀ q : Fin 2, ∃ t : Fin cfg1.N, win1_3.index t = ![q.val, 0] :=
  (by decide +kernel : ∀ q : Fin 2, ∃ t : Fin grid1.N, win1_3.index t = ![q.val, 0])

/-- The rows' block at a point: entry (r, j) is the array's entry (256 * block index + r, j). -/
theorem rows_block (c : Dev nD) (t : Fin cfg1.N) (y : S256x32768.Idx) (i : S512x32768.Idx)
    (h0 : (i 0).val = win1_0.index t (0 : Fin 2) * 256 + (y 0).val) (h1 : (i 1).val = (y 1).val) :
    (iblk1 (V7 m ρ) c 0 t : FVec Ideal S256x32768 .bf16) y = (V7 m ρ c main_v24 : S512x32768.Idx → EReal) i := by
  obtain ⟨e0, e1, e2, e3, e4, e5, e6, e7⟩ := index_maps t
  unfold iblk1
  rw [View.read_apply]
  show V7 m ρ c main_v24 _ = V7 m ρ c main_v24 _
  congr 1
  funext a; apply Fin.ext
  match a with
  | ⟨0, _⟩ => show win1_0.index t (0 : Fin 2) * 256 + 1 * (y 0).val = (i 0).val; omega
  | ⟨1, _⟩ => show win1_0.index t (1 : Fin 2) * 32768 + 1 * (y 1).val = (i 1).val; omega

/-- The weights' block at a point is the whole array. -/
theorem weights_block (c : Dev nD) (t : Fin cfg1.N) (y : S32768x128.Idx) :
    (iblk1 (V7 m ρ) c 1 t : FVec Ideal S32768x128 .bf16) y = (V7 m ρ c main_v27 : S32768x128.Idx → EReal) y := by
  obtain ⟨e0, e1, e2, e3, e4, e5, e6, e7⟩ := index_maps t
  unfold iblk1
  rw [View.read_apply]
  show V7 m ρ c main_v27 _ = V7 m ρ c main_v27 _
  congr 1
  funext a; apply Fin.ext
  match a with
  | ⟨0, _⟩ => show win1_1.index t (0 : Fin 2) * 32768 + 1 * (y 0).val = (y 0).val; omega
  | ⟨1, _⟩ => show win1_1.index t (1 : Fin 2) * 128 + 1 * (y 1).val = (y 1).val; omega

/-- The bias's block at a point is the whole array. -/
theorem bias_block (c : Dev nD) (t : Fin cfg1.N) (y : S1x128.Idx) :
    (iblk1 (V7 m ρ) c 2 t : FVec Ideal S1x128 .f32) y = (V7 m ρ c main_arg4 : S1x128.Idx → EReal) y := by
  obtain ⟨e0, e1, e2, e3, e4, e5, e6, e7⟩ := index_maps t
  unfold iblk1
  rw [View.read_apply]
  show V7 m ρ c main_arg4 _ = V7 m ρ c main_arg4 _
  congr 1
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What a point's body leaves at entry 'y' of its block is the whole-array formula at the entry's place 'i' in the
    result: row '256 * block index + row of y', the same column. The rows' block sits at the same rows. -/
theorem body_block (c : Dev nD) (t : Fin cfg1.N) (y : S256x128.Idx) (i : S512x128.Idx)
    (h0 : (i 0).val = win1_3.index t (0 : Fin 2) * 256 + (y 0).val) (h1 : (i 1).val = (y 1).val) :
    k1_pay1 (F := Ideal) (iblk1 (V7 m ρ) c 0 t) (iblk1 (V7 m ρ) c 1 t) (iblk1 (V7 m ρ) c 2 t) y
      = fcOf (V7 m ρ c main_v24) (V7 m ρ c main_v27) (V7 m ρ c main_arg4) i := by
  obtain ⟨e0, e1, e2, e3, e4, e5, e6, e7⟩ := index_maps t
  obtain ⟨r, k, rfl⟩ : ∃ (r : Fin 256) (k : Fin 128), y = ix2 r k := ⟨y 0, y 1, eq_ix2 y⟩
  refine (body_at (iblk1 (V7 m ρ) c 0 t) (iblk1 (V7 m ρ) c 1 t) (iblk1 (V7 m ρ) c 2 t) r k).trans ?_
  have hi1 : i 1 = k := Fin.ext h1
  unfold fcOf
  rw [hi1]
  refine congrArg₂ (· + ·) (Finset.sum_congr rfl fun j _ => congrArg₂ (· * ·) ?_ ?_) ?_
  · exact rows_block m ρ c t (ix2 r j) (ix2 (i 0) j) (by rw [e0]; exact h0) rfl
  · exact weights_block m ρ c t (ix2 j k)
  · exact bias_block m ρ c t (ix2 0 k)

/-! ## From the blocks to the array -/

/-- What a point writes back is its block of the whole-array formula. -/
theorem written_back (c : Dev nD) (t : Fin cfg1.N) :
    (dat1 (V7 m ρ) c).flushed 3 t
      = ((cfg1.win 3).blk t).view.read (Elt Ideal) (fcOf (V7 m ρ c main_v24) (V7 m ρ c main_v27) (V7 m ρ c main_arg4)) := by
  show (cfg1.win 3).cut (grid1.coords t) ((dat1 (V7 m ρ) c).after 3 t) = _
  rw [after1_3]
  unfold out1_3
  rw [View.canon_unit_zero zero_offsets]
  simp only [View.ld_unit_zero (S := S256x32768) zero_offsets, View.ld_unit_zero (S := S32768x128) zero_offsets,
    View.ld_unit_zero (S := S1x128) zero_offsets]
  funext j
  show k1_pay1 (F := Ideal) (iblk1 (V7 m ρ) c 0 t) (iblk1 (V7 m ρ) c 1 t) (iblk1 (V7 m ρ) c 2 t) j
      = fcOf (V7 m ρ c main_v24) (V7 m ρ c main_v27) (V7 m ρ c main_arg4) (((cfg1.win 3).blk t).view.emb j)
  refine body_block m ρ c t j _ ?_ ?_
  · show win1_3.index t (0 : Fin 2) * 256 + 1 * (j 0).val = win1_3.index t (0 : Fin 2) * 256 + (j 0).val; omega
  · obtain ⟨e0, e1, e2, e3, e4, e5, e6, e7⟩ := index_maps t
    show win1_3.index t (1 : Fin 2) * 128 + 1 * (j 1).val = (j 1).val; omega

/-- An entry of the result is in a point's block iff each coordinate is in the block's range on its axis. -/
theorem mem_block (t : Fin cfg1.N) (i : S512x128.Idx) :
    i ∈ ((cfg1.win 3).blk t).view.set ↔ ∀ a : Fin 2, win1_3.index t a * S256x128.size a ≤ (i a).val ∧ (i a).val < win1_3.index t a * S256x128.size a + S256x128.size a := by
  show i ∈ ((View.whole main_v28).slice (win1_3.rect t)).set ↔ _
  rw [View.set_slice_whole, Rect.mem_set_unit]
  exact Iff.rfl

/-- Every entry of the result is in the block of the point that works on its row: the point with block index
    'row / 256'. -/
theorem covered (i : S512x128.Idx) :
    ∃ t : Fin cfg1.N, (cfg1.win 3).flush t = true ∧ i ∈ ((cfg1.win 3).blk t).view.set := by
  have hi0 : (i 0).val < 512 := (i 0).isLt
  have hi1 : (i 1).val < 128 := (i 1).isLt
  obtain ⟨t, ht⟩ := index_onto ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 128 ≤ (i 1).val ∧ (i 1).val < win1_3.index t (1 : Fin 2) * 128 + 128; omega

/-- The second call's result array is the whole-array formula of the three arrays the call finds. -/
theorem whole_array (c : Dev nD) :
    (dat1 (V7 m ρ) c).arrAt 3 cfg1.N = fcOf (V7 m ρ c main_v24) (V7 m ρ c main_v27) (V7 m ρ c main_arg4) :=
  (dat1 (V7 m ρ) c).arrAt_eq_of_cover 3 _ (fun t _ => written_back m ρ c t) covered

/-! ## The depth as channels times lanes, and the three arrays at an entry -/

/-- A sum over the 32768 depth positions is the double sum over 32 channels and 1024 lanes: position 'ch * 1024 + p'. -/
theorem sum_depth (f : Fin 32768 → EReal) :
    ∑ j : Fin 32768, f j
      = ∑ ch : Fin 32, ∑ p : Fin 1024, f ⟨ch.val * 1024 + p.val, by have := ch.isLt; have := p.isLt; omega⟩ := by
  refine (Equiv.sum_comp (finProdFinEquiv (m := 32) (n := 1024)) f).symm.trans ?_
  rw [Fintype.sum_prod_type]
  refine Finset.sum_congr rfl fun ch _ => Finset.sum_congr rfl fun p _ => congrArg f (Fin.ext ?_)
  show p.val + 1024 * ch.val = ch.val * 1024 + p.val
  omega

/-- Image 'n' 's row at depth 'ch * 1024 + p' holds its activation at channel 'ch', lane 'p': the row is image
    'n % 32' of block 'n / 32' of the convolution call's result, and '(n / 32) * 32 + n % 32 = n'. -/
theorem rows_at (c : Dev nD)
    (hmk : ∀ p : ℤ, 0 ≤ p → p < 1024 → (p < 31 ∨ 993 ≤ p) → Cert.Spec.mkOf (aMask m c) p = 0)
    (n : Fin 512) (ch : Fin 32) (p : Fin 1024) (h : ch.val * 1024 + p.val < 32768) :
    (V7 m ρ c main_v24 : S512x32768.Idx → EReal) (ix2 n ⟨ch.val * 1024 + p.val, h⟩)
      = Cert.Spec.act (aX m c) (aWc m c) (aBc m c) (aMask m c) n ch (p.val : ℤ) := by
  have hn : n.val < 512 := n.isLt
  have hp : p.val < 1024 := p.isLt
  refine (rows_apply m ρ c n _).trans ?_
  refine (congrArg (V6 m ρ c main_v23 : S16x32x32x1024.Idx → EReal)
    (?_ : _ = ix4 (⟨n.val / 32, by omega⟩ : Fin 16) (⟨n.val % 32, by omega⟩ : Fin 32) ch p)).trans ?_
  · funext a
    match a with
    | ⟨0, _⟩ => rfl
    | ⟨1, _⟩ => rfl
    | ⟨2, _⟩ => exact Fin.ext (by show (ch.val * 1024 + p.val) / 1024 = ch.val; omega)
    | ⟨3, _⟩ => exact Fin.ext (by show (ch.val * 1024 + p.val) % 1024 = p.val; omega)
  · refine (Cert.KernelIdeal.ConvVal.conv_value m ρ c hmk ⟨n.val / 32, by omega⟩ ⟨n.val % 32, by omega⟩ ch p).trans ?_
    exact congrArg (fun q => Cert.Spec.act (aX m c) (aWc m c) (aBc m c) (aMask m c) q ch (p.val : ℤ))
      (Fin.ext (by show n.val / 32 * 32 + n.val % 32 = n.val; omega))

/-- The transposed final weights at depth 'ch * 1024 + p', score 'k': the final weight of channel 'ch', score 'k',
    lane 'p'. -/
theorem weights_at (c : Dev nD) (ch : Fin 32) (p : Fin 1024) (k : Fin 128) (h : ch.val * 1024 + p.val < 32768) :
    (V7 m ρ c main_v27 : S32768x128.Idx → EReal) (ix2 ⟨ch.val * 1024 + p.val, h⟩ k) = aWfc m c (ix3 ch k p) := by
  have hp : p.val < 1024 := p.isLt
  refine (wfct_apply m ρ c _ k).trans (congrArg (aWfc m c) ?_)
  funext a
  match a with
  | ⟨0, _⟩ => exact Fin.ext (by show (ch.val * 1024 + p.val) / 1024 = ch.val; omega)
  | ⟨1, _⟩ => rfl
  | ⟨2, _⟩ => exact Fin.ext (by show (ch.val * 1024 + p.val) % 1024 = p.val; omega)

/-! ## The result -/

/-- The result array at an entry: the spec's score. -/
theorem fc_value (c : Dev nD)
    (hmk : ∀ p : ℤ, 0 ≤ p → p < 1024 → (p < 31 ∨ 993 ≤ p) → Cert.Spec.mkOf (aMask m c) p = 0)
    (n : Fin 512) (k : Fin 128) :
    (W8 m ρ c (Proc.devRef .tc main_v28) : S512x128.Idx → EReal) (ix2 n k)
      = Cert.Spec.scoreAt (aX m c) (aWc m c) (aBc m c) (aWfc m c) (aBfc m c) (aMask m c) n k := by
  have hW : (W8 m ρ c (Proc.devRef .tc main_v28) : S512x128.Idx → EReal)
      = fcOf (V7 m ρ c main_v24) (V7 m ρ c main_v27) (V7 m ρ c main_arg4) :=
    (W8_arr m ρ c 3).trans (whole_array m ρ c)
  rw [hW, fcOf_apply, bfc_eq]
  unfold Cert.Spec.scoreAt
  refine congrArg (· + aBfc m c (ix2 0 k))
    ((sum_depth _).trans (Finset.sum_congr rfl fun ch _ => Finset.sum_congr rfl fun p _ => ?_))
  exact congrArg₂ (· * ·) (rows_at m ρ c hmk n ch p _) (weights_at m ρ c ch p k _)

/-- The result array is the spec's. -/
theorem result_eq (c : Dev nD)
    (hmk : ∀ p : ℤ, 0 ≤ p → p < 1024 → (p < 31 ∨ 993 ≤ p) → Cert.Spec.mkOf (aMask m c) p = 0) :
    (W8 m ρ c (Proc.devRef .tc main_v28) : S512x128.Idx → EReal)
      = Cert.Spec.G (aX m c) (aWc m c) (aBc m c) (aWfc m c) (aBfc m c) (aMask m c) := by
  funext i
  rw [eq_ix2 i]
  exact fc_value m ρ c hmk (i 0) (i 1)

end Cert.KernelIdeal.FcVal

end
-- ==== Proof.RBody.lean ====
/-
  What one grid point of the reference's call leaves in its output block, read at an entry: the five layers on the
  point's row of 2 images (2048 lanes), each layer nine shifted taps accumulated one after the other, the bias, the
  positive part and the mask; then, for image 'b' of the row, the 32 channels' products with the final weights
  accumulated one after the other from zero, plus the final bias.
-/
import proofs.«113494_g2000500751551631_pallasbulk_1084_2_alg».proof.Proof.Gen.ReferenceIdeal.Frame
import proofs.«113494_g2000500751551631_pallasbulk_1084_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.BodyVal

open Idealize.ShloMosaic Idealize.ShloMosaic.ValueIdx Idealize.SL.Sem Cert.ReferenceIdeal Cert.ReferenceIdeal.Gen

/-- The row's mask at an integer lane. -/
def rMask (x1 : Vec Ideal S1x2048 .f32) : ℤ → EReal := Cert.Spec.ext1 fun q : Fin 2048 => x1 (ix2 0 q)
/-- The row of 2 images at a channel and an integer lane. -/
def rX (x0 : Vec Ideal S1x32x2048 .f32) : Fin 32 → ℤ → EReal := fun ci => Cert.Spec.ext1 fun q : Fin 2048 => x0 (ix3 0 ci q)

/-- A layer's tap product into a zero accumulator, read at (co, q): the sum over input channels. -/
theorem mm_apply (w : FVec Ideal S1x1x32x32 .f32) (tap : FVec Ideal S32x2048 .f32) (co : Fin 32) (q : Fin 2048) :
    matmul (F := Ideal) dot_S32x32_S32x2048_S32x2048_1_0_0_1_n_n none (shapeCast S32x32 w shapeCasts_S1x1x32x32_S32x32) tap
      (constant S32x2048 .f32 0x00000000#32) (ix2 co q) = ∑ ci : Fin 32, w (ix4 0 0 co ci) * tap (ix2 ci q) := by
  show FloatOps.matmul _ none _ tap (constant S32x2048 .f32 0x00000000#32) (ix2 co q) = _
  rw [Ideal.matmul_constant_zero_apply,
    ← Equiv.sum_comp (contrEquiv1 dot_S32x32_S32x2048_S32x2048_1_0_0_1_n_n 32 rfl rfl).symm]
  refine Finset.sum_congr rfl fun ci _ => ?_
  have c2 := contrEquiv1_symm_val dot_S32x32_S32x2048_S32x2048_1_0_0_1_n_n 32 rfl rfl ci
  have l2 : dot_S32x32_S32x2048_S32x2048_1_0_0_1_n_n.lhsIdx (ix2 co q)
      ((contrEquiv1 dot_S32x32_S32x2048_S32x2048_1_0_0_1_n_n 32 rfl rfl).symm ci) = ix2 co ci := by
    funext ax; apply Fin.ext
    match ax with
    | ⟨0, _⟩ => simp [DotDims.lhsIdx, dot_S32x32_S32x2048_S32x2048_1_0_0_1_n_n]; rfl
    | ⟨1, _⟩ => simp [DotDims.lhsIdx, dot_S32x32_S32x2048_S32x2048_1_0_0_1_n_n]; exact c2
  have r2 : dot_S32x32_S32x2048_S32x2048_1_0_0_1_n_n.rhsIdx (ix2 co q)
      ((contrEquiv1 dot_S32x32_S32x2048_S32x2048_1_0_0_1_n_n 32 rfl rfl).symm ci) = ix2 ci q := by
    funext ax; apply Fin.ext
    match ax with
    | ⟨0, _⟩ => simp [DotDims.rhsIdx, dot_S32x32_S32x2048_S32x2048_1_0_0_1_n_n]; exact c2
    | ⟨1, _⟩ => simp [DotDims.rhsIdx, dot_S32x32_S32x2048_S32x2048_1_0_0_1_n_n]; rfl
  rw [l2, r2]
  refine congrArg (· * tap (ix2 ci q)) ?_
  exact shapeCast_apply w shapeCasts_S1x1x32x32_S32x32 (ix2 co ci) (ix4 (0 : Fin 1) (0 : Fin 1) co ci) (by
    rw [Shape.rowMajor_val_four, Shape.rowMajor_val_two]
    show ((0 * 1 + 0) * 32 + co.val) * 32 + ci.val = co.val * 32 + ci.val
    omega)

/-- The final map's product for one channel into a zero accumulator, read at (b, k): the sum over the 1024 lanes. -/
theorem fc_mm_apply (rows : FVec Ideal S2x1024 .f32) (W : FVec Ideal S1x128x1024 .f32) (b : Fin 2) (k : Fin 128) :
    matmul (F := Ideal) dot_S2x1024_S128x1024_S2x128_1_1_0_0_n_n none rows (shapeCast S128x1024 W shapeCasts_S1x128x1024_S128x1024)
      (constant S2x128 .f32 0x00000000#32) (ix2 b k) = ∑ p : Fin 1024, rows (ix2 b p) * W (ix3 0 k p) := by
  show FloatOps.matmul _ none rows _ (constant S2x128 .f32 0x00000000#32) (ix2 b k) = _
  rw [Ideal.matmul_constant_zero_apply,
    ← Equiv.sum_comp (contrEquiv1 dot_S2x1024_S128x1024_S2x128_1_1_0_0_n_n 1024 rfl rfl).symm]
  refine Finset.sum_congr rfl fun p _ => ?_
  have c2 := contrEquiv1_symm_val dot_S2x1024_S128x1024_S2x128_1_1_0_0_n_n 1024 rfl rfl p
  have l2 : dot_S2x1024_S128x1024_S2x128_1_1_0_0_n_n.lhsIdx (ix2 b k)
      ((contrEquiv1 dot_S2x1024_S128x1024_S2x128_1_1_0_0_n_n 1024 rfl rfl).symm p) = ix2 b p := by
    funext ax; apply Fin.ext
    match ax with
    | ⟨0, _⟩ => simp [DotDims.lhsIdx, dot_S2x1024_S128x1024_S2x128_1_1_0_0_n_n]; rfl
    | ⟨1, _⟩ => simp [DotDims.lhsIdx, dot_S2x1024_S128x1024_S2x128_1_1_0_0_n_n]; exact c2
  have r2 : dot_S2x1024_S128x1024_S2x128_1_1_0_0_n_n.rhsIdx (ix2 b k)
      ((contrEquiv1 dot_S2x1024_S128x1024_S2x128_1_1_0_0_n_n 1024 rfl rfl).symm p) = ix2 k p := by
    funext ax; apply Fin.ext
    match ax with
    | ⟨0, _⟩ => simp [DotDims.rhsIdx, dot_S2x1024_S128x1024_S2x128_1_1_0_0_n_n]; rfl
    | ⟨1, _⟩ => simp [DotDims.rhsIdx, dot_S2x1024_S128x1024_S2x128_1_1_0_0_n_n]; exact c2
  rw [l2, r2]
  refine congrArg (rows (ix2 b p) * ·) ?_
  exact shapeCast_1ab_ab_apply W shapeCasts_S1x128x1024_S128x1024 k p

/-! ## Loads off the whole input blocks -/

/-- The mask row as loaded. -/
theorem mask_read (arg2 : Memref sig .tc .vmem S1x2048 .f32) (harg2 : arg2.IsWhole) (x1 : Vec Ideal S1x2048 .f32)
    (inb : ∀ a, (![0, 0] : Fin 2 → ℕ) a + S1x2048.size a ≤ S1x2048.size a) (q : Fin 2048) :
    View.readAt (Elt Ideal) arg2.view (Rect.unit (s := S1x2048) ![0, 0] ![1, 2048] inb).toLoadRect (harg2.unread x1) (ix2 0 q)
      = x1 (ix2 0 q) := by
  rw [View.readAt_apply, harg2.read_unread]
  refine congrArg x1 (funext fun a => Fin.ext ?_)
  match a with
  | ⟨0, _⟩ => rfl
  | ⟨1, _⟩ => show 0 + 1 * q.val = q.val; omega

/-- The input row as loaded. -/
theorem x0_read (arg1 : Memref sig .tc .vmem S1x32x2048 .f32) (harg1 : arg1.IsWhole) (x0 : Vec Ideal S1x32x2048 .f32)
    (inb : ∀ a, (![0, 0, 0] : Fin 3 → ℕ) a + S1x32x2048.size a ≤ S1x32x2048.size a) (ci : Fin 32) (q : Fin 2048) :
    View.readAt (Elt Ideal) arg1.view (Rect.unit (s := S1x32x2048) ![0, 0, 0] ![1, 32, 2048] inb).toLoadRect (harg1.unread x0) (ix3 0 ci q)
      = x0 (ix3 0 ci q) := by
  rw [View.readAt_apply, harg1.read_unread]
  refine congrArg x0 (funext fun a => Fin.ext ?_)
  match a with
  | ⟨0, _⟩ => rfl
  | ⟨1, _⟩ => show 0 + 1 * ci.val = ci.val; omega
  | ⟨2, _⟩ => show 0 + 1 * q.val = q.val; omega

/-- One tap's weights as loaded: the (l, t) slice of the weights. -/
theorem w_read (arg3 : Memref sig .tc .vmem S5x9x32x32 .f32) (harg3 : arg3.IsWhole) (x2 : Vec Ideal S5x9x32x32 .f32)
    (l t : ℕ)
    (inb : ∀ a, (![l, t, 0, 0] : Fin 4 → ℕ) a + S1x1x32x32.size a ≤ S5x9x32x32.size a) (co ci : Fin 32) :
    View.readAt (Elt Ideal) arg3.view (Rect.unit (s := S5x9x32x32) ![l, t, 0, 0] ![1, 1, 32, 32] inb).toLoadRect (harg3.unread x2) (ix4 0 0 co ci)
      = x2 (ix4 ⟨l, (inb 0 : l + 1 ≤ 5)⟩ ⟨t, (inb 1 : t + 1 ≤ 9)⟩ co ci) := by
  rw [View.readAt_apply, harg3.read_unread]
  refine congrArg x2 (funext fun a => Fin.ext ?_)
  match a with
  | ⟨0, _⟩ => show l + 1 * 0 = l; omega
  | ⟨1, _⟩ => show t + 1 * 0 = t; omega
  | ⟨2, _⟩ => show 0 + 1 * co.val = co.val; omega
  | ⟨3, _⟩ => show 0 + 1 * ci.val = ci.val; omega

/-- One layer's bias column as loaded. -/
theorem b_read (arg4 : Memref sig .tc .vmem S5x32x1 .f32) (harg4 : arg4.IsWhole) (x3 : Vec Ideal S5x32x1 .f32)
    (l : ℕ)
    (inb : ∀ a, (![l, 0, 0] : Fin 3 → ℕ) a + S1x32x1.size a ≤ S5x32x1.size a) (co : Fin 32) :
    View.readAt (Elt Ideal) arg4.view (Rect.unit (s := S5x32x1) ![l, 0, 0] ![1, 32, 1] inb).toLoadRect (harg4.unread x3) (ix3 0 co 0)
      = x3 (ix3 ⟨l, (inb 0 : l + 1 ≤ 5)⟩ co 0) := by
  rw [View.readAt_apply, harg4.read_unread]
  refine congrArg x3 (funext fun a => Fin.ext ?_)
  match a with
  | ⟨0, _⟩ => show l + 1 * 0 = l; omega
  | ⟨1, _⟩ => show 0 + 1 * co.val = co.val; omega
  | ⟨2, _⟩ => rfl

/-- One channel's final weights as loaded. -/
theorem fcw_read (arg5 : Memref sig .tc .vmem S32x128x1024 .f32) (harg5 : arg5.IsWhole) (x4 : Vec Ideal S32x128x1024 .f32)
    (ch : ℕ)
    (inb : ∀ a, (![ch, 0, 0] : Fin 3 → ℕ) a + S1x128x1024.size a ≤ S32x128x1024.size a) (k : Fin 128) (p : Fin 1024) :
    View.readAt (Elt Ideal) arg5.view (Rect.unit (s := S32x128x1024) ![ch, 0, 0] ![1, 128, 1024] inb).toLoadRect (harg5.unread x4) (ix3 0 k p)
      = x4 (ix3 ⟨ch, (inb 0 : ch + 1 ≤ 32)⟩ k p) := by
  rw [View.readAt_apply, harg5.read_unread]
  refine congrArg x4 (funext fun a => Fin.ext ?_)
  match a with
  | ⟨0, _⟩ => show ch + 1 * 0 = ch; omega
  | ⟨1, _⟩ => show 0 + 1 * k.val = k.val; omega
  | ⟨2, _⟩ => show 0 + 1 * p.val = p.val; omega

/-- The final bias row as loaded. -/
theorem fcb_read (arg6 : Memref sig .tc .vmem S1x128 .f32) (harg6 : arg6.IsWhole) (x5 : Vec Ideal S1x128 .f32)
    (inb : ∀ a, (![0, 0] : Fin 2 → ℕ) a + S1x128.size a ≤ S1x128.size a) (k : Fin 128) :
    View.readAt (Elt Ideal) arg6.view (Rect.unit (s := S1x128) ![0, 0] ![1, 128] inb).toLoadRect (harg6.unread x5) (ix2 0 k)
      = x5 (ix2 0 k) := by
  rw [View.readAt_apply, harg6.read_unread]
  refine congrArg x5 (funext fun a => Fin.ext ?_)
  match a with
  | ⟨0, _⟩ => rfl
  | ⟨1, _⟩ => show 0 + 1 * k.val = k.val; omega

/-! ## The scratch row: margins of 32 zero lanes around the 2048 centre lanes -/

/-- Under a last store to the centre lanes, the scratch at lane 32 + q is the stored row at q. -/
theorem canon_centre (inb : ∀ a, (![0, 32] : Fin 2 → ℕ) a + S32x2048.size a ≤ S32x2112.size a)
    (P : FVec Ideal S32x2048 .f32) (L : List (View.Piece (Elt Ideal) S32x2112 .f32)) (ci : Fin 32) (q : Fin 2048)
    (j : Fin 2112) (hj : j.val = 32 + q.val) :
    View.canon (⟨Rect.unit (s := S32x2112) ![0, 32] S32x2048.size inb, P⟩ :: L) (ix2 ci j) = P (ix2 ci q) := by
  have e : (ix2 ci j : S32x2112.Idx) = (Rect.unit (s := S32x2112) ![0, 32] S32x2048.size inb).emb (ix2 ci q) := by
    funext a; apply Fin.ext
    match a with
    | ⟨0, _⟩ => show ci.val = 0 + 1 * ci.val; omega
    | ⟨1, _⟩ => show j.val = 32 + 1 * q.val; omega
  rw [e]; exact View.canon_cons_emb (Val := Elt Ideal) (e := EltTy.f32) (Rect.unit (s := S32x2112) ![0, 32] S32x2048.size inb) P L (ix2 ci q)

/-- Off the centre lanes a last store to the centre leaves what the earlier stores left. -/
theorem canon_off_centre (inb : ∀ a, (![0, 32] : Fin 2 → ℕ) a + S32x2048.size a ≤ S32x2112.size a)
    (P : FVec Ideal S32x2048 .f32) (L : List (View.Piece (Elt Ideal) S32x2112 .f32)) (ci : Fin 32)
    (j : Fin 2112) (hj : j.val < 32 ∨ 2080 ≤ j.val) :
    View.canon (⟨Rect.unit (s := S32x2112) ![0, 32] S32x2048.size inb, P⟩ :: L) (ix2 ci j) = View.canon L (ix2 ci j) := by
  refine View.canon_cons_of_not_mem _ L ?_
  intro hm
  have hm' : ix2 ci j ∈ (Rect.unit (s := S32x2112) ![0, 32] S32x2048.size inb).set := hm
  have h1 : 32 ≤ j.val ∧ j.val < 32 + 2048 := (Rect.mem_set_unit.mp hm') (1 : Fin 2)
  omega

/-- The left margin's stored value is zero. -/
theorem pay2_apply (i : S32x32.Idx) : k0_pay2 (F := Ideal) i = 0 := by
  simp only [k0_pay2, shapeCast_self, broadcast_apply]
  exact Ideal.ofBits_zero_f32

/-- The right margin's stored value is zero. -/
theorem pay3_apply (i : S32x32.Idx) : k0_pay3 (F := Ideal) i = 0 := by
  simp only [k0_pay3, shapeCast_self, broadcast_apply]
  exact Ideal.ofBits_zero_f32

/-- The two margin stores leave zeros on the margin lanes. -/
theorem canon_margins (inbR : ∀ a, (![0, 2080] : Fin 2 → ℕ) a + S32x32.size a ≤ S32x2112.size a)
    (inbL : ∀ a, (![0, 0] : Fin 2 → ℕ) a + S32x32.size a ≤ S32x2112.size a)
    (L : List (View.Piece (Elt Ideal) S32x2112 .f32)) (ci : Fin 32) (j : Fin 2112) (hj : j.val < 32 ∨ 2080 ≤ j.val) :
    View.canon (⟨Rect.unit (s := S32x2112) ![0, 2080] S32x32.size inbR, k0_pay3 (F := Ideal)⟩ ::
      ⟨Rect.unit (s := S32x2112) ![0, 0] S32x32.size inbL, k0_pay2 (F := Ideal)⟩ :: L) (ix2 ci j) = 0 := by
  rcases hj with hj | hj
  · rw [View.canon_cons_of_not_mem _ _ (fun hm => by
      have hm' : ix2 ci j ∈ (Rect.unit (s := S32x2112) ![0, 2080] S32x32.size inbR).set := hm
      have h1 : 2080 ≤ j.val ∧ j.val < 2080 + 32 := (Rect.mem_set_unit.mp hm') (1 : Fin 2)
      omega)]
    have e : (ix2 ci j : S32x2112.Idx) = (Rect.unit (s := S32x2112) ![0, 0] S32x32.size inbL).emb (ix2 ci ⟨j.val, hj⟩) := by
      funext a; apply Fin.ext
      match a with
      | ⟨0, _⟩ => show ci.val = 0 + 1 * ci.val; omega
      | ⟨1, _⟩ => show j.val = 0 + 1 * j.val; omega
    rw [e]; exact (View.canon_cons_emb (Val := Elt Ideal) (e := EltTy.f32) (Rect.unit (s := S32x2112) ![0, 0] S32x32.size inbL) (k0_pay2 (F := Ideal)) L (ix2 ci ⟨j.val, hj⟩)).trans (pay2_apply _)
  · have e : (ix2 ci j : S32x2112.Idx) = (Rect.unit (s := S32x2112) ![0, 2080] S32x32.size inbR).emb
        (ix2 ci ⟨j.val - 2080, by have := j.isLt; omega⟩) := by
      funext a; apply Fin.ext
      match a with
      | ⟨0, _⟩ => show ci.val = 0 + 1 * ci.val; omega
      | ⟨1, _⟩ => show j.val = 2080 + 1 * (j.val - 2080); omega
    rw [e]; exact (View.canon_cons_emb (Val := Elt Ideal) (e := EltTy.f32) (Rect.unit (s := S32x2112) ![0, 2080] S32x32.size inbR) (k0_pay3 (F := Ideal)) _ (ix2 ci ⟨j.val - 2080, by have := j.isLt; omega⟩)).trans (pay3_apply _)

/-- A load of the scratch at lane offset s after stores that left row A around the centre: the row shifted by s - 32. -/
theorem tap_read (arg8 : Memref sig .tc .vmem S32x2112 .f32) (L : List (View.Piece (Elt Ideal) S32x2112 .f32))
    (A : Fin 32 → ℤ → EReal) (hL : ∀ (ci : Fin 32) (j : Fin 2112), View.canon L (ix2 ci j) = A ci ((j.val : ℤ) - 32))
    (s : ℕ) (inb : ∀ a, (![0, s] : Fin 2 → ℕ) a + S32x2048.size a ≤ S32x2112.size a) (ci : Fin 32) (q : Fin 2048)
    (d : ℤ) (hd : (s : ℤ) = 32 + d) :
    arg8.view.readCov L (Rect.unit (s := S32x2112) ![0, s] S32x2048.size inb).toLoadRect (ix2 ci q) = A ci ((q.val : ℤ) + d) := by
  have hs : s + 2048 ≤ 2112 := inb (1 : Fin 2)
  have e : (Rect.unit (s := S32x2112) ![0, s] S32x2048.size inb).toLoadRect.idx (ix2 ci q)
      = ix2 ci (⟨s + q.val, by have := q.isLt; omega⟩ : Fin 2112) := by
    funext a; apply Fin.ext
    match a with
    | ⟨0, _⟩ => show 0 + 1 * ci.val = ci.val; omega
    | ⟨1, _⟩ => show s + 1 * q.val = s + q.val; omega
  rw [View.readCov_eq_canon']
  refine (congrArg (View.canon L) e).trans ?_
  rw [hL]
  refine congrArg (A ci) ?_
  show ((s + q.val : ℕ) : ℤ) - 32 = (q.val : ℤ) + d
  omega

/-! ## One layer closed against its specification -/

/-- A sum over nine taps, written out in tap order. -/
theorem sum9 (f : Fin 9 → EReal) : ∑ t, f t = f 0 + f 1 + f 2 + f 3 + f 4 + f 5 + f 6 + f 7 + f 8 := by
  rw [Fin.sum_univ_castSucc, Fin.sum_univ_eight]; rfl

/-- Nine tap sums accumulated one after the other, the bias, the positive part, the mask: the layer at (co, q). -/
theorem layer_close (w : Fin 9 → Fin 32 → Fin 32 → EReal) (b : Fin 32 → EReal) (mk : ℤ → EReal) (X : Fin 32 → ℤ → EReal)
    (co : Fin 32) (q : Fin 2048) (M0 M1 M2 M3 M4 M5 M6 M7 M8 bb z mm : EReal)
    (h0 : M0 = ∑ ci : Fin 32, w 0 co ci * X ci ((q.val : ℤ) + Cert.Spec.off 0))
    (h1 : M1 = ∑ ci : Fin 32, w 1 co ci * X ci ((q.val : ℤ) + Cert.Spec.off 1))
    (h2 : M2 = ∑ ci : Fin 32, w 2 co ci * X ci ((q.val : ℤ) + Cert.Spec.off 2))
    (h3 : M3 = ∑ ci : Fin 32, w 3 co ci * X ci ((q.val : ℤ) + Cert.Spec.off 3))
    (h4 : M4 = ∑ ci : Fin 32, w 4 co ci * X ci ((q.val : ℤ) + Cert.Spec.off 4))
    (h5 : M5 = ∑ ci : Fin 32, w 5 co ci * X ci ((q.val : ℤ) + Cert.Spec.off 5))
    (h6 : M6 = ∑ ci : Fin 32, w 6 co ci * X ci ((q.val : ℤ) + Cert.Spec.off 6))
    (h7 : M7 = ∑ ci : Fin 32, w 7 co ci * X ci ((q.val : ℤ) + Cert.Spec.off 7))
    (h8 : M8 = ∑ ci : Fin 32, w 8 co ci * X ci ((q.val : ℤ) + Cert.Spec.off 8))
    (hb : bb = b co) (hz : z = 0) (hm : mm = mk (q.val : ℤ)) :
    max (M0 + M1 + M2 + M3 + M4 + M5 + M6 + M7 + M8 + bb) z * mm = Cert.Spec.layerW 2048 w b mk X co (q.val : ℤ) := by
  subst h0 h1 h2 h3 h4 h5 h6 h7 h8 hb hz hm
  unfold Cert.Spec.layerW
  rw [if_pos ⟨by omega, by have := q.isLt; omega⟩, sum9]

/-- The bias column broadcast along the lanes. -/
theorem bias_bcast (v : FVec Ideal S1x32x1 .f32) (co : Fin 32) (q : Fin 2048) :
    broadcastTo S32x2048 (shapeCast S32x1 v shapeCasts_S1x32x1_S32x1) broadcasts_S32x1_S32x2048 (ix2 co q)
      = v (ix3 0 co 0) := by
  refine (broadcastTo_apply _ broadcasts_S32x1_S32x2048 (ix2 co q) (ix2 co (0 : Fin 1)) fun ax => ?_).trans ?_
  · match ax with
    | ⟨0, _⟩ => rfl
    | ⟨1, _⟩ => rfl
  · exact shapeCast_1ab_ab_apply v shapeCasts_S1x32x1_S32x1 co 0

/-- The mask row broadcast along the channels. -/
theorem mask_bcast (v : FVec Ideal S1x2048 .f32) (co : Fin 32) (q : Fin 2048) :
    broadcastTo S32x2048 v broadcasts_S1x2048_S32x2048 (ix2 co q) = v (ix2 0 q) :=
  broadcastTo_1b_ab_apply v broadcasts_S1x2048_S32x2048 co q

/-- A store of row A to the centre over zero margins: the scratch reads A shifted by 32 (A zero off its 2048 lanes),
    and the margins stay zero. -/
theorem scr_step (inb : ∀ a, (![0, 32] : Fin 2 → ℕ) a + S32x2048.size a ≤ S32x2112.size a)
    (P : FVec Ideal S32x2048 .f32) (L : List (View.Piece (Elt Ideal) S32x2112 .f32)) (A : Fin 32 → ℤ → EReal)
    (hP : ∀ (ci : Fin 32) (q : Fin 2048), P (ix2 ci q) = A ci (q.val : ℤ))
    (hA : ∀ (ci : Fin 32) (z : ℤ), ¬(0 ≤ z ∧ z < 2048) → A ci z = 0)
    (hL : ∀ (ci : Fin 32) (j : Fin 2112), (j.val < 32 ∨ 2080 ≤ j.val) → View.canon L (ix2 ci j) = 0) :
    (∀ (ci : Fin 32) (j : Fin 2112),
        View.canon (⟨Rect.unit (s := S32x2112) ![0, 32] S32x2048.size inb, P⟩ :: L) (ix2 ci j) = A ci ((j.val : ℤ) - 32))
      ∧ (∀ (ci : Fin 32) (j : Fin 2112), (j.val < 32 ∨ 2080 ≤ j.val) →
        View.canon (⟨Rect.unit (s := S32x2112) ![0, 32] S32x2048.size inb, P⟩ :: L) (ix2 ci j) = 0) := by
  refine ⟨fun ci j => ?_, fun ci j hj => (canon_off_centre inb P L ci j hj).trans (hL ci j hj)⟩
  by_cases h : 32 ≤ j.val ∧ j.val < 2080
  · rw [canon_centre inb P L ci ⟨j.val - 32, by omega⟩ j (by show j.val = 32 + (j.val - 32); omega), hP]
    refine congrArg (A ci) ?_
    show ((j.val - 32 : ℕ) : ℤ) = (j.val : ℤ) - 32
    omega
  · have hj : j.val < 32 ∨ 2080 ≤ j.val := by omega
    rw [canon_off_centre inb P L ci j hj, hL ci j hj]
    exact (hA ci _ (by omega)).symm

/-- The two lane slices of channel ch laid on two rows: row b, lane p is channel ch at lane b * 1024 + p. -/
theorem rows_apply (a : FVec Ideal S32x2048 .f32) (ch : ℕ) (h0 : S32x2048.Slices ![ch, 0] S1x1024)
    (h1 : S32x2048.Slices ![ch, 1024] S1x1024) (b : Fin 2) (p : Fin 1024) :
    concatenate S2x1024 0 [⟨S1x1024, extractStridedSlice S1x1024 ![ch, 0] a h0⟩,
        ⟨S1x1024, extractStridedSlice S1x1024 ![ch, 1024] a h1⟩] concatenates_S1x1024_S1x1024_S2x1024_d0 (ix2 b p)
      = a (ix2 ⟨ch, (h0.2 0 : ch + 1 ≤ 32)⟩ ⟨b.val * 1024 + p.val, by have := b.isLt; have := p.isLt; omega⟩) := by
  match b with
  | ⟨0, hb⟩ =>
    refine (concatenate_pair_apply_left (t := S2x1024) (s₁ := S1x1024) (s₂ := S1x1024) (0 : Fin 2)
      (extractStridedSlice S1x1024 ![ch, 0] a h0) (extractStridedSlice S1x1024 ![ch, 1024] a h1)
      concatenates_S1x1024_S1x1024_S2x1024_d0 (ix2 (⟨0, hb⟩ : Fin 2) p) rfl
      (ix2 (0 : Fin 1) p) (fun ax => ?_)).trans ?_
    · match ax with
      | ⟨0, _⟩ => rfl
      | ⟨1, _⟩ => rfl
    · refine extractStridedSlice_apply _ a h0 (ix2 (0 : Fin 1) p) _ (fun ax => ?_)
      match ax with
      | ⟨0, _⟩ => show ch = ch + 0; omega
      | ⟨1, _⟩ => show 0 * 1024 + p.val = 0 + p.val; omega
  | ⟨1, hb⟩ =>
    refine (concatenate_pair_apply_right (t := S2x1024) (s₁ := S1x1024) (s₂ := S1x1024) (0 : Fin 2)
      (extractStridedSlice S1x1024 ![ch, 0] a h0) (extractStridedSlice S1x1024 ![ch, 1024] a h1)
      concatenates_S1x1024_S1x1024_S2x1024_d0 (ix2 (⟨1, hb⟩ : Fin 2) p) rfl rfl
      (ix2 (0 : Fin 1) p) (fun ax hax => ?_) rfl).trans ?_
    · match ax with
      | ⟨0, _⟩ => exact absurd rfl hax
      | ⟨1, _⟩ => rfl
    · refine extractStridedSlice_apply _ a h1 (ix2 (0 : Fin 1) p) _ (fun ax => ?_)
      match ax with
      | ⟨0, _⟩ => show ch = ch + 0; omega
      | ⟨1, _⟩ => show 1 * 1024 + p.val = 1024 + p.val; omega

/-- One channel's term of the final map: its two lane slices against its loaded weights, read at (b, k). -/
theorem fc_term (a : FVec Ideal S32x2048 .f32) (W : FVec Ideal S1x128x1024 .f32) (ch : ℕ)
    (h0 : S32x2048.Slices ![ch, 0] S1x1024) (h1 : S32x2048.Slices ![ch, 1024] S1x1024) (b : Fin 2) (k : Fin 128) :
    matmul (F := Ideal) dot_S2x1024_S128x1024_S2x128_1_1_0_0_n_n none
        (concatenate S2x1024 0 [⟨S1x1024, extractStridedSlice S1x1024 ![ch, 0] a h0⟩,
          ⟨S1x1024, extractStridedSlice S1x1024 ![ch, 1024] a h1⟩] concatenates_S1x1024_S1x1024_S2x1024_d0)
        (shapeCast S128x1024 W shapeCasts_S1x128x1024_S128x1024) (constant S2x128 .f32 0x00000000#32) (ix2 b k)
      = ∑ p : Fin 1024, a (ix2 ⟨ch, (h0.2 0 : ch + 1 ≤ 32)⟩
          ⟨b.val * 1024 + p.val, by have := b.isLt; have := p.isLt; omega⟩) * W (ix3 0 k p) := by
  rw [fc_mm_apply]
  exact Finset.sum_congr rfl fun p _ => congrArg (· * W (ix3 0 k p)) (rows_apply a ch h0 h1 b p)

/-! ## The run, layer by layer -/

/-- The input row as stored to the centre. -/
theorem pay4_apply (v : FVec Ideal S1x32x2048 .f32) (ci : Fin 32) (q : Fin 2048) :
    k0_pay4 (F := Ideal) v (ix2 ci q) = v (ix3 0 ci q) := by
  simp only [k0_pay4, shapeCast_self]
  exact shapeCast_1ab_ab_apply v shapeCasts_S1x32x2048_S32x2048 ci q

/-- The row after layer 0. -/
abbrev R1 (x0 : Vec Ideal S1x32x2048 .f32) (x1 : Vec Ideal S1x2048 .f32) (x2 : Vec Ideal S5x9x32x32 .f32) (x3 : Vec Ideal S5x32x1 .f32) :
    Fin 32 → ℤ → EReal :=
  Cert.Spec.layerW 2048 (Cert.Spec.wOf x2 0) (Cert.Spec.bOf x3 0) (rMask x1) (rX x0)
/-- The row after layer 1. -/
abbrev R2 (x0 : Vec Ideal S1x32x2048 .f32) (x1 : Vec Ideal S1x2048 .f32) (x2 : Vec Ideal S5x9x32x32 .f32) (x3 : Vec Ideal S5x32x1 .f32) :
    Fin 32 → ℤ → EReal :=
  Cert.Spec.layerW 2048 (Cert.Spec.wOf x2 1) (Cert.Spec.bOf x3 1) (rMask x1) (R1 x0 x1 x2 x3)
/-- The row after layer 2. -/
abbrev R3 (x0 : Vec Ideal S1x32x2048 .f32) (x1 : Vec Ideal S1x2048 .f32) (x2 : Vec Ideal S5x9x32x32 .f32) (x3 : Vec Ideal S5x32x1 .f32) :
    Fin 32 → ℤ → EReal :=
  Cert.Spec.layerW 2048 (Cert.Spec.wOf x2 2) (Cert.Spec.bOf x3 2) (rMask x1) (R2 x0 x1 x2 x3)
/-- The row after layer 3. -/
abbrev R4 (x0 : Vec Ideal S1x32x2048 .f32) (x1 : Vec Ideal S1x2048 .f32) (x2 : Vec Ideal S5x9x32x32 .f32) (x3 : Vec Ideal S5x32x1 .f32) :
    Fin 32 → ℤ → EReal :=
  Cert.Spec.layerW 2048 (Cert.Spec.wOf x2 3) (Cert.Spec.bOf x3 3) (rMask x1) (R3 x0 x1 x2 x3)

section Run

variable (c : Dev nD) (arg1 : Memref sig .tc .vmem S1x32x2048 .f32) (harg1 : arg1.IsWhole)
  (arg2 : Memref sig .tc .vmem S1x2048 .f32) (harg2 : arg2.IsWhole) (arg3 : Memref sig .tc .vmem S5x9x32x32 .f32) (harg3 : arg3.IsWhole)
  (arg4 : Memref sig .tc .vmem S5x32x1 .f32) (harg4 : arg4.IsWhole) (arg5 : Memref sig .tc .vmem S32x128x1024 .f32) (harg5 : arg5.IsWhole)
  (arg8 : Memref sig .tc .vmem S32x2112 .f32)
  (x0 : Vec Ideal S1x32x2048 .f32) (x1 : Vec Ideal S1x2048 .f32) (x2 : Vec Ideal S5x9x32x32 .f32) (x3 : Vec Ideal S5x32x1 .f32)
  (x4 : Vec Ideal S32x128x1024 .f32)

/-- After the margin stores and the input's store the scratch reads the input row around lane 32. -/
theorem scr3 :
    (∀ (ci : Fin 32) (j : Fin 2112), View.canon (kernelRun0_A.sl.HS0_3 (F := Ideal) c arg1 harg1 x0) (ix2 ci j)
        = rX x0 ci ((j.val : ℤ) - 32))
      ∧ (∀ (ci : Fin 32) (j : Fin 2112), (j.val < 32 ∨ 2080 ≤ j.val) →
        View.canon (kernelRun0_A.sl.HS0_3 (F := Ideal) c arg1 harg1 x0) (ix2 ci j) = 0) := by
  unfold kernelRun0_A.sl.HS0_3
  refine scr_step _ _ _ (rX x0) (fun ci q => ?_) (fun ci z h => Cert.Spec.ext1_of_not_mem _ z h)
    (fun ci j hj => canon_margins _ _ [] ci j hj)
  rw [pay4_apply, x0_read]
  exact (Cert.Spec.ext1_of_mem (fun q : Fin 2048 => x0 (ix3 0 ci q)) q).symm

/-- After layer 0's store the scratch reads layer 0's row around lane 32. -/
theorem scr4 :
    (∀ (ci : Fin 32) (j : Fin 2112), View.canon (kernelRun0_A.sl.HS0_4 (F := Ideal) c arg1 harg1 arg2 harg2 arg3 harg3 arg4 harg4 arg8 x0 x1 x2 x3) (ix2 ci j)
        = R1 x0 x1 x2 x3 ci ((j.val : ℤ) - 32))
      ∧ (∀ (ci : Fin 32) (j : Fin 2112), (j.val < 32 ∨ 2080 ≤ j.val) →
        View.canon (kernelRun0_A.sl.HS0_4 (F := Ideal) c arg1 harg1 arg2 harg2 arg3 harg3 arg4 harg4 arg8 x0 x1 x2 x3) (ix2 ci j) = 0) := by
  unfold kernelRun0_A.sl.HS0_4
  refine scr_step _ _ _ (R1 x0 x1 x2 x3) (fun co q => ?_) (fun ci z h => Cert.Spec.layerW_off_row _ _ _ _ _ ci z h)
    (scr3 c arg1 harg1 x0).2
  simp only [k0_pay7, kernelRun0_A.sl.r_2, k0_pay6, kernelRun0_A.sl.r_1, k0_pay5, kernelRun0_A.sl.r, shapeCast_self, addf_apply,
    mulf_apply, maximumf_apply, mm_apply, broadcast_apply, bias_bcast, mask_bcast, w_read, b_read, mask_read]
  refine layer_close _ _ _ _ co q _ _ _ _ _ _ _ _ _ _ _ _ ?_ ?_ ?_ ?_ ?_ ?_ ?_ ?_ ?_ rfl Ideal.ofBits_zero_f32
    (Cert.Spec.ext1_of_mem (fun q : Fin 2048 => x1 (ix2 0 q)) q).symm <;>
  exact Finset.sum_congr rfl fun ci _ => congrArg₂ (· * ·) rfl
    (tap_read arg8 _ _ (scr3 c arg1 harg1 x0).1 _ _ ci q _ (by decide))

/-- After layer 1's store the scratch reads layer 1's row around lane 32. -/
theorem scr5 :
    (∀ (ci : Fin 32) (j : Fin 2112), View.canon (kernelRun0_A.sl.HS0_5 (F := Ideal) c arg1 harg1 arg2 harg2 arg3 harg3 arg4 harg4 arg8 x0 x1 x2 x3) (ix2 ci j)
        = R2 x0 x1 x2 x3 ci ((j.val : ℤ) - 32))
      ∧ (∀ (ci : Fin 32) (j : Fin 2112), (j.val < 32 ∨ 2080 ≤ j.val) →
        View.canon (kernelRun0_A.sl.HS0_5 (F := Ideal) c arg1 harg1 arg2 harg2 arg3 harg3 arg4 harg4 arg8 x0 x1 x2 x3) (ix2 ci j) = 0) := by
  unfold kernelRun0_A.sl.HS0_5
  refine scr_step _ _ _ (R2 x0 x1 x2 x3) (fun co q => ?_) (fun ci z h => Cert.Spec.layerW_off_row _ _ _ _ _ ci z h)
    (scr4 c arg1 harg1 arg2 harg2 arg3 harg3 arg4 harg4 arg8 x0 x1 x2 x3).2
  simp only [k0_pay10, kernelRun0_A.sl.r_4, k0_pay9, kernelRun0_A.sl.r_3, k0_pay8, kernelRun0_A.sl.r, shapeCast_self, addf_apply,
    mulf_apply, maximumf_apply, mm_apply, broadcast_apply, bias_bcast, mask_bcast, w_read, b_read, mask_read]
  refine layer_close _ _ _ _ co q _ _ _ _ _ _ _ _ _ _ _ _ ?_ ?_ ?_ ?_ ?_ ?_ ?_ ?_ ?_ rfl Ideal.ofBits_zero_f32
    (Cert.Spec.ext1_of_mem (fun q : Fin 2048 => x1 (ix2 0 q)) q).symm <;>
  exact Finset.sum_congr rfl fun ci _ => congrArg₂ (· * ·) rfl
    (tap_read arg8 _ _ (scr4 c arg1 harg1 arg2 harg2 arg3 harg3 arg4 harg4 arg8 x0 x1 x2 x3).1 _ _ ci q _ (by decide))

/-- After layer 2's store the scratch reads layer 2's row around lane 32. -/
theorem scr6 :
    (∀ (ci : Fin 32) (j : Fin 2112), View.canon (kernelRun0_A.sl.HS0_6 (F := Ideal) c arg1 harg1 arg2 harg2 arg3 harg3 arg4 harg4 arg8 x0 x1 x2 x3) (ix2 ci j)
        = R3 x0 x1 x2 x3 ci ((j.val : ℤ) - 32))
      ∧ (∀ (ci : Fin 32) (j : Fin 2112), (j.val < 32 ∨ 2080 ≤ j.val) →
        View.canon (kernelRun0_A.sl.HS0_6 (F := Ideal) c arg1 harg1 arg2 harg2 arg3 harg3 arg4 harg4 arg8 x0 x1 x2 x3) (ix2 ci j) = 0) := by
  unfold kernelRun0_A.sl.HS0_6
  refine scr_step _ _ _ (R3 x0 x1 x2 x3) (fun co q => ?_) (fun ci z h => Cert.Spec.layerW_off_row _ _ _ _ _ ci z h)
    (scr5 c arg1 harg1 arg2 harg2 arg3 harg3 arg4 harg4 arg8 x0 x1 x2 x3).2
  simp only [k0_pay13, kernelRun0_A.sl.r_7, k0_pay12, kernelRun0_A.sl.r_5, k0_pay11, kernelRun0_A.sl.r_6, kernelRun0_A.sl.r_8, kernelRun0_A.sl.r, shapeCast_self, addf_apply,
    mulf_apply, maximumf_apply, mm_apply, broadcast_apply, bias_bcast, mask_bcast, w_read, b_read, mask_read]
  refine layer_close _ _ _ _ co q _ _ _ _ _ _ _ _ _ _ _ _ ?_ ?_ ?_ ?_ ?_ ?_ ?_ ?_ ?_ rfl Ideal.ofBits_zero_f32
    (Cert.Spec.ext1_of_mem (fun q : Fin 2048 => x1 (ix2 0 q)) q).symm <;>
  exact Finset.sum_congr rfl fun ci _ => congrArg₂ (· * ·) rfl
    (tap_read arg8 _ _ (scr5 c arg1 harg1 arg2 harg2 arg3 harg3 arg4 harg4 arg8 x0 x1 x2 x3).1 _ _ ci q _ (by decide))

/-- After layer 3's store the scratch reads layer 3's row around lane 32. -/
theorem scr7 :
    (∀ (ci : Fin 32) (j : Fin 2112), View.canon (kernelRun0_A.sl.HS0_7 (F := Ideal) c arg1 harg1 arg2 harg2 arg3 harg3 arg4 harg4 arg8 x0 x1 x2 x3) (ix2 ci j)
        = R4 x0 x1 x2 x3 ci ((j.val : ℤ) - 32))
      ∧ (∀ (ci : Fin 32) (j : Fin 2112), (j.val < 32 ∨ 2080 ≤ j.val) →
        View.canon (kernelRun0_A.sl.HS0_7 (F := Ideal) c arg1 harg1 arg2 harg2 arg3 harg3 arg4 harg4 arg8 x0 x1 x2 x3) (ix2 ci j) = 0) := by
  unfold kernelRun0_A.sl.HS0_7
  refine scr_step _ _ _ (R4 x0 x1 x2 x3) (fun co q => ?_) (fun ci z h => Cert.Spec.layerW_off_row _ _ _ _ _ ci z h)
    (scr6 c arg1 harg1 arg2 harg2 arg3 harg3 arg4 harg4 arg8 x0 x1 x2 x3).2
  simp only [k0_pay16, kernelRun0_A.sl.r_10, k0_pay15, kernelRun0_A.sl.r_9, k0_pay14, kernelRun0_A.sl.r, shapeCast_self, addf_apply,
    mulf_apply, maximumf_apply, mm_apply, broadcast_apply, bias_bcast, mask_bcast, w_read, b_read, mask_read]
  refine layer_close _ _ _ _ co q _ _ _ _ _ _ _ _ _ _ _ _ ?_ ?_ ?_ ?_ ?_ ?_ ?_ ?_ ?_ rfl Ideal.ofBits_zero_f32
    (Cert.Spec.ext1_of_mem (fun q : Fin 2048 => x1 (ix2 0 q)) q).symm <;>
  exact Finset.sum_congr rfl fun ci _ => congrArg₂ (· * ·) rfl
    (tap_read arg8 _ _ (scr6 c arg1 harg1 arg2 harg2 arg3 harg3 arg4 harg4 arg8 x0 x1 x2 x3).1 _ _ ci q _ (by decide))

/-- Layer 4's value (it is not stored back): the five layers on the row. -/
theorem val4 (co : Fin 32) (q : Fin 2048) :
    kernelRun0_A.sl.r_14 (F := Ideal) c arg1 harg1 arg2 harg2 arg3 harg3 arg4 harg4 arg8 x0 x1 x2 x3 (ix2 co q)
      = Cert.Spec.netW 2048 (Cert.Spec.wOf x2) (Cert.Spec.bOf x3) (rMask x1) (rX x0) co (q.val : ℤ) := by
  show _ = Cert.Spec.layerW 2048 (Cert.Spec.wOf x2 4) (Cert.Spec.bOf x3 4) (rMask x1) (R4 x0 x1 x2 x3) co (q.val : ℤ)
  simp only [kernelRun0_A.sl.r_14, k0_pay20, kernelRun0_A.sl.r_12, k0_pay18, kernelRun0_A.sl.r_11, k0_pay17, kernelRun0_A.sl.r_13,
    k0_pay19, kernelRun0_A.sl.cst_313, kernelRun0_A.sl.r, shapeCast_self, addf_apply,
    mulf_apply, maximumf_apply, mm_apply, broadcast_apply, bias_bcast, mask_bcast, w_read, b_read, mask_read]
  refine layer_close _ _ _ _ co q _ _ _ _ _ _ _ _ _ _ _ _ ?_ ?_ ?_ ?_ ?_ ?_ ?_ ?_ ?_ rfl Ideal.ofBits_zero_f32
    (Cert.Spec.ext1_of_mem (fun q : Fin 2048 => x1 (ix2 0 q)) q).symm <;>
  exact Finset.sum_congr rfl fun ci _ => congrArg₂ (· * ·) rfl
    (tap_read arg8 _ _ (scr7 c arg1 harg1 arg2 harg2 arg3 harg3 arg4 harg4 arg8 x0 x1 x2 x3).1 _ _ ci q _ (by decide))

end Run

/-! ## The final map: 32 channels accumulated one after the other from zero -/

/-- A sum over 32 channels, written out in channel order from zero. -/
theorem sum32 (f : Fin 32 → EReal) : ∑ ch, f ch = 0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 := by
  simp only [Fin.sum_univ_castSucc, Fin.sum_univ_zero]
  rfl

/-- The activation row read at lane b * 1024 + p. -/
theorem act_at (a : FVec Ideal S32x2048 .f32) (N : Fin 32 → ℤ → EReal)
    (hS : ∀ (co : Fin 32) (q : Fin 2048), a (ix2 co q) = N co (q.val : ℤ)) (ch : Fin 32) (b : Fin 2) (p : Fin 1024)
    (h : b.val * 1024 + p.val < 2048) :
    a (ix2 ch ⟨b.val * 1024 + p.val, h⟩) = N ch ((b.val : ℤ) * 1024 + (p.val : ℤ)) := by
  rw [hS]
  refine congrArg (N ch) ?_
  show ((b.val * 1024 + p.val : ℕ) : ℤ) = (b.val : ℤ) * 1024 + (p.val : ℤ)
  omega

/-- The 32 channel terms accumulated from zero, plus the bias: the score. -/
theorem fc_close (N : Fin 32 → ℤ → EReal) (x4 : Vec Ideal S32x128x1024 .f32) (b : Fin 2) (k : Fin 128) (z bias bb : EReal)
    (T0 T1 T2 T3 T4 T5 T6 T7 T8 T9 T10 T11 T12 T13 T14 T15 T16 T17 T18 T19 T20 T21 T22 T23 T24 T25 T26 T27 T28 T29 T30 T31 : EReal)
    (h0 : T0 = ∑ p : Fin 1024, N 0 ((b.val : ℤ) * 1024 + (p.val : ℤ)) * x4 (ix3 0 k p))
    (h1 : T1 = ∑ p : Fin 1024, N 1 ((b.val : ℤ) * 1024 + (p.val : ℤ)) * x4 (ix3 1 k p))
    (h2 : T2 = ∑ p : Fin 1024, N 2 ((b.val : ℤ) * 1024 + (p.val : ℤ)) * x4 (ix3 2 k p))
    (h3 : T3 = ∑ p : Fin 1024, N 3 ((b.val : ℤ) * 1024 + (p.val : ℤ)) * x4 (ix3 3 k p))
    (h4 : T4 = ∑ p : Fin 1024, N 4 ((b.val : ℤ) * 1024 + (p.val : ℤ)) * x4 (ix3 4 k p))
    (h5 : T5 = ∑ p : Fin 1024, N 5 ((b.val : ℤ) * 1024 + (p.val : ℤ)) * x4 (ix3 5 k p))
    (h6 : T6 = ∑ p : Fin 1024, N 6 ((b.val : ℤ) * 1024 + (p.val : ℤ)) * x4 (ix3 6 k p))
    (h7 : T7 = ∑ p : Fin 1024, N 7 ((b.val : ℤ) * 1024 + (p.val : ℤ)) * x4 (ix3 7 k p))
    (h8 : T8 = ∑ p : Fin 1024, N 8 ((b.val : ℤ) * 1024 + (p.val : ℤ)) * x4 (ix3 8 k p))
    (h9 : T9 = ∑ p : Fin 1024, N 9 ((b.val : ℤ) * 1024 + (p.val : ℤ)) * x4 (ix3 9 k p))
    (h10 : T10 = ∑ p : Fin 1024, N 10 ((b.val : ℤ) * 1024 + (p.val : ℤ)) * x4 (ix3 10 k p))
    (h11 : T11 = ∑ p : Fin 1024, N 11 ((b.val : ℤ) * 1024 + (p.val : ℤ)) * x4 (ix3 11 k p))
    (h12 : T12 = ∑ p : Fin 1024, N 12 ((b.val : ℤ) * 1024 + (p.val : ℤ)) * x4 (ix3 12 k p))
    (h13 : T13 = ∑ p : Fin 1024, N 13 ((b.val : ℤ) * 1024 + (p.val : ℤ)) * x4 (ix3 13 k p))
    (h14 : T14 = ∑ p : Fin 1024, N 14 ((b.val : ℤ) * 1024 + (p.val : ℤ)) * x4 (ix3 14 k p))
    (h15 : T15 = ∑ p : Fin 1024, N 15 ((b.val : ℤ) * 1024 + (p.val : ℤ)) * x4 (ix3 15 k p))
    (h16 : T16 = ∑ p : Fin 1024, N 16 ((b.val : ℤ) * 1024 + (p.val : ℤ)) * x4 (ix3 16 k p))
    (h17 : T17 = ∑ p : Fin 1024, N 17 ((b.val : ℤ) * 1024 + (p.val : ℤ)) * x4 (ix3 17 k p))
    (h18 : T18 = ∑ p : Fin 1024, N 18 ((b.val : ℤ) * 1024 + (p.val : ℤ)) * x4 (ix3 18 k p))
    (h19 : T19 = ∑ p : Fin 1024, N 19 ((b.val : ℤ) * 1024 + (p.val : ℤ)) * x4 (ix3 19 k p))
    (h20 : T20 = ∑ p : Fin 1024, N 20 ((b.val : ℤ) * 1024 + (p.val : ℤ)) * x4 (ix3 20 k p))
    (h21 : T21 = ∑ p : Fin 1024, N 21 ((b.val : ℤ) * 1024 + (p.val : ℤ)) * x4 (ix3 21 k p))
    (h22 : T22 = ∑ p : Fin 1024, N 22 ((b.val : ℤ) * 1024 + (p.val : ℤ)) * x4 (ix3 22 k p))
    (h23 : T23 = ∑ p : Fin 1024, N 23 ((b.val : ℤ) * 1024 + (p.val : ℤ)) * x4 (ix3 23 k p))
    (h24 : T24 = ∑ p : Fin 1024, N 24 ((b.val : ℤ) * 1024 + (p.val : ℤ)) * x4 (ix3 24 k p))
    (h25 : T25 = ∑ p : Fin 1024, N 25 ((b.val : ℤ) * 1024 + (p.val : ℤ)) * x4 (ix3 25 k p))
    (h26 : T26 = ∑ p : Fin 1024, N 26 ((b.val : ℤ) * 1024 + (p.val : ℤ)) * x4 (ix3 26 k p))
    (h27 : T27 = ∑ p : Fin 1024, N 27 ((b.val : ℤ) * 1024 + (p.val : ℤ)) * x4 (ix3 27 k p))
    (h28 : T28 = ∑ p : Fin 1024, N 28 ((b.val : ℤ) * 1024 + (p.val : ℤ)) * x4 (ix3 28 k p))
    (h29 : T29 = ∑ p : Fin 1024, N 29 ((b.val : ℤ) * 1024 + (p.val : ℤ)) * x4 (ix3 29 k p))
    (h30 : T30 = ∑ p : Fin 1024, N 30 ((b.val : ℤ) * 1024 + (p.val : ℤ)) * x4 (ix3 30 k p))
    (h31 : T31 = ∑ p : Fin 1024, N 31 ((b.val : ℤ) * 1024 + (p.val : ℤ)) * x4 (ix3 31 k p))
    (hz : z = 0) (hb : bb = bias) :
    z + T0 + T1 + T2 + T3 + T4 + T5 + T6 + T7 + T8 + T9 + T10 + T11 + T12 + T13 + T14 + T15 + T16 + T17 + T18 + T19 + T20 + T21 + T22 + T23 + T24 + T25 + T26 + T27 + T28 + T29 + T30 + T31 + bb
      = (∑ ch : Fin 32, ∑ p : Fin 1024, N ch ((b.val : ℤ) * 1024 + (p.val : ℤ)) * x4 (ix3 ch k p)) + bias := by
  subst h0 h1 h2 h3 h4 h5 h6 h7 h8 h9 h10 h11 h12 h13 h14 h15 h16 h17 h18 h19 h20 h21 h22 h23 h24 h25 h26 h27 h28 h29 h30 h31 hz hb
  rw [sum32]

/-- The output block at image 'b' of the row, score 'k': the five layers on the row read on image 'b''s lanes against
    the final weights, over channels and lanes, plus the final bias. -/
theorem ref_body_apply (c : Dev nD) (i : grid0.Coords) (arg1 : Memref sig .tc .vmem S1x32x2048 .f32) (harg1 : arg1.IsWhole) (arg2 : Memref sig .tc .vmem S1x2048 .f32) (harg2 : arg2.IsWhole) (arg3 : Memref sig .tc .vmem S5x9x32x32 .f32) (harg3 : arg3.IsWhole) (arg4 : Memref sig .tc .vmem S5x32x1 .f32) (harg4 : arg4.IsWhole) (arg5 : Memref sig .tc .vmem S32x128x1024 .f32) (harg5 : arg5.IsWhole) (arg6 : Memref sig .tc .vmem S1x128 .f32) (harg6 : arg6.IsWhole) (arg7 : Memref sig .tc .vmem S1x2x128 .f32) (harg7 : arg7.IsWhole) (arg8 : Memref sig .tc .vmem S32x2112 .f32) (harg8 : arg8.IsWhole)
    (x0 : Vec Ideal S1x32x2048 .f32) (x1 : Vec Ideal S1x2048 .f32) (x2 : Vec Ideal S5x9x32x32 .f32) (x3 : Vec Ideal S5x32x1 .f32) (x4 : Vec Ideal S32x128x1024 .f32) (x5 : Vec Ideal S1x128 .f32)
    (b : Fin 2) (k : Fin 128) :
    out0_A_6 (F := Ideal) c i arg1 harg1 arg2 harg2 arg3 harg3 arg4 harg4 arg5 harg5 arg6 harg6 arg7 harg7 arg8 harg8 x0 x1 x2 x3 x4 x5 (ix3 0 b k)
      = (∑ ch : Fin 32, ∑ p : Fin 1024,
          Cert.Spec.netW 2048 (Cert.Spec.wOf x2) (Cert.Spec.bOf x3) (rMask x1) (rX x0) ch ((b.val : ℤ) * 1024 + (p.val : ℤ)) * x4 (ix3 ch k p))
        + x5 (ix2 0 k) := by
  unfold out0_A_6
  rw [View.read_writes_junk_eq_canon]
  unfold kernelRun0_A
  dsimp only
  rw [View.canon_unit_zero (by funext a; fin_cases a <;> rfl)]
  simp only [k0_pay1, addf_apply, shapeCast_ab_1ab_apply, broadcastTo_1b_ab_apply, fcb_read,
    kernelRun0_A.sl.r_28, k0_pay34, kernelRun0_A.sl.r_27, k0_pay33, kernelRun0_A.sl.r_26, k0_pay32, kernelRun0_A.sl.r_25,
    k0_pay31, kernelRun0_A.sl.r_24, k0_pay30, kernelRun0_A.sl.r_23, k0_pay29, kernelRun0_A.sl.r_22, kernelRun0_A.sl.r_21, k0_pay28,
    kernelRun0_A.sl.r_20, k0_pay27, kernelRun0_A.sl.r_19, k0_pay26, kernelRun0_A.sl.r_18, k0_pay25, kernelRun0_A.sl.r_17, k0_pay24,
    kernelRun0_A.sl.r_16, k0_pay23, kernelRun0_A.sl.r_15, k0_pay22, k0_pay21,
    broadcast_apply, fc_term, fcw_read]
  refine fc_close (Cert.Spec.netW 2048 (Cert.Spec.wOf x2) (Cert.Spec.bOf x3) (rMask x1) (rX x0)) x4 b k _ _ _
    _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    Ideal.ofBits_zero_f32 rfl <;>
  exact Finset.sum_congr rfl fun p _ => congrArg₂ (· * ·)
    (act_at _ _ (val4 c arg1 harg1 arg2 harg2 arg3 harg3 arg4 harg4 arg8 x0 x1 x2 x3) _ b p _) rfl

end Cert.ReferenceIdeal.BodyVal

end
-- ==== Proof.RHost.lean ====
/-
  What the reference's program computes on the host, read at an entry.
  Before its call: the images channel-padded to 32, ringed with one zero pixel, laid flat on 900 lanes and padded to 1024,
  2 images side by side per row (row 's' holds images '2 s' and '2 s + 1', image 'b' on lanes 'b * 1024 ..'); the mask
  repeated twice. After the call: the result's rows (row 's', image 'b') read as image '2 s + b'.

  Each layout operation of the chain is first read at explicit coordinates over any array (a reshape keeps the row-major
  position; a padding reads the operand inside and the padding value outside; the transposition swaps the two middle
  coordinates; the broadcast forgets the copy index). The host values are then written as one term of the launched
  arrays and read through those lemmas.
-/
import proofs.«113494_g2000500751551631_pallasbulk_1084_2_alg».proof.Proof.Gen.ReferenceIdeal.Frame
import proofs.«113494_g2000500751551631_pallasbulk_1084_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.ReferenceIdeal.HostVal

open Idealize.ShloMosaic Idealize.ShloMosaic.TcCoe Idealize.ShloMosaic.ValueIdx Idealize.SL.Sem Cert.ReferenceIdeal Cert.ReferenceIdeal.Gen

/-! ## Each layout operation of the chain read at explicit coordinates -/

section Reads
variable {α : Type}

/-- The first padding: channels 3 .. 31 and the one-pixel ring read the padding value, the rest the picture. -/
theorem pad1_apply (x : S512x3x28x28.Idx → α) (z : S_.Idx → α)
    (h : S512x3x28x28.Pads (![0, 0, 1, 1] : Fin 4 → Nat) ![0, 29, 1, 1] ![0, 0, 0, 0] S512x32x30x30) (hu : 0 < S_.numel)
    (n : Fin 512) (ci : Fin 32) (r cc : Fin 30) :
    pad S512x32x30x30 ![0, 0, 1, 1] ![0, 29, 1, 1] ![0, 0, 0, 0] x z h hu (ix4 n ci r cc)
      = if hin : ci.val < 3 ∧ 1 ≤ r.val ∧ r.val ≤ 28 ∧ 1 ≤ cc.val ∧ cc.val ≤ 28 then
          x (ix4 n ⟨ci.val, hin.1⟩ ⟨r.val - 1, by omega⟩ ⟨cc.val - 1, by omega⟩)
        else z (Shape.Idx.first hu) := by
  by_cases hin : ci.val < 3 ∧ 1 ≤ r.val ∧ r.val ≤ 28 ∧ 1 ≤ cc.val ∧ cc.val ≤ 28
  · rw [dif_pos hin]
    refine pad_apply_of_inside _ _ _ x z h hu (ix4 n ci r cc) _ fun a => ?_
    match a with
    | ⟨0, _⟩ => show n.val = 0 + n.val * (0 + 1); omega
    | ⟨1, _⟩ => show ci.val = 0 + ci.val * (0 + 1); omega
    | ⟨2, _⟩ => show r.val = 1 + (r.val - 1) * (0 + 1); omega
    | ⟨3, _⟩ => show cc.val = 1 + (cc.val - 1) * (0 + 1); omega
  · rw [dif_neg hin]
    by_cases h1 : ci.val < 3
    · by_cases h2 : 1 ≤ r.val ∧ r.val ≤ 28
      · refine pad_apply_of_not_inside _ _ _ x z h hu (ix4 n ci r cc) ⟨3, by decide⟩ ?_
        show ¬(1 ≤ cc.val ∧ (cc.val - 1) % (0 + 1) = 0 ∧ (cc.val - 1) / (0 + 1) < 28)
        intro hc
        exact hin ⟨h1, h2.1, h2.2, by omega, by omega⟩
      · refine pad_apply_of_not_inside _ _ _ x z h hu (ix4 n ci r cc) ⟨2, by decide⟩ ?_
        show ¬(1 ≤ r.val ∧ (r.val - 1) % (0 + 1) = 0 ∧ (r.val - 1) / (0 + 1) < 28)
        intro hc
        exact h2 ⟨by omega, by omega⟩
    · refine pad_apply_of_not_inside _ _ _ x z h hu (ix4 n ci r cc) ⟨1, by decide⟩ ?_
      show ¬(0 ≤ ci.val ∧ (ci.val - 0) % (0 + 1) = 0 ∧ (ci.val - 0) / (0 + 1) < 3)
      intro hc
      exact h1 (by omega)

/-- The 30 x 30 picture laid flat: lane 'p' is row 'p / 30', column 'p % 30'. -/
theorem flat900_apply (y : S512x32x30x30.Idx → α) (h : S512x32x30x30.ShapeCasts S512x32x900)
    (n : Fin 512) (ci : Fin 32) (p : Fin 900) :
    shapeCast S512x32x900 y h (ix3 n ci p)
      = y (ix4 n ci ⟨p.val / 30, by have := p.isLt; omega⟩ ⟨p.val % 30, Nat.mod_lt _ (by decide)⟩) := by
  refine shapeCast_apply y h (ix3 n ci p) _ ?_
  rw [Shape.rowMajor_val_four, Shape.rowMajor_val_three]
  show ((n.val * 32 + ci.val) * 30 + p.val / 30) * 30 + p.val % 30 = (n.val * 32 + ci.val) * 900 + p.val
  omega

/-- The second padding: lanes 900 .. 1023 read the padding value. -/
theorem pad2_apply (y : S512x32x900.Idx → α) (z : S_.Idx → α)
    (h : S512x32x900.Pads (![0, 0, 0] : Fin 3 → Nat) ![0, 0, 124] ![0, 0, 0] S512x32x1024) (hu : 0 < S_.numel)
    (n : Fin 512) (ci : Fin 32) (p : Fin 1024) :
    pad S512x32x1024 ![0, 0, 0] ![0, 0, 124] ![0, 0, 0] y z h hu (ix3 n ci p)
      = if hp : p.val < 900 then y (ix3 n ci ⟨p.val, hp⟩) else z (Shape.Idx.first hu) := by
  by_cases hp : p.val < 900
  · rw [dif_pos hp]
    refine pad_apply_of_inside _ _ _ y z h hu (ix3 n ci p) _ fun a => ?_
    match a with
    | ⟨0, _⟩ => show n.val = 0 + n.val * (0 + 1); omega
    | ⟨1, _⟩ => show ci.val = 0 + ci.val * (0 + 1); omega
    | ⟨2, _⟩ => show p.val = 0 + p.val * (0 + 1); omega
  · rw [dif_neg hp]
    refine pad_apply_of_not_inside _ _ _ y z h hu (ix3 n ci p) ⟨2, by decide⟩ ?_
    show ¬(0 ≤ p.val ∧ (p.val - 0) % (0 + 1) = 0 ∧ (p.val - 0) / (0 + 1) < 900)
    intro hc
    exact hp (by omega)

/-- Images paired: row 's', slot 'b' is image '2 s + b'. -/
theorem pair_apply (y : S512x32x1024.Idx → α) (h : S512x32x1024.ShapeCasts S256x2x32x1024)
    (s : Fin 256) (b : Fin 2) (ci : Fin 32) (p : Fin 1024) :
    shapeCast S256x2x32x1024 y h (ix4 s b ci p)
      = y (ix3 ⟨s.val * 2 + b.val, by have := s.isLt; have := b.isLt; omega⟩ ci p) := by
  refine shapeCast_apply y h (ix4 s b ci p) _ ?_
  rw [Shape.rowMajor_val_four, Shape.rowMajor_val_three]
  show ((s.val * 2 + b.val) * 32 + ci.val) * 1024 + p.val = ((s.val * 2 + b.val) * 32 + ci.val) * 1024 + p.val
  rfl

/-- The two middle axes swapped. -/
theorem swap_apply (y : S256x2x32x1024.Idx → α) (h : S256x2x32x1024.Transposes [0, 2, 1, 3] S256x32x2x1024)
    (s : Fin 256) (ci : Fin 32) (b : Fin 2) (p : Fin 1024) :
    transpose S256x32x2x1024 [0, 2, 1, 3] y h (ix4 s ci b p) = y (ix4 s b ci p) := by
  refine transpose_apply _ y h (ix4 s ci b p) (ix4 s b ci p) fun a => ?_
  match a with
  | ⟨0, _⟩ => rfl
  | ⟨1, _⟩ => rfl
  | ⟨2, _⟩ => rfl
  | ⟨3, _⟩ => rfl

/-- The two images of a row laid side by side: lane 'q' is slot 'q / 1024', lane 'q % 1024'. -/
theorem side_apply (y : S256x32x2x1024.Idx → α) (h : S256x32x2x1024.ShapeCasts S256x32x2048)
    (s : Fin 256) (ci : Fin 32) (q : Fin 2048) :
    shapeCast S256x32x2048 y h (ix3 s ci q)
      = y (ix4 s ci ⟨q.val / 1024, by have := q.isLt; omega⟩ ⟨q.val % 1024, Nat.mod_lt _ (by decide)⟩) := by
  refine shapeCast_apply y h (ix3 s ci q) _ ?_
  rw [Shape.rowMajor_val_four, Shape.rowMajor_val_three]
  show ((s.val * 32 + ci.val) * 2 + q.val / 1024) * 1024 + q.val % 1024 = (s.val * 32 + ci.val) * 2048 + q.val
  omega

end Reads

section ReadsMask
variable {α : Type}

/-- The doubled mask laid on one row: lane 'q' is copy 'q / 1024', lane 'q % 1024'. -/
theorem rep_apply (y : S1x1x2x1024.Idx → α) (h : S1x1x2x1024.ShapeCasts S1x2048) (q : Fin 2048) :
    shapeCast S1x2048 y h (ix2 0 q)
      = y (ix4 0 0 ⟨q.val / 1024, by have := q.isLt; omega⟩ ⟨q.val % 1024, Nat.mod_lt _ (by decide)⟩) := by
  refine shapeCast_apply y h (ix2 0 q) _ ?_
  rw [Shape.rowMajor_val_four, Shape.rowMajor_val_two]
  show ((0 * 1 + 0) * 2 + q.val / 1024) * 1024 + q.val % 1024 = 0 * 2048 + q.val
  omega

/-- Both copies are the mask. -/
theorem bcast_apply (x : S1x1x1x1024.Idx → α)
    (h : S1x1x1x1024.BroadcastsInDim S1x1x2x1024 (![0, 1, 2, 3] : Fin 4 → Fin S1x1x2x1024.rank)) (b : Fin 2) (p : Fin 1024) :
    broadcastInDim S1x1x2x1024 ![0, 1, 2, 3] h x (ix4 0 0 b p) = x (ix4 0 0 0 p) := by
  refine broadcastInDim_apply _ h x (ix4 0 0 b p) (ix4 0 0 0 p) fun a => ?_
  match a with
  | ⟨0, _⟩ => rfl
  | ⟨1, _⟩ => rfl
  | ⟨2, _⟩ => rfl
  | ⟨3, _⟩ => rfl

/-- The mask under two more unit axes. -/
theorem lift_apply (x : S1x1024.Idx → α) (h : S1x1024.ShapeCasts S1x1x1x1024) (p : Fin 1024) :
    shapeCast S1x1x1x1024 x h (ix4 0 0 0 p) = x (ix2 0 p) := by
  refine shapeCast_apply x h (ix4 0 0 0 p) _ ?_
  rw [Shape.rowMajor_val_four, Shape.rowMajor_val_two]
  show 0 * 1024 + p.val = ((0 * 1 + 0) * 1 + 0) * 1024 + p.val
  omega

/-- The result's rows: row 'n' is row 'n / 2', slot 'n % 2' of the paired result. -/
theorem unpair_apply (y : S256x2x128.Idx → α) (h : S256x2x128.ShapeCasts S512x128) (n : Fin 512) (k : Fin 128) :
    shapeCast S512x128 y h (ix2 n k)
      = y (ix3 ⟨n.val / 2, by have := n.isLt; omega⟩ ⟨n.val % 2, Nat.mod_lt _ (by decide)⟩ k) := by
  refine shapeCast_apply y h (ix2 n k) _ ?_
  rw [Shape.rowMajor_val_three, Shape.rowMajor_val_two]
  show (n.val / 2 * 2 + n.val % 2) * 128 + k.val = n.val * 128 + k.val
  omega

end ReadsMask

variable (m : (ℓ : Loc nD τ sig) → Buf (Elt Ideal) ℓ)

/-- The argument arrays as launched, at their literal types. -/
abbrev aX (c : Dev nD) : Cert.Spec.SX.Idx → EReal := m ((c : Thread nD τ).loc main_arg0)
abbrev aWc (c : Dev nD) : Cert.Spec.SWc.Idx → EReal := m ((c : Thread nD τ).loc main_arg1)
abbrev aBc (c : Dev nD) : Cert.Spec.SBc.Idx → EReal := m ((c : Thread nD τ).loc main_arg2)
abbrev aWfc (c : Dev nD) : Cert.Spec.SWfc.Idx → EReal := m ((c : Thread nD τ).loc main_arg3)
abbrev aBfc (c : Dev nD) : Cert.Spec.SBfc.Idx → EReal := m ((c : Thread nD τ).loc main_arg4)
abbrev aMask (c : Dev nD) : Cert.Spec.SMask.Idx → EReal := m ((c : Thread nD τ).loc main_arg5)

/-- The padding value: the integer zero converted. -/
abbrev padZ : S_.Idx → EReal := (sitofp .f32 (constantI S_ 32 0#32) : FVec Ideal S_ .f32)

theorem padZ_apply (i : S_.Idx) : padZ i = 0 := sitofp_zero (φ := .f32)

/-- The packed images as one term of the launched images. -/
theorem xp_eq (c : Dev nD) : (V m c main_v5 : S256x32x2048.Idx → EReal) =
    shapeCast S256x32x2048 (transpose S256x32x2x1024 [0, 2, 1, 3] (shapeCast S256x2x32x1024
      (pad S512x32x1024 ![0, 0, 0] ![0, 0, 124] ![0, 0, 0]
        (shapeCast S512x32x900 (pad S512x32x30x30 ![0, 0, 1, 1] ![0, 29, 1, 1] ![0, 0, 0, 0] (aX m c) padZ
          pads_S512x3x28x28_S512x32x30x30_000_0290_110_110 h_S_) shapeCasts_S512x32x30x30_S512x32x900)
        padZ pads_S512x32x900_S512x32x1024_000_000_01240 h_S_)
      shapeCasts_S512x32x1024_S256x2x32x1024) transposes_S256x2x32x1024_S256x32x2x1024_0_2_1_3)
      shapeCasts_S256x32x2x1024_S256x32x2048 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The repeated mask as one term of the launched mask. -/
theorem maskrow_eq (c : Dev nD) : (V m c main_v8 : S1x2048.Idx → EReal) =
    shapeCast S1x2048 (broadcastInDim S1x1x2x1024 ![0, 1, 2, 3] bcast_S1x1x1x1024_S1x1x2x1024_0_1_2_3
      (shapeCast S1x1x1x1024 (aMask m c) shapeCasts_S1x1024_S1x1x1x1024)) shapeCasts_S1x1x2x1024_S1x2048 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Row 's' of the packed images, channel 'ci', lane 'q': image '2 s + q / 1024' at lane 'q % 1024'. -/
theorem xp_apply (c : Dev nD) (s : Fin 256) (ci : Fin 32) (q : Fin 2048) :
    (V m c main_v5 : S256x32x2048.Idx → EReal) (ix3 s ci q)
      = Cert.Spec.img (aX m c) ⟨s.val * 2 + q.val / 1024, by have := s.isLt; have := q.isLt; omega⟩ ci (((q.val % 1024 : ℕ) : ℤ)) := by
  refine (congrFun (xp_eq m c) (ix3 s ci q)).trans ?_
  rw [side_apply, swap_apply, pair_apply, pad2_apply]
  unfold Cert.Spec.img
  by_cases hp : q.val % 1024 < 900
  · rw [dif_pos hp, flat900_apply, pad1_apply]
    by_cases hin : ci.val < 3 ∧ 1 ≤ q.val % 1024 / 30 ∧ q.val % 1024 / 30 ≤ 28 ∧ 1 ≤ q.val % 1024 % 30 ∧ q.val % 1024 % 30 ≤ 28
    · rw [dif_pos hin, dif_pos (by omega)]
      refine congrArg (aX m c) (funext fun a => ?_)
      match a with
      | ⟨0, _⟩ => rfl
      | ⟨1, _⟩ => rfl
      | ⟨2, _⟩ => exact Fin.ext (by show q.val % 1024 / 30 - 1 = (((q.val % 1024 : ℕ) : ℤ) / 30 - 1).toNat; omega)
      | ⟨3, _⟩ => exact Fin.ext (by show q.val % 1024 % 30 - 1 = (((q.val % 1024 : ℕ) : ℤ) % 30 - 1).toNat; omega)
    · rw [dif_neg hin, dif_neg (by omega), padZ_apply]
  · rw [dif_neg hp, dif_neg (by omega), padZ_apply]

/-- The repeated mask: lane 'q' holds the mask's lane 'q % 1024'. -/
theorem maskrow_apply (c : Dev nD) (q : Fin 2048) :
    (V m c main_v8 : S1x2048.Idx → EReal) (ix2 0 q) = aMask m c (ix2 0 ⟨q.val % 1024, Nat.mod_lt _ (by decide)⟩) := by
  refine (congrFun (maskrow_eq m c) (ix2 0 q)).trans ?_
  rw [rep_apply, bcast_apply, lift_apply]

/-- The program's result as one term of the region's output array. -/
theorem tail_eq (c : Dev nD) : (Pipeline.afterTail₀ cfgs (dats m) 0 (V0 m) [hostOps1] c main_v10 : S512x128.Idx → EReal)
    = shapeCast S512x128 ((dats m 0 c).arrAt 6 cfg0.N : S256x2x128.Idx → EReal) shapeCasts_S256x2x128_S512x128 := by
  unfold Pipeline.afterTail₀
  show StableHlo.after hostOps1 _ (Proc.devRef .tc main_v10) = _
  after_results
  exact congrArg (fun X : S256x2x128.Idx → EReal => shapeCast S512x128 X shapeCasts_S256x2x128_S512x128)
    (Pipeline.withArrays_arr spec0 launch0.win.arr_inj c (V0 m c) (fun w => (dats m 0 c).arrAt w cfg0.N) 6)

/-- After the call: entry (n, k) of the result is entry (n / 2, n % 2, k) of the region's output array as the
    pipeline leaves it. -/
theorem tail_apply (c : Dev nD) (n : Fin 512) (k : Fin 128) :
    (Pipeline.afterTail₀ cfgs (dats m) 0 (V0 m) [hostOps1] c main_v10 : S512x128.Idx → EReal) (ix2 n k)
      = ((dats m 0 c).arrAt 6 cfg0.N : S256x2x128.Idx → EReal) (ix3 ⟨n.val / 2, by have := n.isLt; omega⟩ ⟨n.val % 2, Nat.mod_lt _ (by decide)⟩ k) := by
  refine (congrFun (tail_eq m c) (ix2 n k)).trans ?_
  exact unpair_apply _ _ n k

end Cert.ReferenceIdeal.HostVal

end
-- ==== Proof.RConv.lean ====
/-
  The reference's call as a whole, and its program's result: grid point 's' works on the row of images '2 s' and '2 s + 1';
  the row's layers are the images' layers one by one because every image is zero on its ring and tail lanes, as the mask
  keeps it after each layer; the final map is the spec's double sum; the host reads row 's', image 'b' as image '2 s + b'.
-/
import proofs.«113494_g2000500751551631_pallasbulk_1084_2_alg».proof.Proof.RBody
import proofs.«113494_g2000500751551631_pallasbulk_1084_2_alg».proof.Proof.RHost

set_option maxRecDepth 16384

noncomputable section

namespace Cert.ReferenceIdeal.ConvVal

open Idealize.ShloMosaic Idealize.ShloMosaic.TcCoe Idealize.ShloMosaic.ValueIdx Idealize.SL.Sem
open Cert.ReferenceIdeal Cert.ReferenceIdeal.Gen Cert.ReferenceIdeal.HostVal Cert.ReferenceIdeal.BodyVal

variable (m : (ℓ : Loc nD τ sig) → Buf (Elt Ideal) ℓ)

/-- The printed index maps, decided over the grid: the packed images' and the result's blocks move with the point along
    the first axis, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 4) = 0 ∧ win0_2.index t (1 : Fin 4) = 0 ∧ win0_2.index t (2 : Fin 4) = 0 ∧ win0_2.index t (3 : Fin 4) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- Point 't''s block of the packed images is row 't' of the array. -/
theorem blk0_apply (c : Dev nD) (t : Fin cfg0.N) (ci : Fin 32) (q : Fin 2048) :
    (iblk m c 0 t : Vec Ideal S1x32x2048 .f32) (ix3 0 ci q)
      = (V m c main_v5 : S256x32x2048.Idx → EReal) (ix3 ⟨t.val, lt_of_lt_of_eq t.isLt N_0⟩ ci q) := by
  obtain ⟨e0, e1, e2, -⟩ := idx_facts t
  unfold iblk
  rw [View.read_apply]
  show V m c main_v5 _ = V m c main_v5 _
  congr 1
  funext a; apply Fin.ext
  match a with
  | ⟨0, _⟩ => show win0_0.index t (0 : Fin 3) * 1 + 1 * 0 = t.val; omega
  | ⟨1, _⟩ => show win0_0.index t (1 : Fin 3) * 32 + 1 * ci.val = ci.val; omega
  | ⟨2, _⟩ => show win0_0.index t (2 : Fin 3) * 2048 + 1 * q.val = q.val; omega

/-- The row's layers at image 'b' of point 's' are image '2 s + b''s. -/
theorem row_act (x : Cert.Spec.SX.Idx → EReal) (wc : Cert.Spec.SWc.Idx → EReal) (bc : Cert.Spec.SBc.Idx → EReal)
    (mask : Cert.Spec.SMask.Idx → EReal)
    (hmk : ∀ p : ℤ, 0 ≤ p → p < 1024 → (p < 31 ∨ 993 ≤ p) → Cert.Spec.mkOf mask p = 0)
    (s : Fin 256) (x0 : Vec Ideal S1x32x2048 .f32) (x1 : Vec Ideal S1x2048 .f32)
    (h0 : ∀ (ci : Fin 32) (q : Fin 2048), x0 (ix3 0 ci q)
      = Cert.Spec.img x ⟨s.val * 2 + q.val / 1024, by have := s.isLt; have := q.isLt; omega⟩ ci (((q.val % 1024 : ℕ) : ℤ)))
    (h1 : ∀ q : Fin 2048, x1 (ix2 0 q) = mask (ix2 0 ⟨q.val % 1024, Nat.mod_lt _ (by decide)⟩))
    (b : Fin 2) (ch : Fin 32) (p : Fin 1024) :
    Cert.Spec.netW 2048 (Cert.Spec.wOf wc) (Cert.Spec.bOf bc) (rMask x1) (rX x0) ch ((b.val : ℤ) * 1024 + (p.val : ℤ))
      = Cert.Spec.act x wc bc mask ⟨s.val * 2 + b.val, by have := s.isLt; have := b.isLt; omega⟩ ch (p.val : ℤ) := by
  have hmask : ∀ q : ℤ, 0 ≤ q → q < 2048 → rMask x1 q = (fun q => Cert.Spec.mkOf mask (q % 1024)) q := by
    intro q hq0 hq1
    obtain ⟨n, rfl⟩ := Int.eq_ofNat_of_zero_le hq0
    have hn : n < 2048 := by omega
    have hm : ((n : ℤ) % 1024) = (((⟨n % 1024, Nat.mod_lt _ (by decide)⟩ : Fin 1024).val : ℕ) : ℤ) := by
      show ((n : ℤ) % 1024) = ((n % 1024 : ℕ) : ℤ)
      omega
    show Cert.Spec.ext1 (fun q : Fin 2048 => x1 (ix2 0 q)) (((⟨n, hn⟩ : Fin 2048).val : ℕ) : ℤ)
      = Cert.Spec.ext1 (fun p : Fin 1024 => mask (ix2 0 p)) ((n : ℤ) % 1024)
    rw [hm, Cert.Spec.ext1_of_mem, Cert.Spec.ext1_of_mem, h1]
  have e : (2048 : ℤ) = ((2 : ℕ) : ℤ) * 1024 := by norm_num
  rw [Cert.Spec.netW_congr_mk 2048 _ _ (rMask x1) (fun q => Cert.Spec.mkOf mask (q % 1024)) (rX x0) hmask, e]
  rw [Cert.Spec.netW_pack 2 (Cert.Spec.wOf wc) (Cert.Spec.bOf bc) (Cert.Spec.mkOf mask) hmk (rX x0)
    (fun bi => Cert.Spec.img x ⟨(s.val * 2 + bi) % 512, Nat.mod_lt _ (by decide)⟩)
    ?hX ?hXY ?hYz b.val b.isLt ch (p.val : ℤ) (by omega) (by have := p.isLt; omega)]
  case hX =>
    intro ci q hq
    exact Cert.Spec.ext1_of_not_mem _ q (by push_cast at hq ⊢; omega)
  case hYz =>
    intro bi _ ci p hp
    exact Cert.Spec.img_ring x _ ci p hp
  case hXY =>
    intro bi hbi ci p hp0 hp1
    obtain ⟨pn, rfl⟩ := Int.eq_ofNat_of_zero_le hp0
    have hq : bi * 1024 + pn < 2048 := by omega
    have hv : ((bi : ℤ) * 1024 + (pn : ℤ)) = (((⟨bi * 1024 + pn, hq⟩ : Fin 2048).val : ℕ) : ℤ) := by
      show ((bi : ℤ) * 1024 + (pn : ℤ)) = ((bi * 1024 + pn : ℕ) : ℤ)
      push_cast; ring
    show Cert.Spec.ext1 (fun q : Fin 2048 => x0 (ix3 0 ci q)) ((bi : ℤ) * 1024 + (pn : ℤ)) = _
    rw [hv, Cert.Spec.ext1_of_mem, h0]
    have d1 : (bi * 1024 + pn) / 1024 = bi := by omega
    have d2 : (bi * 1024 + pn) % 1024 = pn := by omega
    have d3 : (s.val * 2 + bi) % 512 = s.val * 2 + bi := by have := s.isLt; omega
    show Cert.Spec.img x ⟨s.val * 2 + (bi * 1024 + pn) / 1024, _⟩ ci (((bi * 1024 + pn) % 1024 : ℕ) : ℤ) = _
    simp only [d1, d2, d3]
  unfold Cert.Spec.act
  have d3 : (s.val * 2 + b.val) % 512 = s.val * 2 + b.val := by have := s.isLt; have := b.isLt; omega
  simp only [d3]

/-- The mask row's block is the whole row at every point. -/
theorem blk1_eq (c : Dev nD) (t : Fin cfg0.N) :
    (iblk m c 1 t : Vec Ideal S1x2048 .f32) = (V m c main_v8 : S1x2048.Idx → EReal) := by
  obtain ⟨-, -, -, e0, e1, -⟩ := idx_facts t
  funext y
  unfold iblk
  rw [View.read_apply]
  show V m c main_v8 _ = V m c main_v8 y
  congr 1
  funext a; apply Fin.ext
  match a with
  | ⟨0, _⟩ => show win0_1.index t (0 : Fin 2) * 1 + 1 * (y 0).val = (y 0).val; omega
  | ⟨1, _⟩ => show win0_1.index t (1 : Fin 2) * 2048 + 1 * (y 1).val = (y 1).val; omega

/-- The layers' weights' block is the whole argument at every point. -/
theorem blk2_eq (c : Dev nD) (t : Fin cfg0.N) :
    (iblk m c 2 t : Vec Ideal S5x9x32x32 .f32) = aWc m c := by
  obtain ⟨-, -, -, -, -, e0, e1, e2, e3, -⟩ := idx_facts t
  refine Eq.trans ?_ (V_main_arg1 m c)
  funext y
  unfold iblk
  rw [View.read_apply]
  show V m c main_arg1 _ = V m c main_arg1 y
  congr 1
  funext a; apply Fin.ext
  match a with
  | ⟨0, _⟩ => show win0_2.index t (0 : Fin 4) * 5 + 1 * (y 0).val = (y 0).val; omega
  | ⟨1, _⟩ => show win0_2.index t (1 : Fin 4) * 9 + 1 * (y 1).val = (y 1).val; omega
  | ⟨2, _⟩ => show win0_2.index t (2 : Fin 4) * 32 + 1 * (y 2).val = (y 2).val; omega
  | ⟨3, _⟩ => show win0_2.index t (3 : Fin 4) * 32 + 1 * (y 3).val = (y 3).val; omega

/-- The layers' biases' block is the whole argument at every point. -/
theorem blk3_eq (c : Dev nD) (t : Fin cfg0.N) :
    (iblk m c 3 t : Vec Ideal S5x32x1 .f32) = aBc m c := by
  obtain ⟨-, -, -, -, -, -, -, -, -, e0, e1, e2, -⟩ := idx_facts t
  refine Eq.trans ?_ (V_main_arg2 m c)
  funext y
  unfold iblk
  rw [View.read_apply]
  show V m c main_arg2 _ = V m c main_arg2 y
  congr 1
  funext a; apply Fin.ext
  match a with
  | ⟨0, _⟩ => show win0_3.index t (0 : Fin 3) * 5 + 1 * (y 0).val = (y 0).val; omega
  | ⟨1, _⟩ => show win0_3.index t (1 : Fin 3) * 32 + 1 * (y 1).val = (y 1).val; omega
  | ⟨2, _⟩ => show win0_3.index t (2 : Fin 3) * 1 + 1 * (y 2).val = (y 2).val; omega

/-- The final weights' block is the whole argument at every point. -/
theorem blk4_eq (c : Dev nD) (t : Fin cfg0.N) :
    (iblk m c 4 t : Vec Ideal S32x128x1024 .f32) = aWfc m c := by
  obtain ⟨-, -, -, -, -, -, -, -, -, -, -, -, e0, e1, e2, -⟩ := idx_facts t
  refine Eq.trans ?_ (V_main_arg3 m c)
  funext y
  unfold iblk
  rw [View.read_apply]
  show V m c main_arg3 _ = V m c main_arg3 y
  congr 1
  funext a; apply Fin.ext
  match a with
  | ⟨0, _⟩ => show win0_4.index t (0 : Fin 3) * 32 + 1 * (y 0).val = (y 0).val; omega
  | ⟨1, _⟩ => show win0_4.index t (1 : Fin 3) * 128 + 1 * (y 1).val = (y 1).val; omega
  | ⟨2, _⟩ => show win0_4.index t (2 : Fin 3) * 1024 + 1 * (y 2).val = (y 2).val; omega

/-- The final bias's block is the whole argument at every point. -/
theorem blk5_eq (c : Dev nD) (t : Fin cfg0.N) :
    (iblk m c 5 t : Vec Ideal S1x128 .f32) = aBfc m c := by
  obtain ⟨-, -, -, -, -, -, -, -, -, -, -, -, -, -, -, e0, e1, -⟩ := idx_facts t
  refine Eq.trans ?_ (V_main_arg4 m c)
  funext y
  unfold iblk
  rw [View.read_apply]
  show V m c main_arg4 _ = V m c main_arg4 y
  congr 1
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- What point 't' leaves in its output block at image 'b', score 'k': the score of image '2 t + b'. -/
theorem point_apply (c : Dev nD)
    (hmk : ∀ p : ℤ, 0 ≤ p → p < 1024 → (p < 31 ∨ 993 ≤ p) → Cert.Spec.mkOf (aMask m c) p = 0)
    (t : Fin cfg0.N) (b : Fin 2) (k : Fin 128) :
    (outsAt0 m c t : Vec Ideal S1x2x128 .f32) (ix3 0 b k)
      = Cert.Spec.scoreAt (aX m c) (aWc m c) (aBc m c) (aWfc m c) (aBfc m c) (aMask m c)
          ⟨t.val * 2 + b.val, by have := lt_of_lt_of_eq t.isLt N_0; have := b.isLt; omega⟩ k := by
  unfold outsAt0
  rw [ref_body_apply, blk2_eq, blk3_eq, blk4_eq, blk5_eq]
  have key := fun (ch : Fin 32) (p : Fin 1024) =>
    row_act (aX m c) (aWc m c) (aBc m c) (aMask m c) hmk ⟨t.val, lt_of_lt_of_eq t.isLt N_0⟩
      (iblk m c 0 t) (iblk m c 1 t)
      (fun ci q => (blk0_apply m c t ci q).trans (xp_apply m c _ ci q))
      (fun q => (congrFun (blk1_eq m c t) (ix2 0 q)).trans (maskrow_apply m c q)) b ch p
  unfold Cert.Spec.scoreAt
  simp only [key]

/-- The region's output array as the spec reads it: row 's', image 'b' holds the scores of image '2 s + b'. -/
def rowScore (c : Dev nD) : S256x2x128.Idx → EReal := fun j =>
  Cert.Spec.scoreAt (aX m c) (aWc m c) (aBc m c) (aWfc m c) (aBfc m c) (aMask m c)
    ⟨(j 0).val * 2 + (j 1).val, by
      have h0 : (j 0).val < 256 := (j 0).isLt
      have h1 : (j 1).val < 2 := (j 1).isLt
      omega⟩ (j 2)

/-- The row scores at an entry. -/
theorem rowScore_apply (c : Dev nD) (s : Fin 256) (b : Fin 2) (k : Fin 128) :
    rowScore m c (ix3 s b k)
      = Cert.Spec.scoreAt (aX m c) (aWc m c) (aBc m c) (aWfc m c) (aBfc m c) (aMask m c)
          ⟨s.val * 2 + b.val, by have := s.isLt; have := b.isLt; omega⟩ k := rfl

/-- What point 't' writes back is block 't' of the row scores. -/
theorem flushed_eq (c : Dev nD)
    (hmk : ∀ p : ℤ, 0 ≤ p → p < 1024 → (p < 31 ∨ 993 ≤ p) → Cert.Spec.mkOf (aMask m c) p = 0)
    (t : Fin cfg0.N) :
    (dats m 0 c).flushed 6 t = ((cfg0.win 6).blk t).view.read (Elt Ideal) (rowScore m c) := by
  obtain ⟨-, -, -, -, -, -, -, -, -, -, -, -, -, -, -, -, -, e0, e1, e2⟩ := idx_facts t
  show (cfg0.win 6).cut (grid0.coords t) ((dats m 0 c).after 6 t) = _
  rw [after0_6]
  refine funext fun (y : S1x2x128.Idx) => ?_
  obtain ⟨b, k, rfl⟩ : ∃ (b : Fin 2) (k : Fin 128), y = ix3 (0 : Fin 1) b k := ⟨y 1, y 2, funext fun a => by
    match a with
    | ⟨0, _⟩ => exact Fin.ext (by show (y 0).val = 0; have h : (y 0).val < 1 := (y 0).isLt; omega)
    | ⟨1, _⟩ => rfl
    | ⟨2, _⟩ => rfl⟩
  rw [View.read_apply]
  show (outsAt0 m c t : Vec Ideal S1x2x128 .f32) (ix3 0 b k)
    = rowScore m c (((cfg0.win 6).blk t).view.emb (ix3 (0 : Fin 1) b k))
  have he : ((cfg0.win 6).blk t).view.emb (ix3 (0 : Fin 1) b k)
      = (ix3 (⟨t.val, lt_of_lt_of_eq t.isLt N_0⟩ : Fin 256) b k : S256x2x128.Idx) := by
    funext a; apply Fin.ext
    match a with
    | ⟨0, _⟩ => show win0_6.index t (0 : Fin 3) * 1 + 1 * 0 = t.val; omega
    | ⟨1, _⟩ => show win0_6.index t (1 : Fin 3) * 2 + 1 * b.val = b.val; omega
    | ⟨2, _⟩ => show win0_6.index t (2 : Fin 3) * 128 + 1 * k.val = k.val; omega
  rw [he, rowScore_apply]
  exact point_apply m c hmk t b k

/-- An index of the array is in point 't''s block iff each coordinate is in the block's range on its axis. -/
theorem mem_blk (t : Fin cfg0.N) (i : S256x2x128.Idx) :
    i ∈ ((cfg0.win 6).blk t).view.set ↔ ∀ a : Fin 3, win0_6.index t a * S1x2x128.size a ≤ (i a).val ∧ (i a).val < win0_6.index t a * S1x2x128.size a + S1x2x128.size a := by
  show i ∈ ((View.whole main_v9).slice (win0_6.rect t)).set ↔ _
  rw [View.set_slice_whole, Rect.mem_set_unit]
  exact Iff.rfl

/-- Row 's' of the array is point 's''s block. -/
theorem cover (i : S256x2x128.Idx) :
    ∃ t : Fin cfg0.N, (cfg0.win 6).flush t = true ∧ i ∈ ((cfg0.win 6).blk t).view.set := by
  have hi0 : (i 0).val < 256 := (i 0).isLt
  have hi1 : (i 1).val < 2 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  obtain ⟨-, -, -, -, -, -, -, -, -, -, -, -, -, -, -, -, -, e0, e1, e2⟩ := idx_facts t
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2 ≤ (i 1).val ∧ (i 1).val < win0_6.index t (1 : Fin 3) * 2 + 2; omega
  | ⟨2, _⟩ => show win0_6.index t (2 : Fin 3) * 128 ≤ (i 2).val ∧ (i 2).val < win0_6.index t (2 : Fin 3) * 128 + 128; omega

/-- The region's output array after the run: the row scores. -/
theorem final (c : Dev nD)
    (hmk : ∀ p : ℤ, 0 ≤ p → p < 1024 → (p < 31 ∨ 993 ≤ p) → Cert.Spec.mkOf (aMask m c) p = 0) :
    ((dats m 0 c).arrAt 6 cfg0.N : S256x2x128.Idx → EReal) = rowScore m c :=
  (dats m 0 c).arrAt_eq_of_cover 6 (rowScore m c) (fun t _ => flushed_eq m c hmk t) cover

/-- The result array at an entry: the spec's score. -/
theorem ref_value (c : Dev nD)
    (hmk : ∀ p : ℤ, 0 ≤ p → p < 1024 → (p < 31 ∨ 993 ≤ p) → Cert.Spec.mkOf (aMask m c) p = 0)
    (n : Fin 512) (k : Fin 128) :
    (Pipeline.afterTail₀ cfgs (dats m) 0 (V0 m) [hostOps1] c main_v10 : S512x128.Idx → EReal) (ix2 n k)
      = Cert.Spec.scoreAt (aX m c) (aWc m c) (aBc m c) (aWfc m c) (aBfc m c) (aMask m c) n k := by
  refine (tail_apply m c n k).trans ((congrFun (final m c hmk) _).trans ?_)
  rw [rowScore_apply]
  congr 1
  apply Fin.ext
  show n.val / 2 * 2 + n.val % 2 = n.val
  omega

/-- The result array is the spec's. -/
theorem result_eq (c : Dev nD)
    (hmk : ∀ p : ℤ, 0 ≤ p → p < 1024 → (p < 31 ∨ 993 ≤ p) → Cert.Spec.mkOf (aMask m c) p = 0) :
    (Pipeline.afterTail₀ cfgs (dats m) 0 (V0 m) [hostOps1] c main_v10 : S512x128.Idx → EReal)
      = Cert.Spec.G (aX m c) (aWc m c) (aBc m c) (aWfc m c) (aBfc m c) (aMask m c) := by
  funext i
  rw [eq_ix2 i]
  exact ref_value m c hmk (i 0) (i 1)

end Cert.ReferenceIdeal.ConvVal

end
-- ==== Proof.PreMask.lean ====
/-
  What the precondition says of the mask: it is zero on the one-pixel ring of the 30 x 30 grid laid flat (rows 0 and 29,
  columns 0 and 29) and on the lane tail 900 .. 1023. Used here: lanes 0 .. 29 (the top ring row), lane 30 (row 1,
  column 0) and lanes 993 .. 1023 (inside the tail).

  The printed predicate is a conjunction of eleven whole-array tests. Three of them are read back here, each of the form
  "every entry of a slice of the mask equals zero": the block of lanes 0 .. 29, the lanes 0, 30, 60, ... taken 30 apart,
  and the block of lanes 900 .. 1023. An entry of a slice is the entry of the mask at start + stride * position.
-/
import proofs.«113494_g2000500751551631_pallasbulk_1084_2_alg».proof.Pre_finite_inputs
import proofs.«113494_g2000500751551631_pallasbulk_1084_2_alg».proof.Proof.Spec
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreMask

open Idealize.ShloMosaic Idealize.ShloMosaic.ValueIdx Cert.Pre_finite_inputs

variable [Cert.Pre_finite_inputs.Facts]

/-- A test 'x == 0' over a whole array that came out true says every entry of 'x' is zero: the conjunction over all
    entries is 1 only if each comparison is 1, and on the extended reals the comparison is equality. -/
theorem zero_of_all_oeq {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .oeq x (broadcastInDim s ![] hb (constant S_ .f32 0x00000000#32)))
      (constantI S_ 1 1#1) hr hu ix0 = 1#1)
    (j : s.Idx) : x j = 0 := by
  haveI : Subsingleton S_.Idx := ⟨fun a b => funext fun d => d.elim0⟩
  have e1 := Host.reduce_andi_all _ _ hr hu ix0 e j
  have e2 : Ideal.cmp .oeq (x j) (Ideal.ofBits .f32 0x00000000#32) = 1#1 := e1
  rw [Ideal.ofBits_zero_f32] at e2
  unfold Ideal.cmp at e2
  exact of_decide_eq_true ((StableHlo.Predicate.ofBool_eq_one_iff _).1 e2)

/-- Under the precondition the mask is zero on lanes 0 .. 30 and 993 .. 1023. -/
theorem mask_ring_of_pre (a0 : FVec Ideal S512x3x28x28 .f32) (a1 : FVec Ideal S5x9x32x32 .f32) (a2 : FVec Ideal S5x32x1 .f32)
    (a3 : FVec Ideal S32x128x1024 .f32) (a4 : FVec Ideal S1x128 .f32) (a5 : FVec Ideal S1x1024 .f32)
    (h : Cert.Pre_finite_inputs.fn (F := Ideal) a0 a1 a2 a3 a4 a5 = fun _ => 1#1)
    (p : Fin 1024) (hp : p.val < 31 ∨ 993 ≤ p.val) : a5 (ix2 0 p) = 0 := by
  have h0 := congrFun h ValueIdx.ix0
  dsimp only [fn, fn_part1, fn_part2, fn_part3] at h0
  -- the predicate is a left-nested conjunction; its last five conjuncts are the tests on the mask, of which the
  -- first (lanes 0 .. 29), the third (lanes 30 apart from lane 0) and the fifth (lanes 900 .. 1023) are used
  obtain ⟨h1, e52⟩ := IntOp.andi_eq_one.1 h0
  obtain ⟨h2, _⟩ := IntOp.andi_eq_one.1 h1
  obtain ⟨h3, e42⟩ := IntOp.andi_eq_one.1 h2
  obtain ⟨h4, _⟩ := IntOp.andi_eq_one.1 h3
  obtain ⟨_, e32⟩ := IntOp.andi_eq_one.1 h4
  have hp' : p.val < 30 ∨ p.val = 30 ∨ 993 ≤ p.val := by omega
  rcases hp' with hlt | heq | hge
  · -- lanes 0 .. 29: entry p of the block at offset 0 is lane 0 + p
    have z := zero_of_all_oeq _ _ _ _ e32 (ix2 0 (⟨p.val, hlt⟩ : Fin 30))
    rw [← z]
    unfold extractStridedSlice
    refine congrArg a5 (funext fun a => ?_)
    match a with
    | ⟨0, _⟩ => exact Fin.ext rfl
    | ⟨1, _⟩ => exact Fin.ext (Nat.zero_add _).symm
  · -- lane 30: entry 1 of the lanes taken 30 apart from lane 0 is lane 0 + 30 * 1
    have z := zero_of_all_oeq _ _ _ _ e42 (ix2 0 (1 : Fin 30))
    rw [← z]
    unfold Host.slice
    refine congrArg a5 (funext fun a => ?_)
    match a with
    | ⟨0, _⟩ => exact Fin.ext rfl
    | ⟨1, _⟩ => exact Fin.ext heq
  · -- lanes 993 .. 1023: entry p - 900 of the block at offset 900 is lane 900 + (p - 900)
    have z := zero_of_all_oeq _ _ _ _ e52 (ix2 0 (⟨p.val - 900, by omega⟩ : Fin 124))
    rw [← z]
    unfold extractStridedSlice
    refine congrArg a5 (funext fun a => ?_)
    match a with
    | ⟨0, _⟩ => exact Fin.ext rfl
    | ⟨1, _⟩ => exact Fin.ext (show p.val = 900 + (p.val - 900) by omega)

/-- The same, as the spec's mask at an integer lane. -/
theorem mkOf_ring_of_pre (a0 : FVec Ideal S512x3x28x28 .f32) (a1 : FVec Ideal S5x9x32x32 .f32) (a2 : FVec Ideal S5x32x1 .f32)
    (a3 : FVec Ideal S32x128x1024 .f32) (a4 : FVec Ideal S1x128 .f32) (a5 : FVec Ideal S1x1024 .f32)
    (h : Cert.Pre_finite_inputs.fn (F := Ideal) a0 a1 a2 a3 a4 a5 = fun _ => 1#1)
    (p : ℤ) (hp0 : 0 ≤ p) (hp1 : p < 1024) (hp : p < 31 ∨ 993 ≤ p) : Cert.Spec.mkOf a5 p = 0 := by
  unfold Cert.Spec.mkOf Cert.Spec.ext1
  rw [dif_pos ⟨hp0, by omega⟩]
  exact mask_ring_of_pre a0 a1 a2 a3 a4 a5 h ⟨p.toNat, by omega⟩ (by show p.toNat < 31 ∨ 993 ≤ p.toNat; omega)

end Cert.PreMask

end
-- ==== Proof.lean ====
/-
  The certificate: the kernel's program (32 images per row in its convolution call, then one deep product per image row in
  a second call) and the reference's (2 images per row, the final map inside the same call) compute the same scores over
  the extended reals, under the precondition that the inputs are finite and the mask is an interior mask (zero on the
  ring of the 30 x 30 grid and on the lane tail).

  Both are read as the same function 'Cert.Spec.G' of the argument arrays: five layers per image on its own 1024 lanes, then
  the final linear map. The three frames are the generated ones; the idealization rewrote nothing.
-/
import proofs.«113494_g2000500751551631_pallasbulk_1084_2_alg».proof.Defs
import proofs.«113494_g2000500751551631_pallasbulk_1084_2_alg».proof.Proof.Gen.Kernel
import proofs.«113494_g2000500751551631_pallasbulk_1084_2_alg».proof.Proof.Gen.Kernel.Skeleton
import proofs.«113494_g2000500751551631_pallasbulk_1084_2_alg».proof.Proof.Gen.Kernel.Launch
import proofs.«113494_g2000500751551631_pallasbulk_1084_2_alg».proof.Proof.Gen.Kernel.Points
import proofs.«113494_g2000500751551631_pallasbulk_1084_2_alg».proof.Proof.Gen.Kernel.Frame
import proofs.«113494_g2000500751551631_pallasbulk_1084_2_alg».proof.Proof.Gen.KernelIdeal
import proofs.«113494_g2000500751551631_pallasbulk_1084_2_alg».proof.Proof.Gen.KernelIdeal.Skeleton
import proofs.«113494_g2000500751551631_pallasbulk_1084_2_alg».proof.Proof.Gen.KernelIdeal.Launch
import proofs.«113494_g2000500751551631_pallasbulk_1084_2_alg».proof.Proof.Gen.KernelIdeal.Points
import proofs.«113494_g2000500751551631_pallasbulk_1084_2_alg».proof.Proof.Gen.KernelIdeal.Frame
import proofs.«113494_g2000500751551631_pallasbulk_1084_2_alg».proof.Proof.Gen.ReferenceIdeal
import proofs.«113494_g2000500751551631_pallasbulk_1084_2_alg».proof.Proof.Gen.ReferenceIdeal.Skeleton
import proofs.«113494_g2000500751551631_pallasbulk_1084_2_alg».proof.Proof.Gen.ReferenceIdeal.Launch
import proofs.«113494_g2000500751551631_pallasbulk_1084_2_alg».proof.Proof.Gen.ReferenceIdeal.Points
import proofs.«113494_g2000500751551631_pallasbulk_1084_2_alg».proof.Proof.Gen.ReferenceIdeal.Frame
import proofs.«113494_g2000500751551631_pallasbulk_1084_2_alg».proof.Proof.Gen.Pre_finite_inputs
import Idealize.ShloMosaic.Adequacy
import Idealize.ShloMosaic.Init
import proofs.«113494_g2000500751551631_pallasbulk_1084_2_alg».proof.Proof.KernelRun
import proofs.«113494_g2000500751551631_pallasbulk_1084_2_alg».proof.Proof.RefRun
import proofs.«113494_g2000500751551631_pallasbulk_1084_2_alg».proof.Proof.KFc
import proofs.«113494_g2000500751551631_pallasbulk_1084_2_alg».proof.Proof.RConv
import proofs.«113494_g2000500751551631_pallasbulk_1084_2_alg».proof.Proof.PreMask

noncomputable section

namespace Cert.Proof

open Idealize.ShloMosaic Idealize.SL.Sem

/-- Both programs end with the spec's scores of the (agreeing) arguments. -/
theorem algebraic : Cert.algebraic_KernelIdeal_ReferenceIdeal := by
  intro m ρ m' ρ' hpre hagree
  have hmk : ∀ c : Dev Cert.KernelIdeal.nD, ∀ p : ℤ, 0 ≤ p → p < 1024 → (p < 31 ∨ 993 ≤ p) →
      Cert.Spec.mkOf (Cert.KernelIdeal.HostVal.aMask m c) p = 0 :=
    fun c p hp0 hp1 hp => Cert.PreMask.mkOf_ring_of_pre _ _ _ _ _ _ (hpre c) p hp0 hp1 hp
  refine ⟨fun c => Cert.Spec.G (Cert.KernelIdeal.HostVal.aX m c) (Cert.KernelIdeal.HostVal.aWc m c) (Cert.KernelIdeal.HostVal.aBc m c)
      (Cert.KernelIdeal.HostVal.aWfc m c) (Cert.KernelIdeal.HostVal.aBfc m c) (Cert.KernelIdeal.HostVal.aMask m c), ?_, ?_⟩
  · refine (θ_run Cert.KernelIdeal.defs _ _).mono (fun r h c => ?_) (Cert.KernelIdeal.Run.run_result (F := Ideal) m ρ)
    obtain ⟨hv, h0, h1, h2, h3, h4, h5⟩ := h c
    exact ⟨hv.trans (Cert.KernelIdeal.FcVal.result_eq m ρ c (hmk c)), h0, h1, h2, h3, h4, h5⟩
  · refine (θ_run Cert.ReferenceIdeal.defs _ _).mono (fun r h c => ?_) (Cert.ReferenceIdeal.Run.run_result (F := Ideal) m' ρ')
    obtain ⟨hv, h0, h1, h2, h3, h4, h5⟩ := h c
    obtain ⟨e0, e1, e2, e3, e4, e5⟩ := hagree c
    have hmk' : ∀ p : ℤ, 0 ≤ p → p < 1024 → (p < 31 ∨ 993 ≤ p) →
        Cert.Spec.mkOf (Cert.ReferenceIdeal.HostVal.aMask m' c) p = 0 := by
      intro p hp0 hp1 hp
      have := hmk c p hp0 hp1 hp
      unfold Cert.ReferenceIdeal.HostVal.aMask; rw [e5]; exact this
    refine ⟨hv.trans ((Cert.ReferenceIdeal.ConvVal.result_eq m' c hmk').trans ?_), h0, h1, h2, h3, h4, h5⟩
    unfold Cert.ReferenceIdeal.HostVal.aX Cert.ReferenceIdeal.HostVal.aWc Cert.ReferenceIdeal.HostVal.aBc
      Cert.ReferenceIdeal.HostVal.aWfc Cert.ReferenceIdeal.HostVal.aBfc Cert.ReferenceIdeal.HostVal.aMask
    rw [e0, e1, e2, e3, e4, e5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
